-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x256 : Shape := ⟨4, ![8, 128, 256, 256]⟩
abbrev S8x256x256 : Shape := ⟨3, ![8, 256, 256]⟩
abbrev S_ : Shape := ⟨0, ![]⟩

class Facts : Prop where
  bcast_S_S8x128x256x256 : S_.BroadcastsInDim S8x128x256x256 (![] : Fin 0 → Fin S8x128x256x256.rank)
  reducesTo_S8x128x256x256_S_d0_1_2_3 : S8x128x256x256.ReducesTo [0, 1, 2, 3] S_
  h_S_ : 0 < S_.numel

variable [Facts]

def fn {F : FTy → Type} [FloatOps F] (main_arg0 : FVec F S8x128x256x256 .f32) (main_arg1 : IVec S8x256x256 32) : IVec S_ 1 :=
  let main_v0 : FVec F S8x128x256x256 .f32 := Host.absf main_arg0
  let main_cst : FVec F S_ .f32 := constant S_ .f32 0x7F800000#32
  let main_v1 : FVec F S8x128x256x256 .f32 := broadcastInDim S8x128x256x256 ![] bcast_S_S8x128x256x256 main_cst
  let main_v2 : IVec S8x128x256x256 1 := cmpf .olt main_v0 main_v1
  let main_c : IVec S_ 1 := constantI S_ 1 1#1
  let main_v3 : IVec S_ 1 := (fun x v => Host.reduce IntOp.andi x v reducesTo_S8x128x256x256_S_d0_1_2_3 h_S_) main_v2 main_c
  main_v3
-- ==== Kernel.lean ====
abbrev S8x128x256x256 : Shape := ⟨4, ![8, 128, 256, 256]⟩
abbrev S8x256x256 : Shape := ⟨3, ![8, 256, 256]⟩
abbrev S8x128x65536 : Shape := ⟨3, ![8, 128, 65536]⟩
abbrev S8x1x65536 : Shape := ⟨3, ![8, 1, 65536]⟩
abbrev S2x19x128 : Shape := ⟨3, ![2, 19, 128]⟩
abbrev S2x19x1 : Shape := ⟨3, ![2, 19, 1]⟩
abbrev S_ : Shape := ⟨0, ![]⟩
abbrev S19x128 : Shape := ⟨2, ![19, 128]⟩
abbrev S19x1 : Shape := ⟨2, ![19, 1]⟩
abbrev S19 : Shape := ⟨1, ![19]⟩
abbrev S19x1x128 : Shape := ⟨3, ![19, 1, 128]⟩
abbrev S1x19x128 : Shape := ⟨3, ![1, 19, 128]⟩
abbrev S19x19x128 : Shape := ⟨3, ![19, 19, 128]⟩
abbrev S19x19 : Shape := ⟨2, ![19, 19]⟩
abbrev S1x19 : Shape := ⟨2, ![1, 19]⟩
abbrev S1x128x16384 : Shape := ⟨3, ![1, 128, 16384]⟩
abbrev S1x1x16384 : Shape := ⟨3, ![1, 1, 16384]⟩
abbrev S1x19x1 : Shape := ⟨3, ![1, 19, 1]⟩
abbrev S128x16384 : Shape := ⟨2, ![128, 16384]⟩
abbrev S1x16384 : Shape := ⟨2, ![1, 16384]⟩
abbrev S19x16384 : Shape := ⟨2, ![19, 16384]⟩
abbrev S16384 : Shape := ⟨1, ![16384]⟩

abbrev nBuf : Space → Nat
  | .hbm => 122
  | .vmem => 17
  | .smem => 0
  | _ => 0

abbrev bufTy : (tb : Table) → Fin (tcTables nBuf tb) → BufTy
  | .hbm, ⟨0, _⟩ => ⟨S8x128x256x256, .f32⟩
  | .hbm, ⟨1, _⟩ => ⟨S8x256x256, .i32⟩
  | .hbm, ⟨2, _⟩ => ⟨S8x128x65536, .f32⟩
  | .hbm, ⟨3, _⟩ => ⟨S8x1x65536, .i32⟩
  | .hbm, ⟨4, _⟩ => ⟨S2x19x128, .f32⟩
  | .hbm, ⟨5, _⟩ => ⟨S2x19x1, .f32⟩
  | .hbm, ⟨6, _⟩ => ⟨S_, .f32⟩
  | .hbm, ⟨7, _⟩ => ⟨S19x128, .f32⟩
  | .hbm, ⟨8, _⟩ => ⟨S_, .f32⟩
  | .hbm, ⟨9, _⟩ => ⟨S19x1, .f32⟩
  | .hbm, ⟨10, _⟩ => ⟨S_, .f32⟩
  | .hbm, ⟨11, _⟩ => ⟨S19x1, .f32⟩
  | .hbm, ⟨12, _⟩ => ⟨S19x1, .f32⟩
  | .hbm, ⟨13, _⟩ => ⟨S19x128, .f32⟩
  | .hbm, ⟨14, _⟩ => ⟨S19x128, .f32⟩
  | .hbm, ⟨15, _⟩ => ⟨S19, .f32⟩
  | .hbm, ⟨16, _⟩ => ⟨S_, .f32⟩
  | .hbm, ⟨17, _⟩ => ⟨S19, .f32⟩
  | .hbm, ⟨18, _⟩ => ⟨S19, .i1⟩
  | .hbm, ⟨19, _⟩ => ⟨S19, .f32⟩
  | .hbm, ⟨20, _⟩ => ⟨S19x1, .f32⟩
  | .hbm, ⟨21, _⟩ => ⟨S19x128, .f32⟩
  | .hbm, ⟨22, _⟩ => ⟨S_, .f32⟩
  | .hbm, ⟨23, _⟩ => ⟨S19, .f32⟩
  | .hbm, ⟨24, _⟩ => ⟨S19x1, .f32⟩
  | .hbm, ⟨25, _⟩ => ⟨S2x19x1, .f32⟩
  | .hbm, ⟨26, _⟩ => ⟨S_, .f32⟩
  | .hbm, ⟨27, _⟩ => ⟨S19x1, .f32⟩
  | .hbm, ⟨28, _⟩ => ⟨S19, .f32⟩
  | .hbm, ⟨29, _⟩ => ⟨S19, .f32⟩
  | .hbm, ⟨30, _⟩ => ⟨S19, .f32⟩
  | .hbm, ⟨31, _⟩ => ⟨S_, .f32⟩
  | .hbm, ⟨32, _⟩ => ⟨S_, .f32⟩
  | .hbm, ⟨33, _⟩ => ⟨S19, .f32⟩
  | .hbm, ⟨34, _⟩ => ⟨S19, .f32⟩
  | .hbm, ⟨35, _⟩ => ⟨S_, .f32⟩
  | .hbm, ⟨36, _⟩ => ⟨S_, .f32⟩
  | .hbm, ⟨37, _⟩ => ⟨S19, .f32⟩
  | .hbm, ⟨38, _⟩ => ⟨S_, .f32⟩
  | .hbm, ⟨39, _⟩ => ⟨S19, .f32⟩
  | .hbm, ⟨40, _⟩ => ⟨S19, .i1⟩
  | .hbm, ⟨41, _⟩ => ⟨S_, .f32⟩
  | .hbm, ⟨42, _⟩ => ⟨S_, .f32⟩
  | .hbm, ⟨43, _⟩ => ⟨S19, .f32⟩
  | .hbm, ⟨44, _⟩ => ⟨S19, .f32⟩
  | .hbm, ⟨45, _⟩ => ⟨S19, .f32⟩
  | .hbm, ⟨46, _⟩ => ⟨S_, .f32⟩
  | .hbm, ⟨47, _⟩ => ⟨S_, .f32⟩
  | .hbm, ⟨48, _⟩ => ⟨S19, .f32⟩
  | .hbm, ⟨49, _⟩ => ⟨S19, .f32⟩
  | .hbm, ⟨50, _⟩ => ⟨S_, .f32⟩
  | .hbm, ⟨51, _⟩ => ⟨S_, .f32⟩
  | .hbm, ⟨52, _⟩ => ⟨S19, .f32⟩
  | .hbm, ⟨53, _⟩ => ⟨S19, .f32⟩
  | .hbm, ⟨54, _⟩ => ⟨S_, .f32⟩
  | .hbm, ⟨55, _⟩ => ⟨S_, .f32⟩
  | .hbm, ⟨56, _⟩ => ⟨S19, .i32⟩
  | .hbm, ⟨57, _⟩ => ⟨S_, .i32⟩
  | .hbm, ⟨58, _⟩ => ⟨S_, .i32⟩
  | .hbm, ⟨59, _⟩ => ⟨S19, .i32⟩
  | .hbm, ⟨60, _⟩ => ⟨S19, .i32⟩
  | .hbm, ⟨61, _⟩ => ⟨S_, .i32⟩
  | .hbm, ⟨62, _⟩ => ⟨S_, .i32⟩
  | .hbm, ⟨63, _⟩ => ⟨S19, .i32⟩
  | .hbm, ⟨64, _⟩ => ⟨S19, .i1⟩
  | .hbm, ⟨65, _⟩ => ⟨S19, .i1⟩
  | .hbm, ⟨66, _⟩ => ⟨S19x1x128, .f32⟩
  | .hbm, ⟨67, _⟩ => ⟨S1x19x128, .f32⟩
  | .hbm, ⟨68, _⟩ => ⟨S19x19x128, .f32⟩
  | .hbm, ⟨69, _⟩ => ⟨S19x19x128, .f32⟩
  | .hbm, ⟨70, _⟩ => ⟨S19x19x128, .f32⟩
  | .hbm, ⟨71, _⟩ => ⟨S19x19x128, .f32⟩
  | .hbm, ⟨72, _⟩ => ⟨S_, .f32⟩
  | .hbm, ⟨73, _⟩ => ⟨S19x19, .f32⟩
  | .hbm, ⟨74, _⟩ => ⟨S_, .f32⟩
  | .hbm, ⟨75, _⟩ => ⟨S19x19, .f32⟩
  | .hbm, ⟨76, _⟩ => ⟨S19x19, .i1⟩
  | .hbm, ⟨77, _⟩ => ⟨S_, .f32⟩
  | .hbm, ⟨78, _⟩ => ⟨S_, .f32⟩
  | .hbm, ⟨79, _⟩ => ⟨S19x19, .f32⟩
  | .hbm, ⟨80, _⟩ => ⟨S19x19, .f32⟩
  | .hbm, ⟨81, _⟩ => ⟨S19x19, .f32⟩
  | .hbm, ⟨82, _⟩ => ⟨S_, .f32⟩
  | .hbm, ⟨83, _⟩ => ⟨S_, .f32⟩
  | .hbm, ⟨84, _⟩ => ⟨S19x19, .f32⟩
  | .hbm, ⟨85, _⟩ => ⟨S19x19, .f32⟩
  | .hbm, ⟨86, _⟩ => ⟨S_, .f32⟩
  | .hbm, ⟨87, _⟩ => ⟨S19x19, .f32⟩
  | .hbm, ⟨88, _⟩ => ⟨S19x19, .f32⟩
  | .hbm, ⟨89, _⟩ => ⟨S_, .f32⟩
  | .hbm, ⟨90, _⟩ => ⟨S19x19, .f32⟩
  | .hbm, ⟨91, _⟩ => ⟨S19x19, .f32⟩
  | .hbm, ⟨92, _⟩ => ⟨S19x1, .i1⟩
  | .hbm, ⟨93, _⟩ => ⟨S1x19, .i1⟩
  | .hbm, ⟨94, _⟩ => ⟨S19x19, .i1⟩
  | .hbm, ⟨95, _⟩ => ⟨S19x19, .i1⟩
  | .hbm, ⟨96, _⟩ => ⟨S19x19, .i1⟩
  | .hbm, ⟨97, _⟩ => ⟨S19x19, .f32⟩
  | .hbm, ⟨98, _⟩ => ⟨S_, .f32⟩
  | .hbm, ⟨99, _⟩ => ⟨S_, .f32⟩
  | .hbm, ⟨100, _⟩ => ⟨S19x19, .f32⟩
  | .hbm, ⟨101, _⟩ => ⟨S19x19, .f32⟩
  | .hbm, ⟨102, _⟩ => ⟨S_, .f32⟩
  | .hbm, ⟨103, _⟩ => ⟨S_, .f32⟩
  | .hbm, ⟨104, _⟩ => ⟨S19, .i32⟩
  | .hbm, ⟨105, _⟩ => ⟨S_, .i32⟩
  | .hbm, ⟨106, _⟩ => ⟨S_, .i32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .local _ .vmem, ⟨0, _⟩ => ⟨S1x128x16384, .f32⟩
  | .local _ .vmem, ⟨1, _⟩ => ⟨S1x128x16384, .f32⟩
  | .local _ .vmem, ⟨2, _⟩ => ⟨S1x1x16384, .i32⟩
  | .local _ .vmem, ⟨3, _⟩ => ⟨S1x1x16384, .i32⟩
  | .local _ .vmem, ⟨4, _⟩ => ⟨S1x19x128, .f32⟩
  | .local _ .vmem, ⟨5, _⟩ => ⟨S1x19x128, .f32⟩
  | .local _ .vmem, ⟨6, _⟩ => ⟨S1x19x1, .f32⟩
  | .local _ .vmem, ⟨7, _⟩ => ⟨S1x19x1, .f32⟩
  | .local _ .vmem, ⟨8, _⟩ => ⟨S1x128x16384, .f32⟩
  | .local _ .vmem, ⟨9, _⟩ => ⟨S1x128x16384, .f32⟩
  | .local _ .vmem, ⟨10, _⟩ => ⟨S1x1x16384, .i32⟩
  | .local _ .vmem, ⟨11, _⟩ => ⟨S1x1x16384, .i32⟩
  | .local _ .vmem, ⟨12, _⟩ => ⟨S19x128, .f32⟩
  | .local _ .vmem, ⟨13, _⟩ => ⟨S19x1, .f32⟩
  | .local _ .vmem, ⟨14, _⟩ => ⟨S19x1, .f32⟩
  | .local _ .vmem, ⟨15, _⟩ => ⟨S1x19x1, .f32⟩
  | .local _ .vmem, ⟨16, _⟩ => ⟨S1x19x1, .f32⟩
  | _, _ => ⟨S8x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_cst : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_cst_1 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_cst_2 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst_3 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_cst_4 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_cst_5 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_v22 : Ref sig .tc := ⟨.hbm, 34, rfl⟩
abbrev main_call0_cst_6 : Ref sig .tc := ⟨.hbm, 35, rfl⟩
abbrev main_call0_v23 : Ref sig .tc := ⟨.hbm, 36, rfl⟩
abbrev main_call0_v24 : Ref sig .tc := ⟨.hbm, 37, rfl⟩
abbrev main_call0_cst_7 : Ref sig .tc := ⟨.hbm, 38, rfl⟩
abbrev main_call0_v25 : Ref sig .tc := ⟨.hbm, 39, rfl⟩
abbrev main_call0_v26 : Ref sig .tc := ⟨.hbm, 40, rfl⟩
abbrev main_call0_cst_8 : Ref sig .tc := ⟨.hbm, 41, rfl⟩
abbrev main_call0_call1_v0 : Ref sig .tc := ⟨.hbm, 42, rfl⟩
abbrev main_call0_call1_v1 : Ref sig .tc := ⟨.hbm, 43, rfl⟩
abbrev main_call0_v27 : Ref sig .tc := ⟨.hbm, 44, rfl⟩
abbrev main_call0_v28 : Ref sig .tc := ⟨.hbm, 45, rfl⟩
abbrev main_call0_cst_9 : Ref sig .tc := ⟨.hbm, 46, rfl⟩
abbrev main_call0_call2_v0 : Ref sig .tc := ⟨.hbm, 47, rfl⟩
abbrev main_call0_call2_v1 : Ref sig .tc := ⟨.hbm, 48, rfl⟩
abbrev main_call0_v29 : Ref sig .tc := ⟨.hbm, 49, rfl⟩
abbrev main_call0_cst_10 : Ref sig .tc := ⟨.hbm, 50, rfl⟩
abbrev main_call0_call3_v0 : Ref sig .tc := ⟨.hbm, 51, rfl⟩
abbrev main_call0_call3_v1 : Ref sig .tc := ⟨.hbm, 52, rfl⟩
abbrev main_call0_v30 : Ref sig .tc := ⟨.hbm, 53, rfl⟩
abbrev main_call0_cst_11 : Ref sig .tc := ⟨.hbm, 54, rfl⟩
abbrev main_call0_v31 : Ref sig .tc := ⟨.hbm, 55, rfl⟩
abbrev main_call0_v32 : Ref sig .tc := ⟨.hbm, 56, rfl⟩
abbrev main_call0_c : Ref sig .tc := ⟨.hbm, 57, rfl⟩
abbrev main_call0_call4_v0 : Ref sig .tc := ⟨.hbm, 58, rfl⟩
abbrev main_call0_call4_v1 : Ref sig .tc := ⟨.hbm, 59, rfl⟩
abbrev main_call0_v33 : Ref sig .tc := ⟨.hbm, 60, rfl⟩
abbrev main_call0_c_12 : Ref sig .tc := ⟨.hbm, 61, rfl⟩
abbrev main_call0_v34 : Ref sig .tc := ⟨.hbm, 62, rfl⟩
abbrev main_call0_v35 : Ref sig .tc := ⟨.hbm, 63, rfl⟩
abbrev main_call0_v36 : Ref sig .tc := ⟨.hbm, 64, rfl⟩
abbrev main_call0_v37 : Ref sig .tc := ⟨.hbm, 65, rfl⟩
abbrev main_call0_v38 : Ref sig .tc := ⟨.hbm, 66, rfl⟩
abbrev main_call0_v39 : Ref sig .tc := ⟨.hbm, 67, rfl⟩
abbrev main_call0_v40 : Ref sig .tc := ⟨.hbm, 68, rfl⟩
abbrev main_call0_v41 : Ref sig .tc := ⟨.hbm, 69, rfl⟩
abbrev main_call0_v42 : Ref sig .tc := ⟨.hbm, 70, rfl⟩
abbrev main_call0_v43 : Ref sig .tc := ⟨.hbm, 71, rfl⟩
abbrev main_call0_cst_13 : Ref sig .tc := ⟨.hbm, 72, rfl⟩
abbrev main_call0_v44 : Ref sig .tc := ⟨.hbm, 73, rfl⟩
abbrev main_call0_cst_14 : Ref sig .tc := ⟨.hbm, 74, rfl⟩
abbrev main_call0_v45 : Ref sig .tc := ⟨.hbm, 75, rfl⟩
abbrev main_call0_v46 : Ref sig .tc := ⟨.hbm, 76, rfl⟩
abbrev main_call0_cst_15 : Ref sig .tc := ⟨.hbm, 77, rfl⟩
abbrev main_call0_call5_v0 : Ref sig .tc := ⟨.hbm, 78, rfl⟩
abbrev main_call0_call5_v1 : Ref sig .tc := ⟨.hbm, 79, rfl⟩
abbrev main_call0_v47 : Ref sig .tc := ⟨.hbm, 80, rfl⟩
abbrev main_call0_v48 : Ref sig .tc := ⟨.hbm, 81, rfl⟩
abbrev main_call0_cst_16 : Ref sig .tc := ⟨.hbm, 82, rfl⟩
abbrev main_call0_call6_v0 : Ref sig .tc := ⟨.hbm, 83, rfl⟩
abbrev main_call0_call6_v1 : Ref sig .tc := ⟨.hbm, 84, rfl⟩
abbrev main_call0_v49 : Ref sig .tc := ⟨.hbm, 85, rfl⟩
abbrev main_call0_cst_17 : Ref sig .tc := ⟨.hbm, 86, rfl⟩
abbrev main_call0_v50 : Ref sig .tc := ⟨.hbm, 87, rfl⟩
abbrev main_call0_v51 : Ref sig .tc := ⟨.hbm, 88, rfl⟩
abbrev main_call0_cst_18 : Ref sig .tc := ⟨.hbm, 89, rfl⟩
abbrev main_call0_v52 : Ref sig .tc := ⟨.hbm, 90, rfl⟩
abbrev main_call0_v53 : Ref sig .tc := ⟨.hbm, 91, rfl⟩
abbrev main_call0_v54 : Ref sig .tc := ⟨.hbm, 92, rfl⟩
abbrev main_call0_v55 : Ref sig .tc := ⟨.hbm, 93, rfl⟩
abbrev main_call0_v56 : Ref sig .tc := ⟨.hbm, 94, rfl⟩
abbrev main_call0_v57 : Ref sig .tc := ⟨.hbm, 95, rfl⟩
abbrev main_call0_v58 : Ref sig .tc := ⟨.hbm, 96, rfl⟩
abbrev main_call0_v59 : Ref sig .tc := ⟨.hbm, 97, rfl⟩
abbrev main_call0_cst_19 : Ref sig .tc := ⟨.hbm, 98, rfl⟩
abbrev main_call0_call7_v0 : Ref sig .tc := ⟨.hbm, 99, rfl⟩
abbrev main_call0_call7_v1 : Ref sig .tc := ⟨.hbm, 100, rfl⟩
abbrev main_call0_v60 : Ref sig .tc := ⟨.hbm, 101, rfl⟩
abbrev main_call0_cst_20 : Ref sig .tc := ⟨.hbm, 102, rfl⟩
abbrev main_call0_v61 : Ref sig .tc := ⟨.hbm, 103, rfl⟩
abbrev main_call0_v62 : Ref sig .tc := ⟨.hbm, 104, rfl⟩
abbrev main_call0_c_21 : Ref sig .tc := ⟨.hbm, 105, rfl⟩
abbrev main_call0_v63 : Ref sig .tc := ⟨.hbm, 106, rfl⟩
abbrev main_call0_v64 : Ref sig .tc := ⟨.hbm, 107, rfl⟩
abbrev main_call0_cst_22 : Ref sig .tc := ⟨.hbm, 108, rfl⟩
abbrev main_call0_v65 : Ref sig .tc := ⟨.hbm, 109, rfl⟩
abbrev main_call0_v66 : Ref sig .tc := ⟨.hbm, 110, rfl⟩
abbrev main_call0_cst_23 : Ref sig .tc := ⟨.hbm, 111, rfl⟩
abbrev main_call0_v67 : Ref sig .tc := ⟨.hbm, 112, rfl⟩
abbrev main_call0_cst_24 : Ref sig .tc := ⟨.hbm, 113, rfl⟩
abbrev main_call0_v68 : Ref sig .tc := ⟨.hbm, 114, rfl⟩
abbrev main_call0_v69 : Ref sig .tc := ⟨.hbm, 115, rfl⟩
abbrev main_call0_v70 : Ref sig .tc := ⟨.hbm, 116, rfl⟩
abbrev main_call0_v71 : Ref sig .tc := ⟨.hbm, 117, rfl⟩
abbrev main_call0_cst_25 : Ref sig .tc := ⟨.hbm, 118, rfl⟩
abbrev main_call0_v72 : Ref sig .tc := ⟨.hbm, 119, rfl⟩
abbrev main_call0_v73 : Ref sig .tc := ⟨.hbm, 120, rfl⟩
abbrev main_v0 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x19x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x19x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev grid1 : Pipeline.Grid := ⟨3, ![2, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x16384 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 1 → Memref sig .tc .vmem S19x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S19x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S19x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x19x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

class Facts₀ : Prop where
  shapeCasts_S8x128x256x256_S8x128x65536 : S8x128x256x256.ShapeCasts S8x128x65536
  shapeCasts_S8x256x256_S8x1x65536 : S8x256x256.ShapeCasts S8x1x65536
  reducesTo_S2x19x128_S19x128_d0 : S2x19x128.ReducesTo [0] S19x128
  h_S_ : 0 < S_.numel
  reducesTo_S2x19x1_S19x1_d0 : S2x19x1.ReducesTo [0] S19x1
  bcast_S_S19x1 : S_.BroadcastsInDim S19x1 (![] : Fin 0 → Fin S19x1.rank)
  bcast_S19x1_S19x128_0_1 : S19x1.BroadcastsInDim S19x128 (![0, 1] : Fin 2 → Fin S19x128.rank)
  shapeCasts_S19x1_S19 : S19x1.ShapeCasts S19
  bcast_S_S19 : S_.BroadcastsInDim S19 (![] : Fin 0 → Fin S19.rank)
  shapeCasts_S19_S19x1 : S19.ShapeCasts S19x1
  reducesTo_S19x128_S19_d1 : S19x128.ReducesTo [1] S19
  bcast_S19_S19x1_0 : S19.BroadcastsInDim S19x1 (![0] : Fin 1 → Fin S19x1.rank)
  reducesTo_S19_S_d0 : S19.ReducesTo [0] S_
  bcast_S19x128_S19x1x128_0_2 : S19x128.BroadcastsInDim S19x1x128 (![0, 2] : Fin 2 → Fin S19x1x128.rank)
  bcast_S19x128_S1x19x128_1_2 : S19x128.BroadcastsInDim S1x19x128 (![1, 2] : Fin 2 → Fin S1x19x128.rank)
  bcast_S19x1x128_S19x19x128_0_1_2 : S19x1x128.BroadcastsInDim S19x19x128 (![0, 1, 2] : Fin 3 → Fin S19x19x128.rank)
  bcast_S1x19x128_S19x19x128_0_1_2 : S1x19x128.BroadcastsInDim S19x19x128 (![0, 1, 2] : Fin 3 → Fin S19x19x128.rank)
  reducesTo_S19x19x128_S19x19_d2 : S19x19x128.ReducesTo [2] S19x19
  bcast_S_S19x19 : S_.BroadcastsInDim S19x19 (![] : Fin 0 → Fin S19x19.rank)
  bcast_S19_S1x19_1 : S19.BroadcastsInDim S1x19 (![1] : Fin 1 → Fin S1x19.rank)
  bcast_S19x1_S19x19_0_1 : S19x1.BroadcastsInDim S19x19 (![0, 1] : Fin 2 → Fin S19x19.rank)
  bcast_S1x19_S19x19_0_1 : S1x19.BroadcastsInDim S19x19 (![0, 1] : Fin 2 → Fin S19x19.rank)
  reducesTo_S19x19_S_d0_1 : S19x19.ReducesTo [0, 1] S_
  natLt_1_32 : 1 < 32
  inb_S1x19x128_S1x19x128_0_0_0 : ∀ a, (![0, 0, 0] : Fin 3 → Nat) a + S1x19x128.size a ≤ S1x19x128.size a
  h_S1x19x128 : 0 < S1x19x128.numel
  shapeCasts_S1x19x128_S19x128 : S1x19x128.ShapeCasts S19x128
  shapeCasts_S19x128_S1x19x128 : S19x128.ShapeCasts S1x19x128
  inb_S1x19x1_S1x19x1_0_0_0 : ∀ a, (![0, 0, 0] : Fin 3 → Nat) a + S1x19x1.size a ≤ S1x19x1.size a
  h_S1x19x1 : 0 < S1x19x1.numel
  shapeCasts_S1x19x1_S19x1 : S1x19x1.ShapeCasts S19x1
  shapeCasts_S19x1_S1x19x1 : S19x1.ShapeCasts S1x19x1
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  iota_S19x16384_d0_w32 : S19x16384.Iotas .tc 32 [0]
  broadcasts_S1x16384_S19x16384 : S1x16384.Broadcasts S19x16384
  reduces_S19x16384_S19 : S19x16384.Reduces [1] S19
  bitsLt_bf16_f32 : FTy.bits .bf16 < FTy.bits .f32
  inb_S19x128_S19x128_0_0 : ∀ a, (![0, 0] : Fin 2 → Nat) a + S19x128.size a ≤ S19x128.size a
  h_S19x128 : 0 < S19x128.numel
  shapeCasts_S19x128_S19x128 : S19x128.ShapeCasts S19x128
  inb_S19x1_S19x1_0_0 : ∀ a, (![0, 0] : Fin 2 → Nat) a + S19x1.size a ≤ S19x1.size a
  h_S19x1 : 0 < S19x1.numel
  shapeCasts_S19x1_S19x1 : S19x1.ShapeCasts S19x1
  reduces_S128x16384_S16384 : S128x16384.Reduces [0] S16384
  shapeCasts_S16384_S1x16384 : S16384.ShapeCasts S1x16384
  reduces_S19x16384_S16384 : S19x16384.Reduces [0] S16384
  broadcasts_S19x1_S19x16384 : S19x1.Broadcasts S19x16384
  dot_S19x16384_S128x16384_S19x128_1_1_0_0_n_n_wf : DotDims.WF S19x16384 S128x16384 S19x128 [1] [1] [0] [0] [] []
  dot_S19x128_S128x16384_S19x16384_1_0_0_1_n_n_wf : DotDims.WF S19x128 S128x16384 S19x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16384.size a ≤ S8x128x65536.size a
  hwx0_0 : ∀ i : grid0.Coords, EltTy.bits .f32 = 32 ∨ (Rect.block (s := S8x128x65536) S1x128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S8x1x65536.size a
  hwx0_1 : ∀ i : grid0.Coords, EltTy.bits .i32 = 32 ∨ (Rect.block (s := S8x1x65536) S1x1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x128.size a ≤ S2x19x128.size a
  hwx0_2 : ∀ i : grid0.Coords, EltTy.bits .f32 = 32 ∨ (Rect.block (s := S2x19x128) S1x19x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x1.size a ≤ S2x19x1.size a
  hwx0_3 : ∀ i : grid0.Coords, EltTy.bits .f32 = 32 ∨ (Rect.block (s := S2x19x1) S1x19x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x16384.size a ≤ S8x128x65536.size a
  hwx1_0 : ∀ i : grid1.Coords, EltTy.bits .f32 = 32 ∨ (Rect.block (s := S8x128x65536) S1x128x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x16384.size a ≤ S8x1x65536.size a
  hwx1_1 : ∀ i : grid1.Coords, EltTy.bits .i32 = 32 ∨ (Rect.block (s := S8x1x65536) S1x1x16384.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S19x128.size a ≤ S19x128.size a
  hwx1_2 : ∀ i : grid1.Coords, EltTy.bits .f32 = 32 ∨ (Rect.block (s := S19x128) S19x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S19x1.size a ≤ S19x1.size a
  hwx1_3 : ∀ i : grid1.Coords, EltTy.bits .f32 = 32 ∨ (Rect.block (s := S19x1) S19x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S19x1.size a ≤ S19x1.size a
  hwx1_4 : ∀ i : grid1.Coords, EltTy.bits .f32 = 32 ∨ (Rect.block (s := S19x1) S19x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x19x1.size a ≤ S2x19x1.size a
  hwx1_5 : ∀ i : grid1.Coords, EltTy.bits .f32 = 32 ∨ (Rect.block (s := S2x19x1) S1x19x1.size (cc1_transform_5 i) (hinb1_5 i)).WholeWords (EltTy.packing .f32)

variable [Facts₀]

def dot_S19x16384_S128x16384_S19x128_1_1_0_0_n_n : DotDims S19x16384 S128x16384 S19x128 where
  lhsContracting := [1]
  rhsContracting := [1]
  lhsNonContracting := [0]
  rhsNonContracting := [0]
  lhsBatch := []
  rhsBatch := []
  wf := dot_S19x16384_S128x16384_S19x128_1_1_0_0_n_n_wf
def dot_S19x128_S128x16384_S19x16384_1_0_0_1_n_n : DotDims S19x128 S128x16384 S19x16384 where
  lhsContracting := [1]
  rhsContracting := [0]
  lhsNonContracting := [0]
  rhsNonContracting := [1]
  lhsBatch := []
  rhsBatch := []
  wf := dot_S19x128_S128x16384_S19x16384_1_0_0_1_n_n_wf

abbrev win0_0 : Pipeline.Window sig grid0 :=
  Pipeline.Window.ofSpec (Memref.whole main_call0_v0) S1x128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S1x19x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S1x19x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v0) S1x128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S1x1x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v8) S19x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v16) S19x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v13) S19x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v17) S1x19x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x128x256x256 : Shape := ⟨4, ![8, 128, 256, 256]⟩
abbrev S8x256x256 : Shape := ⟨3, ![8, 256, 256]⟩
abbrev S8x256x256x128 : Shape := ⟨4, ![8, 256, 256, 128]⟩
abbrev S524288x128 : Shape := ⟨2, ![524288, 128]⟩
abbrev S524288 : Shape := ⟨1, ![524288]⟩
abbrev S_ : Shape := ⟨0, ![]⟩
abbrev S19 : Shape := ⟨1, ![19]⟩
abbrev S524288x1 : Shape := ⟨2, ![524288, 1]⟩
abbrev S19x128 : Shape := ⟨2, ![19, 128]⟩
abbrev S19x1 : Shape := ⟨2, ![19, 1]⟩
abbrev S19x1x128 : Shape := ⟨3, ![19, 1, 128]⟩
abbrev S1x19x128 : Shape := ⟨3, ![1, 19, 128]⟩
abbrev S19x19x128 : Shape := ⟨3, ![19, 19, 128]⟩
abbrev S19x19 : Shape := ⟨2, ![19, 19]⟩
abbrev S1x19 : Shape := ⟨2, ![1, 19]⟩

abbrev nBuf : Space → Nat
  | .hbm => 180
  | .vmem => 0
  | .smem => 0
  | _ => 0

abbrev hbmTy0_0 (i : Nat) : BufTy := match i % 128 with
  | 0 => ⟨S8x128x256x256, .f32⟩
  | 1 => ⟨S8x256x256, .i32⟩
  | 2 => ⟨S8x256x256x128, .f32⟩
  | 3 => ⟨S524288x128, .f32⟩
  | 4 => ⟨S524288, .i32⟩
  | 5 => ⟨S_, .i32⟩
  | 6 => ⟨S524288, .i32⟩
  | 7 => ⟨S524288, .i1⟩
  | 8 => ⟨S_, .i32⟩
  | 9 => ⟨S_, .i32⟩
  | 10 => ⟨S524288, .i32⟩
  | 11 => ⟨S524288, .i32⟩
  | 12 => ⟨S524288, .f32⟩
  | 13 => ⟨S_, .f32⟩
  | 14 => ⟨S19, .f32⟩
  | 15 => ⟨S524288x1, .i32⟩
  | 16 => ⟨S19, .f32⟩
  | 17 => ⟨S524288x1, .i1⟩
  | 18 => ⟨S_, .f32⟩
  | 19 => ⟨S_, .f32⟩
  | 20 => ⟨S524288x128, .i1⟩
  | 21 => ⟨S524288x128, .f32⟩
  | 22 => ⟨S524288x128, .f32⟩
  | 23 => ⟨S_, .f32⟩
  | 24 => ⟨S19x128, .f32⟩
  | 25 => ⟨S524288x1, .i32⟩
  | 26 => ⟨S19x128, .f32⟩
  | 27 => ⟨S_, .f32⟩
  | 28 => ⟨S19, .f32⟩
  | 29 => ⟨S19, .f32⟩
  | 30 => ⟨S19x1, .f32⟩
  | 31 => ⟨S19x128, .f32⟩
  | 32 => ⟨S19x128, .f32⟩
  | 33 => ⟨S_, .f32⟩
  | 34 => ⟨S19, .f32⟩
  | 35 => ⟨S19, .i1⟩
  | 36 => ⟨S_, .i32⟩
  | 37 => ⟨S524288, .i32⟩
  | 38 => ⟨S524288, .i1⟩
  | 39 => ⟨S_, .i32⟩
  | 40 => ⟨S524288, .i32⟩
  | 41 => ⟨S524288, .i32⟩
  | 42 => ⟨S524288, .i32⟩
  | 43 => ⟨S524288x1, .i32⟩
  | 44 => ⟨S524288x128, .f32⟩
  | 45 => ⟨S524288x128, .f32⟩
  | 46 => ⟨S524288x128, .f32⟩
  | 47 => ⟨S_, .f32⟩
  | 48 => ⟨S524288, .f32⟩
  | 49 => ⟨S_, .f32⟩
  | 50 => ⟨S524288, .f32⟩
  | 51 => ⟨S524288, .i1⟩
  | 52 => ⟨S_, .f32⟩
  | 53 => ⟨S_, .f32⟩
  | 54 => ⟨S524288, .f32⟩
  | 55 => ⟨S524288, .f32⟩
  | 56 => ⟨S524288, .f32⟩
  | 57 => ⟨S_, .f32⟩
  | 58 => ⟨S_, .f32⟩
  | 59 => ⟨S524288, .f32⟩
  | 60 => ⟨S524288, .f32⟩
  | 61 => ⟨S_, .f32⟩
  | 62 => ⟨S524288, .f32⟩
  | 63 => ⟨S524288, .f32⟩
  | 64 => ⟨S_, .f32⟩
  | 65 => ⟨S524288, .f32⟩
  | 66 => ⟨S524288, .f32⟩
  | 67 => ⟨S_, .i32⟩
  | 68 => ⟨S524288, .i32⟩
  | 69 => ⟨S524288, .i1⟩
  | 70 => ⟨S_, .i32⟩
  | 71 => ⟨S524288, .i32⟩
  | 72 => ⟨S524288, .i32⟩
  | 73 => ⟨S524288, .i32⟩
  | 74 => ⟨S524288x1, .i32⟩
  | 75 => ⟨S524288, .i1⟩
  | 76 => ⟨S524288, .i1⟩
  | 77 => ⟨S524288, .f32⟩
  | 78 => ⟨S_, .f32⟩
  | 79 => ⟨S_, .f32⟩
  | 80 => ⟨S524288, .f32⟩
  | 81 => ⟨S524288, .f32⟩
  | 82 => ⟨S_, .f32⟩
  | 83 => ⟨S19, .f32⟩
  | 84 => ⟨S524288x1, .i32⟩
  | 85 => ⟨S19, .f32⟩
  | 86 => ⟨S19, .f32⟩
  | 87 => ⟨S_, .f32⟩
  | 88 => ⟨S_, .f32⟩
  | 89 => ⟨S19, .f32⟩
  | 90 => ⟨S19, .f32⟩
  | 91 => ⟨S_, .f32⟩
  | 92 => ⟨S_, .f32⟩
  | 93 => ⟨S19x128, .f32⟩
  | 94 => ⟨S_, .f32⟩
  | 95 => ⟨S19, .f32⟩
  | 96 => ⟨S_, .f32⟩
  | 97 => ⟨S19, .f32⟩
  | 98 => ⟨S19, .i1⟩
  | 99 => ⟨S_, .f32⟩
  | 100 => ⟨S_, .f32⟩
  | 101 => ⟨S19, .f32⟩
  | 102 => ⟨S19, .f32⟩
  | 103 => ⟨S19, .f32⟩
  | 104 => ⟨S_, .f32⟩
  | 105 => ⟨S_, .f32⟩
  | 106 => ⟨S19, .f32⟩
  | 107 => ⟨S19, .f32⟩
  | 108 => ⟨S_, .f32⟩
  | 109 => ⟨S_, .f32⟩
  | 110 => ⟨S19, .f32⟩
  | 111 => ⟨S19, .f32⟩
  | 112 => ⟨S_, .f32⟩
  | 113 => ⟨S_, .f32⟩
  | 114 => ⟨S19, .i32⟩
  | 115 => ⟨S_, .i32⟩
  | 116 => ⟨S_, .i32⟩
  | 117 => ⟨S19, .i32⟩
  | 118 => ⟨S19, .i32⟩
  | 119 => ⟨S_, .i32⟩
  | 120 => ⟨S_, .i32⟩
  | 121 => ⟨S19, .i32⟩
  | 122 => ⟨S19, .i1⟩
  | 123 => ⟨S19, .i1⟩
  | 124 => ⟨S19x1x128, .f32⟩
  | 125 => ⟨S1x19x128, .f32⟩
  | 126 => ⟨S19x19x128, .f32⟩
  | 127 => ⟨S19x19x128, .f32⟩
  | _ => ⟨S8x128x256x256, .f32⟩

abbrev hbmTy0_1 (i : Nat) : BufTy := match i % 128 with
  | 0 => ⟨S19x19x128, .f32⟩
  | 1 => ⟨S19x19x128, .f32⟩
  | 2 => ⟨S_, .f32⟩
  | 3 => ⟨S19x19, .f32⟩
  | 4 => ⟨S_, .f32⟩
  | 5 => ⟨S19x19, .f32⟩
  | 6 => ⟨S19x19, .i1⟩
  | 7 => ⟨S_, .f32⟩
  | 8 => ⟨S_, .f32⟩
  | 9 => ⟨S19x19, .f32⟩
  | 10 => ⟨S19x19, .f32⟩
  | 11 => ⟨S19x19, .f32⟩
  | 12 => ⟨S_, .f32⟩
  | 13 => ⟨S_, .f32⟩
  | 14 => ⟨S19x19, .f32⟩
  | 15 => ⟨S19x19, .f32⟩
  | 16 => ⟨S_, .f32⟩
  | 17 => ⟨S19x19, .f32⟩
  | 18 => ⟨S19x19, .f32⟩
  | 19 => ⟨S_, .f32⟩
  | 20 => ⟨S19x19, .f32⟩
  | 21 => ⟨S19x19, .f32⟩
  | 22 => ⟨S19x1, .i1⟩
  | 23 => ⟨S1x19, .i1⟩
  | 24 => ⟨S19x19, .i1⟩
  | 25 => ⟨S19x19, .i1⟩
  | 26 => ⟨S19x19, .i1⟩
  | 27 => ⟨S19x19, .f32⟩
  | 28 => ⟨S_, .f32⟩
  | 29 => ⟨S_, .f32⟩
  | 30 => ⟨S19x19, .f32⟩
  | 31 => ⟨S19x19, .f32⟩
  | 32 => ⟨S_, .f32⟩
  | 33 => ⟨S_, .f32⟩
  | 34 => ⟨S19, .i32⟩
  | 35 => ⟨S_, .i32⟩
  | 36 => ⟨S_, .i32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S8x128x256x256, .f32⟩

abbrev hbmTy (i : Nat) : BufTy := match i / 128 with
  | 0 => hbmTy0_0 i
  | 1 => hbmTy0_1 i
  | _ => ⟨S8x128x256x256, .f32⟩

abbrev bufTy : (tb : Table) → Fin (tcTables nBuf tb) → BufTy
  | .hbm, ⟨i, _⟩ => hbmTy i
  | _, _ => ⟨S8x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_call2_v0 : Ref sig .tc := ⟨.hbm, 53, rfl⟩
abbrev main_call2_v1 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_call3_v0 : Ref sig .tc := ⟨.hbm, 58, rfl⟩
abbrev main_call3_v1 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_v40 : Ref sig .tc := ⟨.hbm, 66, rfl⟩
abbrev main_c_13 : Ref sig .tc := ⟨.hbm, 67, rfl⟩
abbrev main_v41 : Ref sig .tc := ⟨.hbm, 68, rfl⟩
abbrev main_v42 : Ref sig .tc := ⟨.hbm, 69, rfl⟩
abbrev main_c_14 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_15 : Ref sig .tc := ⟨.hbm, 78, rfl⟩
abbrev main_call4_v0 : Ref sig .tc := ⟨.hbm, 79, rfl⟩
abbrev main_call4_v1 : Ref sig .tc := ⟨.hbm, 80, rfl⟩
abbrev main_v50 : Ref sig .tc := ⟨.hbm, 81, rfl⟩
abbrev main_cst_16 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_17 : Ref sig .tc := ⟨.hbm, 87, rfl⟩
abbrev main_call5_v0 : Ref sig .tc := ⟨.hbm, 88, rfl⟩
abbrev main_call5_v1 : Ref sig .tc := ⟨.hbm, 89, rfl⟩
abbrev main_v55 : Ref sig .tc := ⟨.hbm, 90, rfl⟩
abbrev main_cst_18 : Ref sig .tc := ⟨.hbm, 91, rfl⟩
abbrev main_v56 : Ref sig .tc := ⟨.hbm, 92, rfl⟩
abbrev main_v57 : Ref sig .tc := ⟨.hbm, 93, rfl⟩
abbrev main_cst_19 : Ref sig .tc := ⟨.hbm, 94, rfl⟩
abbrev main_v58 : Ref sig .tc := ⟨.hbm, 95, rfl⟩
abbrev main_cst_20 : Ref sig .tc := ⟨.hbm, 96, rfl⟩
abbrev main_v59 : Ref sig .tc := ⟨.hbm, 97, rfl⟩
abbrev main_v60 : Ref sig .tc := ⟨.hbm, 98, rfl⟩
abbrev main_cst_21 : Ref sig .tc := ⟨.hbm, 99, rfl⟩
abbrev main_call6_v0 : Ref sig .tc := ⟨.hbm, 100, rfl⟩
abbrev main_call6_v1 : Ref sig .tc := ⟨.hbm, 101, rfl⟩
abbrev main_v61 : Ref sig .tc := ⟨.hbm, 102, rfl⟩
abbrev main_v62 : Ref sig .tc := ⟨.hbm, 103, rfl⟩
abbrev main_cst_22 : Ref sig .tc := ⟨.hbm, 104, rfl⟩
abbrev main_call7_v0 : Ref sig .tc := ⟨.hbm, 105, rfl⟩
abbrev main_call7_v1 : Ref sig .tc := ⟨.hbm, 106, rfl⟩
abbrev main_v63 : Ref sig .tc := ⟨.hbm, 107, rfl⟩
abbrev main_cst_23 : Ref sig .tc := ⟨.hbm, 108, rfl⟩
abbrev main_call8_v0 : Ref sig .tc := ⟨.hbm, 109, rfl⟩
abbrev main_call8_v1 : Ref sig .tc := ⟨.hbm, 110, rfl⟩
abbrev main_v64 : Ref sig .tc := ⟨.hbm, 111, rfl⟩
abbrev main_cst_24 : Ref sig .tc := ⟨.hbm, 112, rfl⟩
abbrev main_v65 : Ref sig .tc := ⟨.hbm, 113, rfl⟩
abbrev main_v66 : Ref sig .tc := ⟨.hbm, 114, rfl⟩
abbrev main_c_25 : Ref sig .tc := ⟨.hbm, 115, rfl⟩
abbrev main_call9_v0 : Ref sig .tc := ⟨.hbm, 116, rfl⟩
abbrev main_call9_v1 : Ref sig .tc := ⟨.hbm, 117, rfl⟩
abbrev main_v67 : Ref sig .tc := ⟨.hbm, 118, rfl⟩
abbrev main_c_26 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_27 : Ref sig .tc := ⟨.hbm, 130, rfl⟩
abbrev main_v78 : Ref sig .tc := ⟨.hbm, 131, rfl⟩
abbrev main_cst_28 : Ref sig .tc := ⟨.hbm, 132, rfl⟩
abbrev main_v79 : Ref sig .tc := ⟨.hbm, 133, rfl⟩
abbrev main_v80 : Ref sig .tc := ⟨.hbm, 134, rfl⟩
abbrev main_cst_29 : Ref sig .tc := ⟨.hbm, 135, rfl⟩
abbrev main_call10_v0 : Ref sig .tc := ⟨.hbm, 136, rfl⟩
abbrev main_call10_v1 : Ref sig .tc := ⟨.hbm, 137, rfl⟩
abbrev main_v81 : Ref sig .tc := ⟨.hbm, 138, rfl⟩
abbrev main_v82 : Ref sig .tc := ⟨.hbm, 139, rfl⟩
abbrev main_cst_30 : Ref sig .tc := ⟨.hbm, 140, rfl⟩
abbrev main_call11_v0 : Ref sig .tc := ⟨.hbm, 141, rfl⟩
abbrev main_call11_v1 : Ref sig .tc := ⟨.hbm, 142, rfl⟩
abbrev main_v83 : Ref sig .tc := ⟨.hbm, 143, rfl⟩
abbrev main_cst_31 : Ref sig .tc := ⟨.hbm, 144, rfl⟩
abbrev main_v84 : Ref sig .tc := ⟨.hbm, 145, rfl⟩
abbrev main_v85 : Ref sig .tc := ⟨.hbm, 146, rfl⟩
abbrev main_cst_32 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst_33 : Ref sig .tc := ⟨.hbm, 156, rfl⟩
abbrev main_call12_v0 : Ref sig .tc := ⟨.hbm, 157, rfl⟩
abbrev main_call12_v1 : Ref sig .tc := ⟨.hbm, 158, rfl⟩
abbrev main_v94 : Ref sig .tc := ⟨.hbm, 159, rfl⟩
abbrev main_cst_34 : Ref sig .tc := ⟨.hbm, 160, rfl⟩
abbrev main_v95 : Ref sig .tc := ⟨.hbm, 161, rfl⟩
abbrev main_v96 : Ref sig .tc := ⟨.hbm, 162, rfl⟩
abbrev main_c_35 : Ref sig .tc := ⟨.hbm, 163, rfl⟩
abbrev main_v97 : Ref sig .tc := ⟨.hbm, 164, rfl⟩
abbrev main_v98 : Ref sig .tc := ⟨.hbm, 165, rfl⟩
abbrev main_cst_36 : Ref sig .tc := ⟨.hbm, 166, rfl⟩
abbrev main_v99 : Ref sig .tc := ⟨.hbm, 167, rfl⟩
abbrev main_v100 : Ref sig .tc := ⟨.hbm, 168, rfl⟩
abbrev main_cst_37 : Ref sig .tc := ⟨.hbm, 169, rfl⟩
abbrev main_v101 : Ref sig .tc := ⟨.hbm, 170, rfl⟩
abbrev main_cst_38 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_cst_39 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩

abbrev nD : Nat := 1
abbrev τ : Topo := Topo.v7x

variable {F : FTy → Type} [FloatOps F]

class Facts₀ : Prop where
  transposes_S8x128x256x256_S8x256x256x128_0_2_3_1 : S8x128x256x256.Transposes [0, 2, 3, 1] S8x256x256x128
  shapeCasts_S8x256x256x128_S524288x128 : S8x256x256x128.ShapeCasts S524288x128
  shapeCasts_S8x256x256_S524288 : S8x256x256.ShapeCasts S524288
  bcast_S_S524288 : S_.BroadcastsInDim S524288 (![] : Fin 0 → Fin S524288.rank)
  bcast_S_S19 : S_.BroadcastsInDim S19 (![] : Fin 0 → Fin S19.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S524288x128 : S_.BroadcastsInDim S524288x128 (![] : Fin 0 → Fin S524288x128.rank)
  bcast_S_S19x128 : S_.BroadcastsInDim S19x128 (![] : Fin 0 → Fin S19x128.rank)
  bcast_S19_S19x1_0 : S19.BroadcastsInDim S19x1 (![0] : Fin 1 → Fin S19x1.rank)
  bcast_S19x1_S19x128_0_1 : S19x1.BroadcastsInDim S19x128 (![0, 1] : Fin 2 → Fin S19x128.rank)
  reducesTo_S524288x128_S524288_d1 : S524288x128.ReducesTo [1] S524288
  h_S_ : 0 < S_.numel
  reducesTo_S19_S_d0 : S19.ReducesTo [0] S_
  reducesTo_S19x128_S19_d1 : S19x128.ReducesTo [1] S19
  bcast_S19x128_S19x1x128_0_2 : S19x128.BroadcastsInDim S19x1x128 (![0, 2] : Fin 2 → Fin S19x1x128.rank)
  bcast_S19x128_S1x19x128_1_2 : S19x128.BroadcastsInDim S1x19x128 (![1, 2] : Fin 2 → Fin S1x19x128.rank)
  bcast_S19x1x128_S19x19x128_0_1_2 : S19x1x128.BroadcastsInDim S19x19x128 (![0, 1, 2] : Fin 3 → Fin S19x19x128.rank)
  bcast_S1x19x128_S19x19x128_0_1_2 : S1x19x128.BroadcastsInDim S19x19x128 (![0, 1, 2] : Fin 3 → Fin S19x19x128.rank)
  reducesTo_S19x19x128_S19x19_d2 : S19x19x128.ReducesTo [2] S19x19
  bcast_S_S19x19 : S_.BroadcastsInDim S19x19 (![] : Fin 0 → Fin S19x19.rank)
  bcast_S19_S1x19_1 : S19.BroadcastsInDim S1x19 (![1] : Fin 1 → Fin S1x19.rank)
  bcast_S19x1_S19x19_0_1 : S19x1.BroadcastsInDim S19x19 (![0, 1] : Fin 2 → Fin S19x19.rank)
  bcast_S1x19_S19x19_0_1 : S1x19.BroadcastsInDim S19x19 (![0, 1] : Fin 2 → Fin S19x19.rank)
  reducesTo_S19x19_S_d0_1 : S19x19.ReducesTo [0, 1] S_
  natLt_1_32 : 1 < 32
  scatter_S19_S524288x1_S524288_n_0_0_1_wf : ScatterDims.WF S19 S524288x1 S524288 [] [0] [0] 1
  scatter_S19x128_S524288x1_S524288x128_1_0_0_1_wf : ScatterDims.WF S19x128 S524288x1 S524288x128 [1] [0] [0] 1
  gather_S19x128_S524288x1_S524288x128_1_0_n_n_0_1_1128_wf : GatherDims.WF S19x128 S524288x1 S524288x128 [1] [0] [] [0] [] 1 ![1, 128]
  gather_S19_S524288x1_S524288_n_0_n_n_0_1_1_wf : GatherDims.WF S19 S524288x1 S524288 [] [0] [] [0] [] 1 ![1]

variable [Facts₀]

def scatter_S19_S524288x1_S524288_n_0_0_1 : ScatterDims S19 S524288x1 S524288 where
  updateWindowDims := []
  insertedWindowDims := [0]
  scatterDimsToOperandDims := [0]
  indexVectorDim := 1
  wf := scatter_S19_S524288x1_S524288_n_0_0_1_wf
def scatter_S19x128_S524288x1_S524288x128_1_0_0_1 : ScatterDims S19x128 S524288x1 S524288x128 where
  updateWindowDims := [1]
  insertedWindowDims := [0]
  scatterDimsToOperandDims := [0]
  indexVectorDim := 1
  wf := scatter_S19x128_S524288x1_S524288x128_1_0_0_1_wf
def gather_S19x128_S524288x1_S524288x128_1_0_n_n_0_1_1128 : GatherDims S19x128 S524288x1 S524288x128 where
  offsetDims := [1]
  collapsedSliceDims := [0]
  operandBatchingDims := []
  startIndicesBatchingDims := []
  startIndexMap := [0]
  indexVectorDim := 1
  sliceSizes := ![1, 128]
  wf := gather_S19x128_S524288x1_S524288x128_1_0_n_n_0_1_1128_wf
def gather_S19_S524288x1_S524288_n_0_n_n_0_1_1 : GatherDims S19 S524288x1 S524288 where
  offsetDims := []
  collapsedSliceDims := [0]
  operandBatchingDims := []
  startIndicesBatchingDims := []
  startIndexMap := [0]
  indexVectorDim := 1
  sliceSizes := ![1]
  wf := gather_S19_S524288x1_S524288_n_0_n_n_0_1_1_wf

class Facts : Prop extends Facts₀ where

variable [Facts]
-- ==== Proof.Finite.lean ====
/-
  The precondition says every feature is a finite number.

  The printed precondition compares the absolute value of every feature with +∞ (strictly below) and takes the
  conjunction over the whole array. On the extended reals |x| < +∞ leaves exactly the real numbers.
-/
import proofs.«428978_j18485539242916_3_alg».proof.Pre_finite_inputs
import proofs.«428978_j18485539242916_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The result of the conjunction over all four axes has no axis, so exactly one index. -/
local instance : Subsingleton S_.Idx := ⟨fun a b => funext fun d => d.elim0⟩

/-- The word 0x7F800000 denotes +∞: sign field 0, exponent field all ones, significand field 0. -/
theorem inf_word : Ideal.ofBits .f32 0x7F800000#32 = (⊤ : EReal) := by
  have h1 : (BitVec.extractLsb' 31 1 (0x7F800000#32)) = 0#1 := by decide
  have h2 : (BitVec.extractLsb' 23 8 (0x7F800000#32)).toNat = 255 := by decide
  have h3 : (BitVec.extractLsb' 0 23 (0x7F800000#32)).toNat = 0 := by decide
  simp only [Ideal.ofBits, Ideal.ieee]
  rw [show (8 + 23) = 31 from rfl, h1, h2, h3]
  norm_num

/-- An extended real whose absolute value max x (−x) is strictly below +∞ is a real: x = +∞ fails x < +∞, and
    x = −∞ fails −x < +∞. -/
theorem real_of_abs_lt_top (x : EReal) (hx : Ideal.cmp .olt (max x (-x)) ⊤ = 1#1) : ∃ r : ℝ, x = (r : EReal) := by
  have hlt : max x (-x) < ⊤ := by
    by_contra hn
    simp [Ideal.cmp, hn] at hx
  obtain ⟨hx1, hx2⟩ := max_lt_iff.1 hlt
  induction x using EReal.rec with
  | bot => simp at hx2
  | coe r => exact ⟨r, rfl⟩
  | top => exact absurd hx1 (lt_irrefl _)

/-- Where the precondition holds, every entry of the feature array is a real number. -/
theorem real_of_pre (x0 : FVec Ideal S8x128x256x256 .f32) (x1 : IVec S8x256x256 32)
    (h : Cert.Pre_finite_inputs.fn (F := Ideal) x0 x1 = (fun _ => 1#1)) :
    ∀ i : S8x128x256x256.Idx, ∃ r : ℝ, x0 i = (r : EReal) := by
  intro i
  -- the conjunction over the whole array is 1, so the comparison at index i is 1
  have h0 := congrFun h ValueIdx.ix0
  dsimp only [Cert.Pre_finite_inputs.fn] at h0
  have hi := Host.reduce_andi_all _ _ _ _ _ h0 i
  -- at index i the comparison is max (x0 i) (−(x0 i)) < the value of the word 0x7F800000, which is +∞
  have hi' : Ideal.cmp .olt (max (x0 i) (-(x0 i))) (Ideal.ofBits .f32 0x7F800000#32) = 1#1 := hi
  rw [inf_word] at hi'
  exact real_of_abs_lt_top (x0 i) hi'

end Cert.Finite

end
-- ==== Proof.Stat.lean ====
/-
  The quantities both programs compute, as plain functions of the two argument arrays.

  A pixel is a pair (batch b, position p) with p = 256·row + column below 65536; its feature vector has 128 channels
  and its label is a 32-bit word. Class c (of 19) weighs a pixel by 1 when the pixel's label word is c and by 0
  otherwise — a label outside 0 … 18 weighs nothing for every class. Per class: the count is the sum of the weights,
  the feature sum is the weighted sum of the feature vectors, and the variance sum is the weighted sum of the
  squared hinge of the pixel's distance to its class mean. The kernel walks the pixels core by core, sixteen grid
  points to a core, 16384 pixels to a point; `coreSum` is one core's share in that order.
-/
import Idealize.ShloMosaic.PureOps.Ideal
import Idealize.ShloMosaic.Lib.ValueIdx

noncomputable section

namespace Cert.Stat

open Idealize.ShloMosaic Idealize.ShloMosaic.ValueIdx

/-- The four float words the per-pixel term mentions: 0, 1, 2 and 1/2, as the extended reals their patterns denote. -/
abbrev zeroW : EReal := Ideal.ofBits .f32 0x00000000#32
abbrev oneW : EReal := Ideal.ofBits .f32 0x3F800000#32
abbrev twoW : EReal := Ideal.ofBits .f32 0x40000000#32
abbrev halfW : EReal := Ideal.ofBits .f32 0x3F000000#32

/-- Class `c`'s weight of a label word, as a real: 1 when the word is `c`, else 0. -/
def hotR (c : Fin 19) (l : BitVec 32) : ℝ := if l = BitVec.ofNat 32 c.val then 1 else 0
/-- The same weight among the extended reals. -/
def hot (c : Fin 19) (l : BitVec 32) : EReal := ((hotR c l : ℝ) : EReal)

/-- Core `k`'s grid point `s` (of its sixteen) reads batch `4k + s / 4` … -/
def ptBatch (k : Fin 2) (s : Fin 16) : Fin 8 := ⟨4 * k.val + s.val / 4, by omega⟩
/-- … and the pixels `16384 · (s % 4) + j`, `j` below 16384. -/
def ptPix (s : Fin 16) (j : Fin 16384) : Fin 65536 := ⟨(s.val % 4) * 16384 + j.val, by omega⟩
/-- What core `k`'s sixteen points add up of a per-pixel term `g`, in the order the grid visits the pixels. -/
def coreSum (g : Fin 8 → Fin 65536 → EReal) (k : Fin 2) : EReal :=
  ∑ s : Fin 16, ∑ j : Fin 16384, g (ptBatch k s) (ptPix s j)

/-- The label word of pixel (b, p), read off the label array [8, 256, 256]. -/
def lab3 (x1 : (⟨3, ![8, 256, 256]⟩ : Shape).Idx → BitVec 32) (b : Fin 8) (p : Fin 65536) : BitVec 32 :=
  x1 (ix3 b ⟨p.val / 256, by omega⟩ ⟨p.val % 256, by omega⟩)
/-- Channel `d` of pixel (b, p)'s feature vector, read off the feature array [8, 128, 256, 256]. -/
def fea3 (x0 : (⟨4, ![8, 128, 256, 256]⟩ : Shape).Idx → EReal) (b : Fin 8) (d : Fin 128) (p : Fin 65536) : EReal :=
  x0 (ix4 b d ⟨p.val / 256, by omega⟩ ⟨p.val % 256, by omega⟩)

/-- Class `c`'s count: the number of pixels labelled `c`. -/
def cnt (x1 : (⟨3, ![8, 256, 256]⟩ : Shape).Idx → BitVec 32) (c : Fin 19) : EReal :=
  ∑ b : Fin 8, ∑ p : Fin 65536, hot c (lab3 x1 b p)
/-- Class `c`'s feature sum in channel `d`. -/
def sum (x0 : (⟨4, ![8, 128, 256, 256]⟩ : Shape).Idx → EReal) (x1 : (⟨3, ![8, 256, 256]⟩ : Shape).Idx → BitVec 32)
    (c : Fin 19) (d : Fin 128) : EReal :=
  ∑ b : Fin 8, ∑ p : Fin 65536, hot c (lab3 x1 b p) * fea3 x0 b d p

/-- The norm that is 0 at 0: the square root of a positive argument, 0 otherwise (the inner choice keeps the root's
    argument positive). -/
def safeNorm (q : EReal) : EReal :=
  Scalar.select (Ideal.cmp .ogt q zeroW) (Ideal.sqrt (Scalar.select (Ideal.cmp .ogt q zeroW) q oneW)) zeroW
/-- The squared hinge of a squared distance `q`: (max (‖·‖ − 1/2) 0)². -/
def hinge2 (q : EReal) : EReal := max (safeNorm q - halfW) zeroW * max (safeNorm q - halfW) zeroW

/-- The kernel's squared distance of a pixel (features `f`, label `l`) to its own class mean, expanded:
    ‖f‖² − 2·(f · mean of the pixel's class) + ‖that mean‖², the pixel's class picked by the weights. -/
def sqdK (means : Fin 19 → Fin 128 → EReal) (mn2 : Fin 19 → EReal) (f : Fin 128 → EReal) (l : BitVec 32) : EReal :=
  (∑ d : Fin 128, f d * f d) - twoW * (∑ c : Fin 19, hot c l * ∑ d : Fin 128, means c d * f d) + ∑ c : Fin 19, hot c l * mn2 c
/-- The kernel's per-pixel term: the squared hinge, times the validity (as a 0/1 number) of the pixel's class. -/
def contribK (means : Fin 19 → Fin 128 → EReal) (mn2 vf : Fin 19 → EReal) (f : Fin 128 → EReal) (l : BitVec 32) : EReal :=
  hinge2 (sqdK means mn2 f l) * ∑ c : Fin 19, hot c l * vf c

/-- The reference's squared distance of a feature vector `f` to a mean row `m`: the sum of the squared differences,
    from the sum's initial value. -/
def sqdR (m f : Fin 128 → EReal) : EReal := zeroW + ∑ d : Fin 128, (f d - m d) * (f d - m d)
/-- The reference's per-pixel term for a pixel of class `c`: the squared hinge where the class is valid, else 0. -/
def contribR (means : Fin 19 → Fin 128 → EReal) (valid : Fin 19 → BitVec 1) (c : Fin 19) (f : Fin 128 → EReal) : EReal :=
  Scalar.select (valid c) (hinge2 (sqdR (means c) f)) zeroW

end Cert.Stat

end
-- ==== Proof.KernelIO.lean ====
/-
  What the kernel's pallas_calls read and leave, buffer by buffer.

  Before the first call the features [8, 128, 256, 256] are reshaped to [8, 128, 65536] and the labels [8, 256, 256] to
  [8, 1, 65536]: pixel (row, column) becomes position 256·row + column. Neither call writes the reshaped inputs, the
  first call's two outputs are what its pipeline leaves, the second call's output likewise, and the second call writes
  none of the arrays of the middle stretch that the last stretch reads.
-/
import proofs.«428978_j18485539242916_3_alg».proof.Proof.Gen.KernelIdeal.Frame
import proofs.«428978_j18485539242916_3_alg».proof.Proof.Stat
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.IO

open Cert.KernelIdeal Cert.KernelIdeal.Gen Cert.Stat
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The reshaped features are the feature array by batch, channel and position. -/
theorem feats_in (c : Dev nD) (b : Fin 8) (d : Fin 128) (p : Fin 65536) :
    (V1 m ρ c main_call0_v0 : S8x128x65536.Idx → EReal) (ix3 b d p) = fea3 (m ((c : Thread nD τ).loc main_arg0)) b d p := by
  have e : (V1 m ρ c main_call0_v0 : S8x128x65536.Idx → EReal)
      = shapeCast S8x128x65536 (m ((c : Thread nD τ).loc main_arg0) : S8x128x256x256.Idx → EReal)
          shapeCasts_S8x128x256x256_S8x128x65536 := by
    show StableHlo.after hostOps0 (W0 m ρ c) (Proc.devRef .tc main_call0_v0) = _
    after_results
    rfl
  rw [e]
  unfold fea3
  have hp : p.val < 65536 := p.isLt
  exact shapeCast_apply _ shapeCasts_S8x128x256x256_S8x128x65536 (ix3 b d p)
    (ix4 b d ⟨p.val / 256, by omega⟩ ⟨p.val % 256, by omega⟩)
    (by rw [Shape.rowMajor_val_four, Shape.rowMajor_val_three]
        show ((b.val * 128 + d.val) * 256 + p.val / 256) * 256 + p.val % 256 = (b.val * 128 + d.val) * 65536 + p.val
        omega)
/-- The reshaped labels are the label array by batch and position. -/
theorem labs_in (c : Dev nD) (b : Fin 8) (p : Fin 65536) :
    (V1 m ρ c main_call0_v1 : S8x1x65536.Idx → BitVec 32) (ix3 b 0 p) = lab3 (m ((c : Thread nD τ).loc main_arg1)) b p := by
  have e : (V1 m ρ c main_call0_v1 : S8x1x65536.Idx → BitVec 32)
      = shapeCast S8x1x65536 (m ((c : Thread nD τ).loc main_arg1) : S8x256x256.Idx → BitVec 32)
          shapeCasts_S8x256x256_S8x1x65536 := by
    show StableHlo.after hostOps0 (W0 m ρ c) (Proc.devRef .tc main_call0_v1) = _
    after_results
    rfl
  rw [e]
  unfold lab3
  have hp : p.val < 65536 := p.isLt
  exact shapeCast_apply _ shapeCasts_S8x256x256_S8x1x65536 (ix3 b 0 p)
    (ix3 b ⟨p.val / 256, by omega⟩ ⟨p.val % 256, by omega⟩)
    (by rw [Shape.rowMajor_val_three, Shape.rowMajor_val_three]
        show (b.val * 256 + p.val / 256) * 256 + p.val % 256 = (b.val * 1 + 0) * 65536 + p.val
        omega)
/-- The second call finds the reshaped inputs as the first did. -/
theorem feats_kept (c : Dev nD) : V3 m ρ c main_call0_v0 = V1 m ρ c main_call0_v0 := by
  have h1 : W3 m ρ c (Proc.devRef .tc main_call0_v0) = W2 m ρ c (Proc.devRef .tc main_call0_v0) :=
    StableHlo.after_of_forall_not_mem (b := Proc.devRef .tc main_call0_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h2 : W2 m ρ c (Proc.devRef .tc main_call0_v0) = (dat0 (V1 m ρ) c).arrAt 0 cfg0.N := W2_arr m ρ c 0
  have h3 : (dat0 (V1 m ρ) c).arrAt 0 cfg0.N = (dat0 (V1 m ρ) c).A 0 := (dat0 (V1 m ρ) c).arrAt_in 0 rfl cfg0.N
  exact h1.trans (h2.trans (h3.trans (A_eq0 (V1 m ρ) c 0)))
theorem labs_kept (c : Dev nD) : V3 m ρ c main_call0_v1 = V1 m ρ c main_call0_v1 := by
  have h1 : W3 m ρ c (Proc.devRef .tc main_call0_v1) = W2 m ρ c (Proc.devRef .tc main_call0_v1) :=
    StableHlo.after_of_forall_not_mem (b := Proc.devRef .tc main_call0_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h2 : W2 m ρ c (Proc.devRef .tc main_call0_v1) = (dat0 (V1 m ρ) c).arrAt 1 cfg0.N := W2_arr m ρ c 1
  have h3 : (dat0 (V1 m ρ) c).arrAt 1 cfg0.N = (dat0 (V1 m ρ) c).A 1 := (dat0 (V1 m ρ) c).arrAt_in 1 rfl cfg0.N
  exact h1.trans (h2.trans (h3.trans (A_eq0 (V1 m ρ) c 1)))
/-- The first call's outputs, as the middle stretch finds them, are what its pipeline leaves. -/
theorem sums_out (c : Dev nD) : V2 m ρ c main_call0_v2_0 = (dat0 (V1 m ρ) c).arrAt 2 cfg0.N :=
  W2_arr m ρ c 2
theorem cnts_out (c : Dev nD) : V2 m ρ c main_call0_v2_1 = (dat0 (V1 m ρ) c).arrAt 3 cfg0.N :=
  W2_arr m ρ c 3
/-- The second call's output, as the last stretch finds it, is what its pipeline leaves; the arrays of the middle
    stretch that the last stretch reads are untouched by the second call. -/
theorem var_out (c : Dev nD) : V4 m ρ c main_call0_v17 = (dat1 (V3 m ρ) c).arrAt 5 cfg1.N :=
  W4_arr m ρ c 5
theorem v6_kept (c : Dev nD) : V4 m ρ c main_call0_v6 = V3 m ρ c main_call0_v6 :=
  W4_of_ne m ρ c main_call0_v6 (by decide)
theorem v8_kept (c : Dev nD) : V4 m ρ c main_call0_v8 = V3 m ρ c main_call0_v8 := by
  have h2 : W4 m ρ c (Proc.devRef .tc main_call0_v8) = (dat1 (V3 m ρ) c).arrAt 2 cfg1.N := W4_arr m ρ c 2
  have h3 : (dat1 (V3 m ρ) c).arrAt 2 cfg1.N = (dat1 (V3 m ρ) c).A 2 := (dat1 (V3 m ρ) c).arrAt_in 2 rfl cfg1.N
  exact h2.trans (h3.trans (A_eq1 (V3 m ρ) c 2))
theorem v11_kept (c : Dev nD) : V4 m ρ c main_call0_v11 = V3 m ρ c main_call0_v11 :=
  W4_of_ne m ρ c main_call0_v11 (by decide)
theorem v16_kept (c : Dev nD) : V4 m ρ c main_call0_v16 = V3 m ρ c main_call0_v16 := by
  have h2 : W4 m ρ c (Proc.devRef .tc main_call0_v16) = (dat1 (V3 m ρ) c).arrAt 3 cfg1.N := W4_arr m ρ c 3
  have h3 : (dat1 (V3 m ρ) c).arrAt 3 cfg1.N = (dat1 (V3 m ρ) c).A 3 := (dat1 (V3 m ρ) c).arrAt_in 3 rfl cfg1.N
  exact h2.trans (h3.trans (A_eq1 (V3 m ρ) c 3))

end Cert.KernelIdeal.IO

end
-- ==== Proof.KernelMid.lean ====
/-
  The kernel's host operations between its two pallas_calls, read at an index.

  The two cores' slabs of the feature sums and of the counts are added; the counts are clipped below at 1; the means
  are sums over clipped counts; a class is valid when its count exceeds 100, and its validity is also kept as a 0/1
  number; the squared norm of a mean is the sum of its squared channels.
-/
import proofs.«428978_j18485539242916_3_alg».proof.Proof.Gen.KernelIdeal.Frame
import proofs.«428978_j18485539242916_3_alg».proof.Proof.Stat
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mid

open Cert.KernelIdeal Cert.KernelIdeal.Gen Cert.Stat
open Idealize.ShloMosaic Idealize.ShloMosaic.TcCoe Idealize.ShloMosaic.ValueIdx Idealize.SL.Sem Idealize.ShloMosaic.StableHlo

/-- A column [19, 1] viewed as a vector [19] reads, at a class, the column's entry (class, 0): both have the same
    row-major position. -/
theorem drop_unit_apply {α : Type} (x : S19x1.Idx → α) (cl : Fin 19) :
    shapeCast S19 x Facts₀.shapeCasts_S19x1_S19 (ix1 cl) = x (ix2 cl 0) :=
  shapeCast_apply x Facts₀.shapeCasts_S19x1_S19 _ _ (by
    rw [Shape.rowMajor_val_two, Shape.rowMajor_val_one]
    show cl.val * 1 + 0 = cl.val
    rw [Nat.mul_one, Nat.add_zero])

/-- A [2, 19, 1] array summed over its axis 0 from the zero word: at a class, that word's value plus the two slabs' entries. -/
theorem add_slabs_apply (x : FVec Ideal S2x19x1 .f32) (cl : Fin 19) :
    (Host.reduceAdd x (constant (F := Ideal) S_ .f32 0x00000000#32) Facts₀.reducesTo_S2x19x1_S19x1_d0 Facts₀.h_S_ : FVec Ideal S19x1 .f32) (ix2 cl 0)
      = zeroW + ∑ k : Fin 2, x (ix3 k cl 0) := by
  simp only [Host.reduceAdd, Ideal.hostReduceAdd_def]
  rw [Ideal.hostReduceAdd_single Facts₀.reducesTo_S2x19x1_S19x1_d0 (by decide)]
  refine congrArg (_ + ·) (Finset.sum_congr rfl fun k _ => ?_)
  exact congrArg x (funext fun a => Fin.ext (by match a with | ⟨0, _⟩ => rfl | ⟨1, _⟩ => rfl | ⟨2, _⟩ => rfl))

variable (m : (ℓ : Loc nD τ sig) → Buf (Elt Ideal) ℓ) (ρ : Dev nD → PrngReg)

/-- The arrays of the middle stretch, each at its literal type: the two slabs of the first call's outputs; the feature sums,
    the counts, the clipped counts, the means, the validity, the validity as a number, the squared mean norms. -/
abbrev sums2 (c : Dev nD) : S2x19x128.Idx → EReal := V2 m ρ c main_call0_v2_0
abbrev cnts2 (c : Dev nD) : S2x19x1.Idx → EReal := V2 m ρ c main_call0_v2_1
abbrev a3 (c : Dev nD) : S19x128.Idx → EReal := V3 m ρ c main_call0_v3
abbrev a4 (c : Dev nD) : S19x1.Idx → EReal := V3 m ρ c main_call0_v4
abbrev a6 (c : Dev nD) : S19x1.Idx → EReal := V3 m ρ c main_call0_v6
abbrev a8 (c : Dev nD) : S19x128.Idx → EReal := V3 m ρ c main_call0_v8
abbrev a11 (c : Dev nD) : S19.Idx → BitVec 1 := V3 m ρ c main_call0_v11
abbrev a13 (c : Dev nD) : S19x1.Idx → EReal := V3 m ρ c main_call0_v13
abbrev a16 (c : Dev nD) : S19x1.Idx → EReal := V3 m ρ c main_call0_v16

/-! ## The arrays as the operations leave them

Each array of the stretch is its operation applied to the arrays it reads; the chain of nineteen operations is followed
from the array's own buffer back to the first call's two outputs, on both sides of each equation. -/

theorem a4_eq (c : Dev nD) :
    a4 m ρ c = Host.reduceAdd (F := Ideal) (cnts2 m ρ c) (constant (F := Ideal) S_ .f32 0x00000000#32)
      Facts₀.reducesTo_S2x19x1_S19x1_d0 Facts₀.h_S_ := by
  show StableHlo.after hostOps1 (W2 m ρ c) (Proc.devRef .tc main_call0_v4) = _
  after_results
  rfl

theorem a3_eq (c : Dev nD) :
    a3 m ρ c = Host.reduceAdd (F := Ideal) (sums2 m ρ c) (constant (F := Ideal) S_ .f32 0x00000000#32)
      Facts₀.reducesTo_S2x19x128_S19x128_d0 Facts₀.h_S_ := by
  show StableHlo.after hostOps1 (W2 m ρ c) (Proc.devRef .tc main_call0_v3) = _
  after_results
  rfl

theorem a6_eq (c : Dev nD) :
    a6 m ρ c = maximumf (a4 m ρ c) (broadcastInDim S19x1 ![] Facts₀.bcast_S_S19x1 (constant (F := Ideal) S_ .f32 0x3F800000#32)) := by
  show StableHlo.after hostOps1 (W2 m ρ c) (Proc.devRef .tc main_call0_v6) = _
  after_results
  rfl

theorem a8_eq (c : Dev nD) :
    a8 m ρ c = Host.divf (F := Ideal) (φ := .f32) (a3 m ρ c) (broadcastInDim S19x128 ![0, 1] Facts₀.bcast_S19x1_S19x128_0_1 (a6 m ρ c)) := by
  show StableHlo.after hostOps1 (W2 m ρ c) (Proc.devRef .tc main_call0_v8) = _
  after_results
  rfl

theorem a11_eq (c : Dev nD) :
    a11 m ρ c = cmpf (F := Ideal) (φ := .f32) .ogt (shapeCast S19 (a4 m ρ c) Facts₀.shapeCasts_S19x1_S19)
      (broadcastInDim S19 ![] Facts₀.bcast_S_S19 (constant (F := Ideal) S_ .f32 0x42C80000#32)) := by
  show StableHlo.after hostOps1 (W2 m ρ c) (Proc.devRef .tc main_call0_v11) = _
  after_results
  rfl

theorem a13_eq (c : Dev nD) :
    a13 m ρ c = shapeCast S19x1 (uitofp (F := Ideal) .f32 (a11 m ρ c) : FVec Ideal S19 .f32) Facts₀.shapeCasts_S19_S19x1 := by
  show StableHlo.after hostOps1 (W2 m ρ c) (Proc.devRef .tc main_call0_v13) = _
  after_results
  rfl

theorem a16_eq (c : Dev nD) :
    a16 m ρ c = broadcastInDim S19x1 ![0] Facts₀.bcast_S19_S19x1_0
      (Host.reduceAdd (F := Ideal) (φ := .f32) (mulf (φ := .f32) (a8 m ρ c) (a8 m ρ c)) (constant (F := Ideal) S_ .f32 0x00000000#32)
        Facts₀.reducesTo_S19x128_S19_d1 Facts₀.h_S_) := by
  show StableHlo.after hostOps1 (W2 m ρ c) (Proc.devRef .tc main_call0_v16) = _
  after_results
  rfl

/-! ## The host's sums over one axis, read at an index -/

/-- A [2, 19, 128] array summed over its axis 0 from a scalar: at (class, channel), the scalar plus the two slabs' entries. -/
theorem sum_slabs_128 (x : FVec Ideal S2x19x128 .f32) (init : FVec Ideal S_ .f32) (h : S2x19x128.ReducesTo [0] S19x128)
    (hu : 0 < S_.numel) (cl : Fin 19) (d : Fin 128) :
    Host.reduceAdd (F := Ideal) x init h hu (ix2 cl d) = init (Shape.Idx.first hu) + ∑ k : Fin 2, x (ix3 k cl d) := by
  simp only [Host.reduceAdd, Ideal.hostReduceAdd_def]
  rw [Ideal.hostReduceAdd_single h (by decide)]
  refine congrArg (_ + ·) (Finset.sum_congr rfl fun k _ => ?_)
  exact congrArg x (funext fun a => Fin.ext (by match a with | ⟨0, _⟩ => rfl | ⟨1, _⟩ => rfl | ⟨2, _⟩ => rfl))

/-- A [19, 128] array summed over its axis 1 from a scalar: at a class, the scalar plus the sum over the channels. -/
theorem sum_channels (x : FVec Ideal S19x128 .f32) (init : FVec Ideal S_ .f32) (h : S19x128.ReducesTo [1] S19)
    (hu : 0 < S_.numel) (cl : Fin 19) :
    Host.reduceAdd (F := Ideal) x init h hu (ix1 cl) = init (Shape.Idx.first hu) + ∑ d : Fin 128, x (ix2 cl d) := by
  simp only [Host.reduceAdd, Ideal.hostReduceAdd_def]
  rw [Ideal.hostReduceAdd_single h (by decide)]
  refine congrArg (_ + ·) (Finset.sum_congr rfl fun k _ => ?_)
  exact congrArg x (funext fun a => Fin.ext (by match a with | ⟨0, _⟩ => rfl | ⟨1, _⟩ => rfl))

/-! ## A vector viewed as a column -/

/-- A vector [a] viewed as a column [a, 1] reads, at (i, 0), its entry i: both have row-major position i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The seven arrays at an index -/

/-- The counts [19, 1]: the two slabs added, from the sum's initial value. -/
theorem v4_apply (c : Dev nD) (cl : Fin 19) :
    a4 m ρ c (ix2 cl 0) = zeroW + ∑ k : Fin 2, cnts2 m ρ c (ix3 k cl 0) := by
  rw [a4_eq]
  exact add_slabs_apply _ cl
/-- The feature sums [19, 128]: the two slabs added, from the sum's initial value. -/
theorem v3_apply (c : Dev nD) (cl : Fin 19) (d : Fin 128) :
    a3 m ρ c (ix2 cl d) = zeroW + ∑ k : Fin 2, sums2 m ρ c (ix3 k cl d) := by
  rw [a3_eq, sum_slabs_128]
  rfl
/-- The clipped counts. -/
theorem v6_apply (c : Dev nD) (cl : Fin 19) : a6 m ρ c (ix2 cl 0) = max (a4 m ρ c (ix2 cl 0)) oneW := by
  rw [a6_eq, maximumf_apply]
  rfl
/-- The means. -/
theorem v8_apply (c : Dev nD) (cl : Fin 19) (d : Fin 128) :
    a8 m ρ c (ix2 cl d) = Ideal.div (a3 m ρ c (ix2 cl d)) (a6 m ρ c (ix2 cl 0)) := by
  rw [a8_eq]
  show Ideal.div (a3 m ρ c (ix2 cl d)) (broadcastInDim S19x128 ![0, 1] Facts₀.bcast_S19x1_S19x128_0_1 (a6 m ρ c) (ix2 cl d)) = _
  rw [broadcastInDim_apply ![0, 1] Facts₀.bcast_S19x1_S19x128_0_1 (a6 m ρ c) (ix2 cl d) (ix2 cl 0)
    (fun a => by match a with | ⟨0, _⟩ => rfl | ⟨1, _⟩ => rfl)]
/-- A class is valid when its count exceeds 100. -/
theorem v11_apply (c : Dev nD) (cl : Fin 19) :
    a11 m ρ c (ix1 cl) = Ideal.cmp .ogt (a4 m ρ c (ix2 cl 0)) (Ideal.ofBits .f32 0x42C80000#32) := by
  rw [a11_eq, cmpf_apply, drop_unit_apply]
  rfl
/-- The validity as a number. -/
theorem v13_apply (c : Dev nD) (cl : Fin 19) :
    a13 m ρ c (ix2 cl 0) = ((((a11 m ρ c (ix1 cl)).toNat : ℝ)) : EReal) := by
  rw [a13_eq, shapeCast_a_a1_apply]
  rfl
/-- The squared norms of the means. -/
theorem v16_apply (c : Dev nD) (cl : Fin 19) :
    a16 m ρ c (ix2 cl 0) = zeroW + ∑ d : Fin 128, a8 m ρ c (ix2 cl d) * a8 m ρ c (ix2 cl d) := by
  rw [a16_eq]
  rw [broadcastInDim_apply ![0] Facts₀.bcast_S19_S19x1_0 _ (ix2 cl 0) (ix1 cl)
    (fun a => by match a with | ⟨0, _⟩ => rfl)]
  rw [sum_channels]
  rfl

end Cert.KernelIdeal.Mid

end
-- ==== Proof.Tail.lean ====
/-
  The loss as a function of the per-class statistics.

  Both programs end with the same host operations on five small arrays: the per-class variance sums, the counts
  clipped below at 1, the classes' validity (count > 100), the squared norms of the class means and the means
  themselves. From them: the variance loss Σ_valid (variance sum / count), the regularisation loss Σ_valid ‖mean‖, the
  distance loss Σ over pairs (a valid, b valid and not the last valid class) of (max (3 − ‖mean_a − mean_b‖) 0)², and
  with t the number of valid classes the result  1·lv / t + 1·ld / (t·(t − 1)) + 0.001·lr / t. The function below is
  that chain, operation by operation, over any float family; the two programs' results are both instances of it.
-/
import proofs.«428978_j18485539242916_3_alg».proof.Proof.Gen.KernelIdeal

set_option maxRecDepth 16384

noncomputable section

namespace Cert.Tail

open Cert.KernelIdeal Idealize.ShloMosaic
open Cert.KernelIdeal.Facts₀

variable {F : FTy → Type} [FloatOps F]

/-- `where valid x c` over [19]: `x` where the class is valid, the scalar `c` elsewhere. -/
def where19 (valid : IVec S19 1) (x : FVec F S19 .f32) (c : FVec F S_ .f32) : FVec F S19 .f32 :=
  select valid x (broadcastInDim S19 ![] bcast_S_S19 (id c))
/-- The same over [19, 19]. -/
def where1919 (mask : IVec S19x19 1) (x : FVec F S19x19 .f32) (c : FVec F S_ .f32) : FVec F S19x19 .f32 :=
  select mask x (broadcastInDim S19x19 ![] bcast_S_S19x19 (id c))

/-- The loss from the variance sums, the clipped counts, the validity, the squared mean norms and the means. -/
def lossTail (varsum safe : FVec F S19 .f32) (valid : IVec S19 1) (mn2 : FVec F S19 .f32) (means : FVec F S19x128 .f32) :
    FVec F S_ .f32 :=
  have zero : FVec F S_ .f32 := constant S_ .f32 0x00000000#32
  have one : FVec F S_ .f32 := constant S_ .f32 0x3F800000#32
  -- the variance loss: Σ over the valid classes of variance sum / count
  have v21 : FVec F S19 .f32 := Host.divf varsum safe
  have v22 : FVec F S19 .f32 := where19 valid v21 zero
  have v23 : FVec F S_ .f32 := Host.reduceAdd v22 zero reducesTo_S19_S_d0 h_S_
  -- the regularisation loss: Σ over the valid classes of the mean's norm (0 at 0)
  have v25 : FVec F S19 .f32 := broadcastInDim S19 ![] bcast_S_S19 zero
  have v26 : IVec S19 1 := cmpf .ogt mn2 v25
  have v27 : FVec F S19 .f32 := where19 v26 mn2 one
  have v28 : FVec F S19 .f32 := Host.sqrt v27
  have v29 : FVec F S19 .f32 := where19 v26 v28 zero
  have v30 : FVec F S19 .f32 := where19 valid v29 zero
  have v31 : FVec F S_ .f32 := Host.reduceAdd v30 zero reducesTo_S19_S_d0 h_S_
  -- the second index of a pair ranges over the valid classes but the last one
  have v32 : IVec S19 32 := iotaInDim S19 32 0
  have v33 : IVec S19 32 := select valid v32 (broadcastInDim S19 ![] bcast_S_S19 (id (constantI S_ 32 4294967295#32)))
  have v34 : IVec S_ 32 := Host.reduce IntOp.maxsi v33 (constantI S_ 32 2147483648#32) reducesTo_S19_S_d0 h_S_
  have v35 : IVec S19 32 := broadcastInDim S19 ![] bcast_S_S19 v34
  have v36 : IVec S19 1 := cmpi .ne v32 v35
  have v37 : IVec S19 1 := andi valid v36
  -- the pairwise distances of the means
  have v38 : FVec F S19x1x128 .f32 := broadcastInDim S19x1x128 ![0, 2] bcast_S19x128_S19x1x128_0_2 means
  have v39 : FVec F S1x19x128 .f32 := broadcastInDim S1x19x128 ![1, 2] bcast_S19x128_S1x19x128_1_2 means
  have v40 : FVec F S19x19x128 .f32 := broadcastInDim S19x19x128 ![0, 1, 2] bcast_S19x1x128_S19x19x128_0_1_2 v38
  have v41 : FVec F S19x19x128 .f32 := broadcastInDim S19x19x128 ![0, 1, 2] bcast_S1x19x128_S19x19x128_0_1_2 v39
  have v42 : FVec F S19x19x128 .f32 := subf v40 v41
  have v43 : FVec F S19x19x128 .f32 := mulf v42 v42
  have v44 : FVec F S19x19 .f32 := Host.reduceAdd v43 zero reducesTo_S19x19x128_S19x19_d2 h_S_
  have v45 : FVec F S19x19 .f32 := broadcastInDim S19x19 ![] bcast_S_S19x19 zero
  have v46 : IVec S19x19 1 := cmpf .ogt v44 v45
  have v47 : FVec F S19x19 .f32 := where1919 v46 v44 one
  have v48 : FVec F S19x19 .f32 := Host.sqrt v47
  have v49 : FVec F S19x19 .f32 := where1919 v46 v48 zero
  have v50 : FVec F S19x19 .f32 := broadcastInDim S19x19 ![] bcast_S_S19x19 (constant S_ .f32 0x40400000#32)
  have v51 : FVec F S19x19 .f32 := subf v50 v49
  have v53 : FVec F S19x19 .f32 := maximumf v51 v45
  have v54 : IVec S19x1 1 := broadcastInDim S19x1 ![0] bcast_S19_S19x1_0 valid
  have v55 : IVec S1x19 1 := broadcastInDim S1x19 ![1] bcast_S19_S1x19_1 v37
  have v56 : IVec S19x19 1 := broadcastInDim S19x19 ![0, 1] bcast_S19x1_S19x19_0_1 v54
  have v57 : IVec S19x19 1 := broadcastInDim S19x19 ![0, 1] bcast_S1x19_S19x19_0_1 v55
  have v58 : IVec S19x19 1 := andi v56 v57
  have v59 : FVec F S19x19 .f32 := mulf v53 v53
  have v60 : FVec F S19x19 .f32 := where1919 v58 v59 zero
  have v61 : FVec F S_ .f32 := Host.reduceAdd v60 zero reducesTo_S19x19_S_d0_1 h_S_
  -- the number of valid classes, as a float
  have v62 : IVec S19 32 := extui 32 valid natLt_1_32
  have v63 : IVec S_ 32 := Host.reduce IntOp.addi v62 (constantI S_ 32 0#32) reducesTo_S19_S_d0 h_S_
  have v64 : FVec F S_ .f32 := sitofp .f32 v63
  -- the three terms
  have v65 : FVec F S_ .f32 := mulf one v23
  have v66 : FVec F S_ .f32 := Host.divf v65 v64
  have v67 : FVec F S_ .f32 := mulf one v61
  have v68 : FVec F S_ .f32 := subf v64 one
  have v69 : FVec F S_ .f32 := mulf v64 v68
  have v70 : FVec F S_ .f32 := Host.divf v67 v69
  have v71 : FVec F S_ .f32 := addf v66 v70
  have v72 : FVec F S_ .f32 := mulf (constant S_ .f32 0x3A83126F#32) v31
  have v73 : FVec F S_ .f32 := Host.divf v72 v64
  addf v71 v73

end Cert.Tail

end
-- ==== Proof.KernelTail.lean ====
/-
  The kernel's last host stretch is the loss of its per-class statistics.

  After the second pallas_call the kernel adds the two cores' slabs of the variance sums, drops the unit axis of the
  sums, of the clipped counts and of the squared mean norms, and applies, operation for operation, the chain that
  `Cert.Tail.lossTail` states.
-/
import proofs.«428978_j18485539242916_3_alg».proof.Proof.Gen.KernelIdeal.Frame
import proofs.«428978_j18485539242916_3_alg».proof.Proof.Stat
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«428978_j18485539242916_3_alg».proof.Proof.Tail
set_option maxRecDepth 16384

noncomputable section

namespace Cert.KernelIdeal.KTail

open Cert.KernelIdeal Cert.KernelIdeal.Gen Cert.Stat
open Idealize.ShloMosaic Idealize.ShloMosaic.TcCoe Idealize.ShloMosaic.ValueIdx Idealize.SL.Sem Idealize.ShloMosaic.StableHlo

open Cert.Tail

variable {F : FTy → Type} [FloatOps F]
variable (m : (ℓ : Loc nD τ sig) → Buf (Elt F) ℓ) (ρ : Dev nD → PrngReg)

/-- The variance sums [19]: the two slabs added, the unit axis dropped. -/
def varsumK (c : Dev nD) : FVec F S19 .f32 :=
  shapeCast S19 (Host.reduceAdd (V4 m ρ c main_call0_v17 : FVec F S2x19x1 .f32) (constant S_ .f32 0x00000000#32) reducesTo_S2x19x1_S19x1_d0 h_S_) shapeCasts_S19x1_S19
/-- The clipped counts [19] and the squared mean norms [19]: the unit axis dropped. -/
def safeK (c : Dev nD) : FVec F S19 .f32 := shapeCast S19 (V4 m ρ c main_call0_v6 : FVec F S19x1 .f32) shapeCasts_S19x1_S19
def mn2K (c : Dev nD) : FVec F S19 .f32 := shapeCast S19 (V4 m ρ c main_call0_v16 : FVec F S19x1 .f32) shapeCasts_S19x1_S19

set_option maxHeartbeats 40000000 in
/-- The result buffer after the last stretch is the loss chain over the kernel's statistics. -/
theorem result_eq (c : Dev nD) :
    (W5 m ρ c (Proc.devRef .tc main_v0) : FVec F S_ .f32)
      = lossTail (F := F) (varsumK m ρ c) (safeK m ρ c) (V4 m ρ c main_call0_v11 : IVec S19 1) (mn2K m ρ c)
          (V4 m ρ c main_call0_v8 : FVec F S19x128 .f32) := by
  show StableHlo.after hostOps2 (W4 m ρ c) (Proc.devRef .tc main_v0) = _
  after_results_simp
  simp only [TRef.ofBuf, TRef.toBuf, cast_eq]
  unfold lossTail where19 where1919 varsumK safeK mn2K
  rfl

end Cert.KernelIdeal.KTail

end
-- ==== Proof.Region0Pay.lean ====
/-
  One grid point of the statistics kernel, read at an index.

  From a block of features x0 [1, 128, 16384], a block of labels x1 [1, 1, 16384] and the running block acc, the point
  leaves, for class c: in the counts acc + the number of the block's pixels labelled c (the lane sum of the one-hot
  weights), and in the feature sums, channel d, acc + Σ over the block's pixels of weight · feature (the matrix product
  of the weights [19, 16384] with the features [128, 16384], contracted over the pixels; the change of float format in
  front of it is the identity on the extended reals). The blocks the first point starts from are zero.
-/
import proofs.«428978_j18485539242916_3_alg».proof.Proof.Gen.KernelIdeal.Skeleton
import proofs.«428978_j18485539242916_3_alg».proof.Proof.Stat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0Pay

open Cert.KernelIdeal Cert.KernelIdeal.Gen Cert.Stat
open Idealize.ShloMosaic Idealize.ShloMosaic.TcCoe Idealize.ShloMosaic.ValueIdx

/-! ## The zero blocks -/

/-- The cleared sums block is zero. -/
theorem k0_pay1_apply (i : S1x19x128.Idx) : k0_pay1 (F := Ideal) i = 0 := by
  unfold k0_pay1
  show Ideal.ofBits .f32 0x00000000#32 = 0
  exact Ideal.ofBits_zero_f32
/-- The cleared counts block is zero. -/
theorem k0_pay2_apply (i : S1x19x1.Idx) : k0_pay2 (F := Ideal) i = 0 := by
  unfold k0_pay2
  show Ideal.ofBits .f32 0x00000000#32 = 0
  exact Ideal.ofBits_zero_f32

/-! ## The one-hot weights -/

/-- The bit "label word = class word", widened to 32 bits and read as a signed integer, is the 0/1 weight: the bit is
    1 exactly when the two words are equal, and the integers 1 and 0 are the reals 1 and 0. -/
theorem weight_word (cl : Fin 19) (l : BitVec 32) :
    (FloatOps.sitofp (F := Ideal) .f32 ((IntOp.cmpi .eq l (BitVec.ofNat 32 cl.val)).setWidth 32) : EReal) = hot cl l := by
  show (((((IntOp.cmpi .eq l (BitVec.ofNat 32 cl.val)).setWidth 32).toInt : ℤ) : ℝ) : EReal) = hot cl l
  unfold hot hotR IntOp.cmpi
  by_cases h : l = BitVec.ofNat 32 cl.val
  · simp [h]
  · have hb : (l == BitVec.ofNat 32 cl.val) = false := beq_eq_false_iff_ne.mpr h
    simp [h, hb]

/-- The weights at (class, pixel): the label row repeated over the classes is compared with the class number that the
    count along axis 0 gives, so the entry is the weight of the pixel's label for that class. -/
theorem pay3_apply (x1 : Vec Ideal S1x1x16384 .i32) (cl : Fin 19) (j : Fin 16384) :
    k0_pay3 (F := Ideal) x1 (ix2 cl j) = hot cl (x1 (ix3 0 0 j)) := by
  unfold k0_pay3
  rw [sitofp_apply, extui_apply]
  show FloatOps.sitofp (F := Ideal) .f32 ((IntOp.cmpi .eq
      (broadcastTo S19x16384 (shapeCast S1x16384 x1 Facts₀.shapeCasts_S1x1x16384_S1x16384) Facts₀.broadcasts_S1x16384_S19x16384 (ix2 cl j))
      (iota .tc S19x16384 32 [0] Facts₀.iota_S19x16384_d0_w32 (ix2 cl j))).setWidth 32) = _
  rw [broadcastTo_1b_ab_apply, shapeCast_1ab_ab_apply, iota_single_apply]
  exact weight_word cl _

/-! ## The lane sum -/

/-- A vector [a] viewed as a column [a, 1] reads, at (i, 0), its entry i: both have row-major position i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A class index with the pixel coordinate put back on axis 1 is (class, pixel). -/
theorem lift_lane (h : S19x16384.Reduces [1] S19) (cl : Fin 19) (k : Fin 16384) : h.lift (ix1 cl) k = ix2 cl k := by
  funext a
  match a with
  | ⟨0, _⟩ => exact Fin.ext rfl
  | ⟨1, _⟩ => exact Fin.ext rfl

/-- The sum along axis 1 of a [19, 16384] block, from the zero word, at a class: the sum over the 16384 pixels. -/
theorem lane_sum (src : FVec Ideal S19x16384 .f32) (h : S19x16384.Reduces [1] S19) (hφ : FKind.Formats .f32)
    (hacc : (0x00000000#32 : BitVec 32) = 0x00000000#32) (cl : Fin 19) :
    multiReduction (F := Ideal) .add [1] S19 src 0x00000000#32 h hφ hacc (ix1 cl) = ∑ k : Fin 16384, src (ix2 cl k) := by
  refine (Ideal.multiReduction_add_single src 0x00000000#32 h hφ hacc (ix1 cl)).trans ?_
  exact Finset.sum_congr rfl fun k _ => congrArg src (lift_lane h cl k)

/-! ## The product of the weights with the features

Both operands are contracted over their axis 1 (the pixels); the output's axis 0 is the weights' axis 0 (the class) and its
axis 1 is the features' axis 0 (the channel). -/

/-- The weights operand is read at the output's class on axis 0 … -/
theorem lhs_D0_0 (j : S19x128.Idx) (k : dot_S19x16384_S128x16384_S19x128_1_1_0_0_n_n.contr.Idx) :
    (dot_S19x16384_S128x16384_S19x128_1_1_0_0_n_n.lhsIdx j k 0 : ℕ) = j 0 := by
  simp [DotDims.lhsIdx, dot_S19x16384_S128x16384_S19x128_1_1_0_0_n_n]; rfl
/-- … and at the contracted pixel on axis 1. -/
theorem lhs_D0_1 (j : S19x128.Idx) (k : dot_S19x16384_S128x16384_S19x128_1_1_0_0_n_n.contr.Idx) :
    (dot_S19x16384_S128x16384_S19x128_1_1_0_0_n_n.lhsIdx j k 1 : ℕ) = k ⟨0, by decide⟩ := by
  simp [DotDims.lhsIdx, dot_S19x16384_S128x16384_S19x128_1_1_0_0_n_n]; rfl
/-- The features operand is read at the output's channel on axis 0 … -/
theorem rhs_D0_0 (j : S19x128.Idx) (k : dot_S19x16384_S128x16384_S19x128_1_1_0_0_n_n.contr.Idx) :
    (dot_S19x16384_S128x16384_S19x128_1_1_0_0_n_n.rhsIdx j k 0 : ℕ) = j 1 := by
  simp [DotDims.rhsIdx, dot_S19x16384_S128x16384_S19x128_1_1_0_0_n_n]; rfl
/-- … and at the contracted pixel on axis 1. -/
theorem rhs_D0_1 (j : S19x128.Idx) (k : dot_S19x16384_S128x16384_S19x128_1_1_0_0_n_n.contr.Idx) :
    (dot_S19x16384_S128x16384_S19x128_1_1_0_0_n_n.rhsIdx j k 1 : ℕ) = k ⟨0, by decide⟩ := by
  simp [DotDims.rhsIdx, dot_S19x16384_S128x16384_S19x128_1_1_0_0_n_n]; rfl

/-- The contraction's indices are the 16384 pixels. -/
def pixEquiv : dot_S19x16384_S128x16384_S19x128_1_1_0_0_n_n.contr.Idx ≃ Fin 16384 :=
  contrEquiv1 dot_S19x16384_S128x16384_S19x128_1_1_0_0_n_n 16384 rfl rfl

/-- The contraction index of pixel `i` has `i` as its one coordinate. -/
theorem pixEquiv_symm_val (i : Fin 16384) : ((pixEquiv.symm i) ⟨0, by decide⟩ : ℕ) = i.val :=
  contrEquiv1_symm_val dot_S19x16384_S128x16384_S19x128_1_1_0_0_n_n 16384 rfl rfl i

/-- At output (class, channel) and pixel `i` the weights are read at (class, i) … -/
theorem lhs_at (cl : Fin 19) (d : Fin 128) (i : Fin 16384) :
    dot_S19x16384_S128x16384_S19x128_1_1_0_0_n_n.lhsIdx (ix2 cl d) (pixEquiv.symm i) = ix2 cl i := by
  funext a
  match a with
  | ⟨0, _⟩ => exact Fin.ext (lhs_D0_0 _ _)
  | ⟨1, _⟩ => exact Fin.ext ((lhs_D0_1 _ _).trans (pixEquiv_symm_val i))

/-- … and the features at (channel, i). -/
theorem rhs_at (cl : Fin 19) (d : Fin 128) (i : Fin 16384) :
    dot_S19x16384_S128x16384_S19x128_1_1_0_0_n_n.rhsIdx (ix2 cl d) (pixEquiv.symm i) = ix2 d i := by
  funext a
  match a with
  | ⟨0, _⟩ => exact Fin.ext (rhs_D0_0 _ _)
  | ⟨1, _⟩ => exact Fin.ext ((rhs_D0_1 _ _).trans (pixEquiv_symm_val i))

/-- The product into the zero block, at (class, channel): the sum over the pixels of weight · feature (the sum over the
    contraction's indices, re-indexed by the pixels). -/
theorem matmul_at (lhs : FVec Ideal S19x16384 .bf16) (rhs : FVec Ideal S128x16384 .bf16) (cl : Fin 19) (d : Fin 128) :
    matmul (F := Ideal) dot_S19x16384_S128x16384_S19x128_1_1_0_0_n_n none lhs rhs (constant (F := Ideal) S19x128 .f32 0x00000000#32) (ix2 cl d)
      = ∑ i : Fin 16384, lhs (ix2 cl i) * rhs (ix2 d i) := by
  refine (Ideal.matmul_constant_zero_apply dot_S19x16384_S128x16384_S19x128_1_1_0_0_n_n none lhs rhs (ix2 cl d)).trans ?_
  rw [← Equiv.sum_comp pixEquiv.symm]
  exact Finset.sum_congr rfl fun i _ => by rw [lhs_at, rhs_at]

/-! ## The two blocks a point leaves -/

/-- The counts after a point: the running count plus the number of the block's pixels labelled `cl`. -/
theorem k0_pay4_apply (x1 : Vec Ideal S1x1x16384 .i32) (acc : Vec Ideal S1x19x1 .f32) (cl : Fin 19) :
    k0_pay4 (F := Ideal) x1 acc (ix3 0 cl 0)
      = acc (ix3 0 cl 0) + ∑ j : Fin 16384, hot cl (x1 (ix3 0 0 j)) := by
  unfold k0_pay4
  rw [shapeCast_ab_1ab_apply, addf_apply, shapeCast_1ab_ab_apply, shapeCast_a_a1_apply]
  refine congrArg (acc (ix3 0 cl 0) + ·) ?_
  refine (lane_sum (k0_pay3 (F := Ideal) x1) _ _ _ cl).trans ?_
  exact Finset.sum_congr rfl fun j _ => pay3_apply x1 cl j

/-- The feature sums after a point: the running sum plus Σ weight · feature over the block's pixels. -/
theorem k0_pay5_apply (x0 : Vec Ideal S1x128x16384 .f32) (x1 : Vec Ideal S1x1x16384 .i32) (acc : Vec Ideal S1x19x128 .f32)
    (cl : Fin 19) (d : Fin 128) :
    k0_pay5 (F := Ideal) x0 x1 acc (ix3 0 cl d)
      = acc (ix3 0 cl d) + ∑ j : Fin 16384, hot cl (x1 (ix3 0 0 j)) * x0 (ix3 0 d j) := by
  unfold k0_pay5
  rw [shapeCast_ab_1ab_apply, addf_apply, shapeCast_1ab_ab_apply]
  refine congrArg (acc (ix3 0 cl d) + ·) ?_
  refine (matmul_at _ _ cl d).trans ?_
  refine Finset.sum_congr rfl fun j _ => ?_
  rw [truncf_apply, truncf_apply, pay3_apply, shapeCast_1ab_ab_apply]

end Cert.KernelIdeal.Region0Pay

end
-- ==== Proof.Region0.lean ====
/-
  What the statistics kernel leaves in its two output arrays.

  Each core walks its sixteen grid points in order. At the first it clears its block of the feature sums [19, 128] and
  of the counts [19, 1]; at every point it adds, per class c, the number of the point's 16384 pixels labelled c to the
  counts, and the product of the one-hot weights [19, 16384] with the point's features [128, 16384], contracted over
  the pixels, to the sums. The block is written back once, after the core's last point, to slab `k` of the output. So
  slab `k` ends at core `k`'s share of the weighted sums.
-/
import proofs.«428978_j18485539242916_3_alg».proof.Proof.Gen.KernelIdeal.Frame
import proofs.«428978_j18485539242916_3_alg».proof.Proof.Stat
import proofs.«428978_j18485539242916_3_alg».proof.Proof.Region0Pay
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Stat Cert.KernelIdeal.Region0Pay
open Idealize.ShloMosaic Idealize.ShloMosaic.TcCoe Idealize.ShloMosaic.ValueIdx Idealize.SL.Sem
open Idealize.ShloMosaic.Pipeline (Dat Cfg Window)

/-! ## What each control case leaves in the two carried blocks -/

section Pieces
variable {F : FTy → Type} [FloatOps F]

theorem hz3 : (![0, 0, 0] : Fin 3 → Nat) = fun _ => 0 := funext fun a => by fin_cases a <;> rfl

/-- An accumulating point leaves, in the sums block holding `xo2`, the update of `xo2` by the point's blocks. -/
theorem out_B_2 (c : Dev nD) (i : grid0.Coords) (a3 : Memref sig .tc .vmem S1x128x16384 .f32) (h3 : a3.IsWhole)
    (a4 : Memref sig .tc .vmem S1x1x16384 .i32) (h4 : a4.IsWhole) (a5 : Memref sig .tc .vmem S1x19x128 .f32) (h5 : a5.IsWhole)
    (a6 : Memref sig .tc .vmem S1x19x1 .f32) (h6 : a6.IsWhole) (hc : ¬cond0_0 i)
    (x0 : Vec F S1x128x16384 .f32) (x1 : Vec F S1x1x16384 .i32) (xo2 : Vec F S1x19x128 .f32) (xo3 : Vec F S1x19x1 .f32) :
    out0_B_2 c i a3 h3 a4 h4 a5 h5 a6 h6 hc x0 x1 xo2 xo3 = k0_pay5 x0 x1 xo2 := by
  unfold out0_B_2
  rw [View.read_writes_eq_canon _ _ _ (cover0_B_2 c i a3 h3 a4 h4 a5 h5 a6 h6 hc x0 x1 xo2 xo3)]
  unfold kernelRun0_B
  dsimp only
  sl_unfold_words
  rw [View.canon_unit_zero hz3]
  simp only [View.readAt_eq_ld, h3.read_unread, h4.read_unread, h5.read_unread, View.ld_unit_zero (S := S1x128x16384) hz3,
    View.ld_unit_zero (S := S1x1x16384) hz3, View.ld_unit_zero (S := S1x19x128) hz3]

/-- An accumulating point leaves, in the counts block holding `xo3`, the update of `xo3` by the point's labels. -/
theorem out_B_3 (c : Dev nD) (i : grid0.Coords) (a3 : Memref sig .tc .vmem S1x128x16384 .f32) (h3 : a3.IsWhole)
    (a4 : Memref sig .tc .vmem S1x1x16384 .i32) (h4 : a4.IsWhole) (a5 : Memref sig .tc .vmem S1x19x128 .f32) (h5 : a5.IsWhole)
    (a6 : Memref sig .tc .vmem S1x19x1 .f32) (h6 : a6.IsWhole) (hc : ¬cond0_0 i)
    (x0 : Vec F S1x128x16384 .f32) (x1 : Vec F S1x1x16384 .i32) (xo2 : Vec F S1x19x128 .f32) (xo3 : Vec F S1x19x1 .f32) :
    out0_B_3 c i a3 h3 a4 h4 a5 h5 a6 h6 hc x0 x1 xo2 xo3 = k0_pay4 x1 xo3 := by
  unfold out0_B_3
  rw [View.read_writes_eq_canon _ _ _ (cover0_B_3 c i a3 h3 a4 h4 a5 h5 a6 h6 hc x0 x1 xo2 xo3)]
  unfold kernelRun0_B
  dsimp only
  sl_unfold_words
  rw [View.canon_unit_zero hz3]
  simp only [View.readAt_eq_ld, h4.read_unread, h6.read_unread, View.ld_unit_zero (S := S1x1x16384) hz3,
    View.ld_unit_zero (S := S1x19x1) hz3]

/-- A clearing point leaves, in the sums block, the update of the cleared block by the point's blocks. -/
theorem out_A_2 (c : Dev nD) (i : grid0.Coords) (a3 : Memref sig .tc .vmem S1x128x16384 .f32) (h3 : a3.IsWhole)
    (a4 : Memref sig .tc .vmem S1x1x16384 .i32) (h4 : a4.IsWhole) (a5 : Memref sig .tc .vmem S1x19x128 .f32) (h5 : a5.IsWhole)
    (a6 : Memref sig .tc .vmem S1x19x1 .f32) (h6 : a6.IsWhole) (hc : cond0_0 i)
    (x0 : Vec F S1x128x16384 .f32) (x1 : Vec F S1x1x16384 .i32) :
    out0_A_2 c i a3 h3 a4 h4 a5 h5 a6 h6 hc x0 x1 = k0_pay5 x0 x1 (k0_pay1 (F := F)) := by
  unfold out0_A_2
  rw [View.read_writes_eq_canon _ _ _ (cover0_A_2 c i a3 h3 a4 h4 a5 h5 a6 h6 hc x0 x1)]
  unfold kernelRun0_A
  dsimp only
  sl_unfold_words
  rw [View.canon_cons_unit_zero (S := S1x19x128) hz3]
  simp only [View.readAt_eq_ld, h3.read_unread, h4.read_unread, View.ld_unit_zero (S := S1x128x16384) hz3,
    View.ld_unit_zero (S := S1x1x16384) hz3, View.readCov_unit_zero (S := S1x19x128) _ hz3]

/-- A clearing point leaves, in the counts block, the update of the cleared block by the point's labels. -/
theorem out_A_3 (c : Dev nD) (i : grid0.Coords) (a3 : Memref sig .tc .vmem S1x128x16384 .f32) (h3 : a3.IsWhole)
    (a4 : Memref sig .tc .vmem S1x1x16384 .i32) (h4 : a4.IsWhole) (a5 : Memref sig .tc .vmem S1x19x128 .f32) (h5 : a5.IsWhole)
    (a6 : Memref sig .tc .vmem S1x19x1 .f32) (h6 : a6.IsWhole) (hc : cond0_0 i)
    (x0 : Vec F S1x128x16384 .f32) (x1 : Vec F S1x1x16384 .i32) :
    out0_A_3 c i a3 h3 a4 h4 a5 h5 a6 h6 hc x0 x1 = k0_pay4 x1 (k0_pay2 (F := F)) := by
  unfold out0_A_3
  rw [View.read_writes_eq_canon _ _ _ (cover0_A_3 c i a3 h3 a4 h4 a5 h5 a6 h6 hc x0 x1)]
  unfold kernelRun0_A
  dsimp only
  sl_unfold_words
  rw [View.canon_cons_unit_zero (S := S1x19x1) hz3]
  simp only [View.readAt_eq_ld, h4.read_unread, View.ld_unit_zero (S := S1x1x16384) hz3,
    View.readCov_unit_zero (S := S1x19x1) _ hz3]

end Pieces

variable (V : (c : Dev nD) → (b : Ref sig .tc) → Buf (Elt Ideal) ((c : Thread nD τ).loc b))

/-- The reshaped features [8, 128, 65536] and labels [8, 1, 65536] as the region finds them. -/
abbrev feats (c : Dev nD) : S8x128x65536.Idx → EReal := V c main_call0_v0
abbrev labs (c : Dev nD) : S8x1x65536.Idx → BitVec 32 := V c main_call0_v1

/-! ## The input blocks of a point, read in the arrays -/

/-- Where the index maps put each window's block: features and labels at (point / 4, 0, point % 4), the two outputs
    at slab point / 16 — decided over the 32 points. -/
theorem idx_in0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)
theorem idx_in1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)
theorem idx_out2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx_out3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- The feature block and the label block of point `t`. -/
abbrev fblk (c : Dev nD) (t : Fin cfg0.N) : Vec Ideal S1x128x16384 .f32 := iblk0 (F := Ideal) V c 0 t
abbrev lblk (c : Dev nD) (t : Fin cfg0.N) : Vec Ideal S1x1x16384 .i32 := iblk0 (F := Ideal) V c 1 t

/-- Channel `d`, pixel `j` of point `t`'s feature block is the feature array at batch t / 4, pixel 16384 · (t % 4) + j. -/
theorem fblk_apply (c : Dev nD) (t : Fin cfg0.N) (d : Fin 128) (j : Fin 16384) (b : Fin 8) (p : Fin 65536)
    (hb : b.val = t.val / 4) (hp : p.val = (t.val % 4) * 16384 + j.val) :
    fblk V c t (ix3 0 d j) = feats V c (ix3 b d p) := by
  unfold fblk iblk0
  rw [View.read_apply]
  show V c main_call0_v0 (((cfg0.win 0).blk t).view.emb (ix3 0 d j)) = V c main_call0_v0 (ix3 b d p)
  congr 1
  funext a
  apply Fin.ext
  obtain ⟨i0, i1, i2⟩ := idx_in0 t
  match a with
  | ⟨0, _⟩ => show win0_0.index t 0 * 1 + 1 * (0 : Fin 1).val = b.val; rw [i0, hb]; simp
  | ⟨1, _⟩ => show win0_0.index t 1 * 128 + 1 * d.val = d.val; rw [i1]; omega
  | ⟨2, _⟩ => show win0_0.index t 2 * 16384 + 1 * j.val = p.val; rw [i2, hp]; omega

/-- Pixel `j` of point `t`'s label block is the label array at batch t / 4, pixel 16384 · (t % 4) + j. -/
theorem lblk_apply (c : Dev nD) (t : Fin cfg0.N) (j : Fin 16384) (b : Fin 8) (p : Fin 65536)
    (hb : b.val = t.val / 4) (hp : p.val = (t.val % 4) * 16384 + j.val) :
    lblk V c t (ix3 0 0 j) = labs V c (ix3 b 0 p) := by
  unfold lblk iblk0
  rw [View.read_apply]
  show V c main_call0_v1 (((cfg0.win 1).blk t).view.emb (ix3 0 0 j)) = V c main_call0_v1 (ix3 b 0 p)
  congr 1
  funext a
  apply Fin.ext
  obtain ⟨i0, i1, i2⟩ := idx_in1 t
  match a with
  | ⟨0, _⟩ => show win0_1.index t 0 * 1 + 1 * (0 : Fin 1).val = b.val; rw [i0, hb]; simp
  | ⟨1, _⟩ => show win0_1.index t 1 * 1 + 1 * (0 : Fin 1).val = (0 : Fin 1).val; rw [i1]; simp
  | ⟨2, _⟩ => show win0_1.index t 2 * 16384 + 1 * j.val = p.val; rw [i2, hp]; omega

/-! ## The sixteen points of a core, folded -/

section Fold
variable (c : Dev nD) (cl : Fin 19)

/-- What point `n` adds to the feature sum of class `cl`, channel `d`, and to the count of class `cl`: the sum over the
    point's 16384 pixels of weight · feature, and of the weight (nothing past the grid). -/
def addS (d : Fin 128) (n : ℕ) : EReal :=
  if h : n < cfg0.N then ∑ j : Fin 16384, hot cl (lblk V c ⟨n, h⟩ (ix3 0 0 j)) * fblk V c ⟨n, h⟩ (ix3 0 d j) else 0
def addC (n : ℕ) : EReal :=
  if h : n < cfg0.N then ∑ j : Fin 16384, hot cl (lblk V c ⟨n, h⟩ (ix3 0 0 j)) else 0

/-- The sums block after a clearing point, and after a later point from what the point before left. -/
abbrev resetS (n : ℕ) (h : n < cfg0.N) : Vec Ideal S1x19x128 .f32 :=
  k0_pay5 (F := Ideal) (fblk V c ⟨n, h⟩) (lblk V c ⟨n, h⟩) (k0_pay1 (F := Ideal))
abbrev stepS (n : ℕ) (h : n < cfg0.N) (acc : Vec Ideal S1x19x128 .f32) : Vec Ideal S1x19x128 .f32 :=
  k0_pay5 (F := Ideal) (fblk V c ⟨n, h⟩) (lblk V c ⟨n, h⟩) acc
/-- The same for the counts block. -/
abbrev resetC (n : ℕ) (h : n < cfg0.N) : Vec Ideal S1x19x1 .f32 :=
  k0_pay4 (F := Ideal) (lblk V c ⟨n, h⟩) (k0_pay2 (F := Ideal))
abbrev stepC (n : ℕ) (h : n < cfg0.N) (acc : Vec Ideal S1x19x1 .f32) : Vec Ideal S1x19x1 .f32 :=
  k0_pay4 (F := Ideal) (lblk V c ⟨n, h⟩) acc

/-- After core `k`'s last point the sums block is the fold of its sixteen points: cleared at the first, updated at each. -/
theorem sums_fold (k : Fin 2) (h : 16 * k.val + 15 < cfg0.N) :
    (outsAt0 (F := Ideal) V c (16 * k.val + 15) h).1 = Pipeline.accAt (resetS V c) (stepS V c) (16 * k.val) 15 h :=
  Pipeline.eq_accAt (fun n hn => (outsAt0 (F := Ideal) V c n hn).1) 16 (resetS V c) (stepS V c)
    (fun n hn h0 => by
      show (outsAt0 (F := Ideal) V c n hn).1 = _
      rw [outsAt0_A V c ⟨n, hn⟩ h0]
      dsimp only
      exact out_A_2 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) ((hcond0_0 ⟨n, hn⟩).mpr h0) (iblk0 V c 0 ⟨n, hn⟩) (iblk0 V c 1 ⟨n, hn⟩))
    (fun n hn hB => by
      show (outsAt0 (F := Ideal) V c (n + 1) hn).1 = _
      rw [outsAt0_B V c ⟨n + 1, hn⟩ hB]
      dsimp only
      exact out_B_2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h)) (iblk0 V c 0 ⟨n + 1, hn⟩) (iblk0 V c 1 ⟨n + 1, hn⟩)
        (outsAt0 (F := Ideal) V c n (Nat.lt_of_succ_lt hn)).1 (outsAt0 (F := Ideal) V c n (Nat.lt_of_succ_lt hn)).2)
    k.val 15 (by omega) h

/-- The same for the counts block. -/
theorem counts_fold (k : Fin 2) (h : 16 * k.val + 15 < cfg0.N) :
    (outsAt0 (F := Ideal) V c (16 * k.val + 15) h).2 = Pipeline.accAt (resetC V c) (stepC V c) (16 * k.val) 15 h :=
  Pipeline.eq_accAt (fun n hn => (outsAt0 (F := Ideal) V c n hn).2) 16 (resetC V c) (stepC V c)
    (fun n hn h0 => by
      show (outsAt0 (F := Ideal) V c n hn).2 = _
      rw [outsAt0_A V c ⟨n, hn⟩ h0]
      dsimp only
      exact out_A_3 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) ((hcond0_0 ⟨n, hn⟩).mpr h0) (iblk0 V c 0 ⟨n, hn⟩) (iblk0 V c 1 ⟨n, hn⟩))
    (fun n hn hB => by
      show (outsAt0 (F := Ideal) V c (n + 1) hn).2 = _
      rw [outsAt0_B V c ⟨n + 1, hn⟩ hB]
      dsimp only
      exact out_B_3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => hB ((hcond0_0 ⟨n + 1, hn⟩).mp h)) (iblk0 V c 0 ⟨n + 1, hn⟩) (iblk0 V c 1 ⟨n + 1, hn⟩)
        (outsAt0 (F := Ideal) V c n (Nat.lt_of_succ_lt hn)).1 (outsAt0 (F := Ideal) V c n (Nat.lt_of_succ_lt hn)).2)
    k.val 15 (by omega) h

/-- The fold from point `b`, read at class `cl`, channel `d`: the cleared block is zero and each point adds its
    addend, so after `j` further points it is the sum of the addends of points b … b + j. -/
theorem sums_unroll (d : Fin 128) (b : ℕ) : ∀ (j : ℕ) (h : b + j < cfg0.N),
    Pipeline.accAt (resetS V c) (stepS V c) b j h (ix3 0 cl d) = ∑ s ∈ Finset.range (j + 1), addS V c cl d (b + s)
  | 0, h => by
    rw [Pipeline.accAt_zero, Finset.sum_range_one]
    refine (k0_pay5_apply (fblk V c ⟨b, h⟩) (lblk V c ⟨b, h⟩) (k0_pay1 (F := Ideal)) cl d).trans ?_
    rw [k0_pay1_apply, zero_add]
    unfold addS
    rw [dif_pos h]
    rfl
  | j + 1, h => by
    have ih := sums_unroll d b j (Nat.lt_of_succ_lt h)
    rw [Pipeline.accAt_succ]
    rw [Finset.sum_range_succ]
    rw [← ih]
    refine (k0_pay5_apply (fblk V c ⟨b + (j + 1), h⟩) (lblk V c ⟨b + (j + 1), h⟩) _ cl d).trans ?_
    unfold addS
    rw [dif_pos h]

theorem counts_unroll (b : ℕ) : ∀ (j : ℕ) (h : b + j < cfg0.N),
    Pipeline.accAt (resetC V c) (stepC V c) b j h (ix3 0 cl 0) = ∑ s ∈ Finset.range (j + 1), addC V c cl (b + s)
  | 0, h => by
    rw [Pipeline.accAt_zero, Finset.sum_range_one]
    refine (k0_pay4_apply (lblk V c ⟨b, h⟩) (k0_pay2 (F := Ideal)) cl).trans ?_
    rw [k0_pay2_apply, zero_add]
    unfold addC
    rw [dif_pos h]
    rfl
  | j + 1, h => by
    have ih := counts_unroll b j (Nat.lt_of_succ_lt h)
    rw [Pipeline.accAt_succ]
    rw [Finset.sum_range_succ]
    rw [← ih]
    refine (k0_pay4_apply (lblk V c ⟨b + (j + 1), h⟩) _ cl).trans ?_
    unfold addC
    rw [dif_pos h]

/-- Core `k`'s point `s` reads batch 4k + s / 4 and the pixels 16384 · (s % 4) + j: its addends in the arrays. -/
theorem addS_eq (k : Fin 2) (s : Fin 16) (d : Fin 128) :
    addS V c cl d (16 * k.val + s.val)
      = ∑ j : Fin 16384, hot cl (labs V c (ix3 (ptBatch k s) 0 (ptPix s j))) * feats V c (ix3 (ptBatch k s) d (ptPix s j)) := by
  have hk := k.isLt
  have hs := s.isLt
  have h : 16 * k.val + s.val < cfg0.N := lt_of_lt_of_eq (by omega) N_0.symm
  have hb : (ptBatch k s).val = (⟨16 * k.val + s.val, h⟩ : Fin cfg0.N).val / 4 := by
    show 4 * k.val + s.val / 4 = (16 * k.val + s.val) / 4; omega
  have hp : ∀ j : Fin 16384, (ptPix s j).val = ((⟨16 * k.val + s.val, h⟩ : Fin cfg0.N).val % 4) * 16384 + j.val := fun j => by
    show (s.val % 4) * 16384 + j.val = ((16 * k.val + s.val) % 4) * 16384 + j.val; omega
  unfold addS
  rw [dif_pos h]
  refine Finset.sum_congr rfl fun j _ => ?_
  rw [lblk_apply V c ⟨16 * k.val + s.val, h⟩ j (ptBatch k s) (ptPix s j) hb (hp j),
    fblk_apply V c ⟨16 * k.val + s.val, h⟩ d j (ptBatch k s) (ptPix s j) hb (hp j)]

theorem addC_eq (k : Fin 2) (s : Fin 16) :
    addC V c cl (16 * k.val + s.val) = ∑ j : Fin 16384, hot cl (labs V c (ix3 (ptBatch k s) 0 (ptPix s j))) := by
  have hk := k.isLt
  have hs := s.isLt
  have h : 16 * k.val + s.val < cfg0.N := lt_of_lt_of_eq (by omega) N_0.symm
  have hb : (ptBatch k s).val = (⟨16 * k.val + s.val, h⟩ : Fin cfg0.N).val / 4 := by
    show 4 * k.val + s.val / 4 = (16 * k.val + s.val) / 4; omega
  have hp : ∀ j : Fin 16384, (ptPix s j).val = ((⟨16 * k.val + s.val, h⟩ : Fin cfg0.N).val % 4) * 16384 + j.val := fun j => by
    show (s.val % 4) * 16384 + j.val = ((16 * k.val + s.val) % 4) * 16384 + j.val; omega
  unfold addC
  rw [dif_pos h]
  refine Finset.sum_congr rfl fun j _ => ?_
  rw [lblk_apply V c ⟨16 * k.val + s.val, h⟩ j (ptBatch k s) (ptPix s j) hb (hp j)]

/-- What core `k`'s last point leaves: the core's share of the weighted sums. -/
theorem sums_last (k : Fin 2) (d : Fin 128) (h : 16 * k.val + 15 < cfg0.N) :
    (outsAt0 (F := Ideal) V c (16 * k.val + 15) h).1 (ix3 0 cl d)
      = coreSum (fun b p => hot cl (labs V c (ix3 b 0 p)) * feats V c (ix3 b d p)) k := by
  rw [sums_fold V c k h, sums_unroll V c cl d (16 * k.val) 15 h, Finset.sum_range]
  unfold coreSum
  exact Finset.sum_congr rfl fun s _ => addS_eq V c cl k s d

theorem counts_last (k : Fin 2) (h : 16 * k.val + 15 < cfg0.N) :
    (outsAt0 (F := Ideal) V c (16 * k.val + 15) h).2 (ix3 0 cl 0)
      = coreSum (fun b p => hot cl (labs V c (ix3 b 0 p))) k := by
  rw [counts_fold V c k h, counts_unroll V c cl (16 * k.val) 15 h, Finset.sum_range]
  unfold coreSum
  exact Finset.sum_congr rfl fun s _ => addC_eq V c cl k s

end Fold

/-! ## The two write-backs, read in the output arrays -/

/-- The two points that write the sums back write different slabs. -/
theorem disjoint_out2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne ?_
  have h0 : win0_2.index t 0 = win0_2.index t' 0 := congrFun h 0
  rw [(idx_out2 t).1, (idx_out2 t').1] at h0
  have m := (flush0_2 t).mp hf
  have m' := (flush0_2 t').mp hf'
  exact Fin.ext (by omega)

/-- The same for the counts. -/
theorem disjoint_out3 : ∀ t t' : Fin cfg0.N, (cfg0.win 3).flush t = true → (cfg0.win 3).flush t' = true → t ≠ t' →
    Disjoint ((cfg0.win 3).blk t).view.set ((cfg0.win 3).blk t').view.set := by
  intro t t' hf hf' hne
  refine (cfg0.win 3).disjoint_blk fun h => hne ?_
  have h0 : win0_3.index t 0 = win0_3.index t' 0 := congrFun h 0
  rw [(idx_out3 t).1, (idx_out3 t').1] at h0
  have m := (flush0_3 t).mp hf
  have m' := (flush0_3 t').mp hf'
  exact Fin.ext (by omega)

/-- Slab `k` of the feature sums after the region: core `k`'s share of Σ weight · feature. -/
theorem sums_arr (c : Dev nD) (k : Fin 2) (cl : Fin 19) (d : Fin 128) :
    ((dat0 (F := Ideal) V c).arrAt 2 cfg0.N : S2x19x128.Idx → EReal) (ix3 k cl d)
      = coreSum (fun b p => hot cl (labs V c (ix3 b 0 p)) * feats V c (ix3 b d p)) k := by
  have hk := k.isLt
  have hlt : 16 * k.val + 15 < cfg0.N := lt_of_lt_of_eq (by omega) N_0.symm
  have hf : (cfg0.win 2).flush ⟨16 * k.val + 15, hlt⟩ = true :=
    (flush0_2 ⟨16 * k.val + 15, hlt⟩).mpr (by show (16 * k.val + 15) % 16 = 15; omega)
  have hemb : ((cfg0.win 2).blk ⟨16 * k.val + 15, hlt⟩).view.emb (ix3 0 cl d) = (ix3 k cl d : S2x19x128.Idx) := by
    funext a
    apply Fin.ext
    obtain ⟨i0, i1, i2⟩ := idx_out2 ⟨16 * k.val + 15, hlt⟩
    match a with
    | ⟨0, _⟩ => show win0_2.index ⟨16 * k.val + 15, hlt⟩ 0 * 1 + 1 * (0 : Fin 1).val = k.val
                rw [i0]; show (16 * k.val + 15) / 16 * 1 + 1 * 0 = k.val; omega
    | ⟨1, _⟩ => show win0_2.index ⟨16 * k.val + 15, hlt⟩ 1 * 19 + 1 * cl.val = cl.val; rw [i1]; omega
    | ⟨2, _⟩ => show win0_2.index ⟨16 * k.val + 15, hlt⟩ 2 * 128 + 1 * d.val = d.val; rw [i2]; omega
  have e := (dat0 (F := Ideal) V c).arrAt_emb_eq_flushed 2 disjoint_out2 ⟨16 * k.val + 15, hlt⟩ hf (ix3 0 cl d)
  rw [hemb] at e
  refine e.trans ?_
  show (cfg0.win 2).cut (grid0.coords ⟨16 * k.val + 15, hlt⟩) ((dat0 (F := Ideal) V c).after 2 ⟨16 * k.val + 15, hlt⟩) (ix3 0 cl d) = _
  rw [after0_2]
  exact sums_last V c cl k d hlt

/-- Slab `k` of the counts after the region: core `k`'s share of Σ weight. -/
theorem counts_arr (c : Dev nD) (k : Fin 2) (cl : Fin 19) :
    ((dat0 (F := Ideal) V c).arrAt 3 cfg0.N : S2x19x1.Idx → EReal) (ix3 k cl 0)
      = coreSum (fun b p => hot cl (labs V c (ix3 b 0 p))) k := by
  have hk := k.isLt
  have hlt : 16 * k.val + 15 < cfg0.N := lt_of_lt_of_eq (by omega) N_0.symm
  have hf : (cfg0.win 3).flush ⟨16 * k.val + 15, hlt⟩ = true :=
    (flush0_3 ⟨16 * k.val + 15, hlt⟩).mpr (by show (16 * k.val + 15) % 16 = 15; omega)
  have hemb : ((cfg0.win 3).blk ⟨16 * k.val + 15, hlt⟩).view.emb (ix3 0 cl 0) = (ix3 k cl 0 : S2x19x1.Idx) := by
    funext a
    apply Fin.ext
    obtain ⟨i0, i1, i2⟩ := idx_out3 ⟨16 * k.val + 15, hlt⟩
    match a with
    | ⟨0, _⟩ => show win0_3.index ⟨16 * k.val + 15, hlt⟩ 0 * 1 + 1 * (0 : Fin 1).val = k.val
                rw [i0]; show (16 * k.val + 15) / 16 * 1 + 1 * 0 = k.val; omega
    | ⟨1, _⟩ => show win0_3.index ⟨16 * k.val + 15, hlt⟩ 1 * 19 + 1 * cl.val = cl.val; rw [i1]; omega
    | ⟨2, _⟩ => show win0_3.index ⟨16 * k.val + 15, hlt⟩ 2 * 1 + 1 * (0 : Fin 1).val = (0 : Fin 1).val; rw [i2]; simp
  have e := (dat0 (F := Ideal) V c).arrAt_emb_eq_flushed 3 disjoint_out3 ⟨16 * k.val + 15, hlt⟩ hf (ix3 0 cl 0)
  rw [hemb] at e
  refine e.trans ?_
  show (cfg0.win 3).cut (grid0.coords ⟨16 * k.val + 15, hlt⟩) ((dat0 (F := Ideal) V c).after 3 ⟨16 * k.val + 15, hlt⟩) (ix3 0 cl 0) = _
  rw [after0_3]
  exact counts_last V c cl k hlt

end Cert.KernelIdeal.Region0

end
-- ==== Proof.Region1Pay.lean ====
/-
  One grid point of the variance kernel, read at an index.

  From a block of features x0 [1, 128, 16384], a block of labels x1 [1, 1, 16384], the class means m [19, 128], their
  squared norms q [19, 1], the classes' validity as numbers v [19, 1] and the running block acc [1, 19, 1], the point
  leaves for class c: acc + Σ over the block's pixels of (class c's weight of the pixel) · (the pixel's term), the term
  being the squared hinge of the norm of ‖f‖² − 2·(f · mean) + ‖mean‖², times the validity — mean, squared norm and
  validity of the pixel's own class, picked by summing over the classes against the one-hot weights.
-/
import proofs.«428978_j18485539242916_3_alg».proof.Proof.Gen.KernelIdeal.Skeleton
import proofs.«428978_j18485539242916_3_alg».proof.Proof.Stat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1Pay

open Cert.KernelIdeal Cert.KernelIdeal.Gen Cert.Stat
open Idealize.ShloMosaic Idealize.ShloMosaic.TcCoe Idealize.ShloMosaic.ValueIdx

variable {α : Type}

/-- A column [a] viewed as [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its rows to [a, b] reads, at (p, c), the operand at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over a matrix, the index above column j with row k inserted is (k, j). -/
theorem lift0_eq {n m : ℕ} (h : (⟨2, ![n, m]⟩ : Shape).Reduces [0] ⟨1, ![m]⟩) (j : Fin m) (k : Fin n) :
    h.lift (ix1 j) k = ix2 k j := by
  funext c; apply Fin.ext
  match c with
  | ⟨0, _⟩ => rfl
  | ⟨1, _⟩ => rfl

/-- Over a matrix, the index above row c with column k inserted is (c, k). -/
theorem lift1_eq {n m : ℕ} (h : (⟨2, ![n, m]⟩ : Shape).Reduces [1] ⟨1, ![n]⟩) (c : Fin n) (k : Fin m) :
    h.lift (ix1 c) k = ix2 c k := by
  funext ax; apply Fin.ext
  match ax with
  | ⟨0, _⟩ => rfl
  | ⟨1, _⟩ => rfl

/-- The sum of a matrix over its rows, at column j. -/
theorem sumAxis0_apply {n m : ℕ} (src : FVec Ideal ⟨2, ![n, m]⟩ .f32) (h : (⟨2, ![n, m]⟩ : Shape).Reduces [0] ⟨1, ![m]⟩)
    (hφ : FKind.Formats .f32) (hacc : (0x00000000#32 : BitVec 32) = FKind.add.neutral .f32 hφ) (j : Fin m) :
    multiReduction .add [0] ⟨1, ![m]⟩ src 0x00000000#32 h hφ hacc (ix1 j) = ∑ k : Fin n, src (ix2 k j) := by
  refine (Ideal.multiReduction_add_single src _ h hφ hacc (ix1 j)).trans ?_
  exact Finset.sum_congr rfl fun k _ => congrArg src (lift0_eq h j k)

/-- The sum of a matrix over its columns, at row c. -/
theorem sumAxis1_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (c : Fin n) :
    multiReduction .add [1] ⟨1, ![n]⟩ src 0x00000000#32 h hφ hacc (ix1 c) = ∑ k : Fin m, src (ix2 c k) := by
  refine (Ideal.multiReduction_add_single src _ h hφ hacc (ix1 c)).trans ?_
  exact Finset.sum_congr rfl fun k _ => congrArg src (lift1_eq h c k)

/-- The product of the means with the features contracts the channel axis: the left operand is read at (class, channel)… -/
theorem lhs6_0 (j : S19x16384.Idx) (k : dot_S19x128_S128x16384_S19x16384_1_0_0_1_n_n.contr.Idx) :
    ((dot_S19x128_S128x16384_S19x16384_1_0_0_1_n_n.lhsIdx j k) 0).val = (j 0).val := by
  simp [DotDims.lhsIdx, dot_S19x128_S128x16384_S19x16384_1_0_0_1_n_n]; rfl
theorem lhs6_1 (j : S19x16384.Idx) (k : dot_S19x128_S128x16384_S19x16384_1_0_0_1_n_n.contr.Idx) :
    ((dot_S19x128_S128x16384_S19x16384_1_0_0_1_n_n.lhsIdx j k) 1).val = (k ⟨0, by decide⟩).val :=
  dot_S19x128_S128x16384_S19x16384_1_0_0_1_n_n.lhsIdx_val_of_single rfl j k
/-- … and the right operand at (channel, pixel). -/
theorem rhs6_0 (j : S19x16384.Idx) (k : dot_S19x128_S128x16384_S19x16384_1_0_0_1_n_n.contr.Idx) :
    ((dot_S19x128_S128x16384_S19x16384_1_0_0_1_n_n.rhsIdx j k) 0).val = (k ⟨0, by decide⟩).val :=
  dot_S19x128_S128x16384_S19x16384_1_0_0_1_n_n.rhsIdx_val_of_single rfl j k
theorem rhs6_1 (j : S19x16384.Idx) (k : dot_S19x128_S128x16384_S19x16384_1_0_0_1_n_n.contr.Idx) :
    ((dot_S19x128_S128x16384_S19x16384_1_0_0_1_n_n.rhsIdx j k) 1).val = (j 1).val := by
  simp [DotDims.rhsIdx, dot_S19x128_S128x16384_S19x16384_1_0_0_1_n_n]; rfl

/-- The product into a zero block, at (class c, pixel j): the sum over the channels of mean × feature. -/
theorem matmul6_apply (A : FVec Ideal S19x128 .bf16) (B : FVec Ideal S128x16384 .bf16) (c : Fin 19) (j : Fin 16384) :
    matmul dot_S19x128_S128x16384_S19x16384_1_0_0_1_n_n none A B (constant (F := Ideal) S19x16384 .f32 0x00000000#32) (ix2 c j)
      = ∑ d : Fin 128, A (ix2 c d) * B (ix2 d j) := by
  show FloatOps.matmul _ none A B _ (ix2 c j) = _
  rw [Ideal.matmul_constant_zero_apply,
    ← Equiv.sum_comp (contrEquiv1 dot_S19x128_S128x16384_S19x16384_1_0_0_1_n_n 128 rfl rfl).symm]
  refine Finset.sum_congr rfl fun d _ => ?_
  have hk := contrEquiv1_symm_val dot_S19x128_S128x16384_S19x16384_1_0_0_1_n_n 128 rfl rfl d
  have hl : dot_S19x128_S128x16384_S19x16384_1_0_0_1_n_n.lhsIdx (ix2 c j)
      ((contrEquiv1 dot_S19x128_S128x16384_S19x16384_1_0_0_1_n_n 128 rfl rfl).symm d) = ix2 c d := by
    funext ax; apply Fin.ext
    match ax with
    | ⟨0, _⟩ => exact lhs6_0 _ _
    | ⟨1, _⟩ => exact (lhs6_1 _ _).trans hk
  have hr : dot_S19x128_S128x16384_S19x16384_1_0_0_1_n_n.rhsIdx (ix2 c j)
      ((contrEquiv1 dot_S19x128_S128x16384_S19x16384_1_0_0_1_n_n 128 rfl rfl).symm d) = ix2 d j := by
    funext ax; apply Fin.ext
    match ax with
    | ⟨0, _⟩ => exact (rhs6_0 _ _).trans hk
    | ⟨1, _⟩ => exact rhs6_1 _ _
  rw [hl, hr]

/-- The cleared block is zero. -/
theorem k1_pay2_apply (i : S1x19x1.Idx) : k1_pay2 (F := Ideal) i = 0 := by
  obtain ⟨a, b, c, rfl⟩ : ∃ (a : Fin 1) (b : Fin 19) (c : Fin 1), i = ix3 a b c := ⟨i 0, i 1, i 2, eq_ix3 i⟩
  unfold k1_pay2
  rw [shapeCast_ab_1ab_apply, broadcast_apply]
  exact Ideal.ofBits_zero_f32

theorem k1_pay3_apply (x0 : Vec Ideal S1x128x16384 .f32) (d : Fin 128) (j : Fin 16384) :
    k1_pay3 (F := Ideal) x0 (ix2 d j) = x0 (ix3 0 d j) := by
  unfold k1_pay3
  rw [shapeCast_1ab_ab_apply]

theorem hot_word (c : Fin 19) (l : BitVec 32) :
    FloatOps.sitofp (F := Ideal) .f32 ((IntOp.cmpi .eq l (BitVec.ofNat 32 c.val)).setWidth 32) = hot c l := by
  unfold hot hotR
  show (((((IntOp.cmpi .eq l (BitVec.ofNat 32 c.val)).setWidth 32).toInt : ℝ)) : EReal) = _
  by_cases h : l = BitVec.ofNat 32 c.val
  · rw [if_pos h, h]
    simp [IntOp.cmpi]
  · rw [if_neg h]
    have hb : (l == BitVec.ofNat 32 c.val) = false := by simpa using h
    simp [IntOp.cmpi, hb]

theorem k1_pay5_apply (x1 : Vec Ideal S1x1x16384 .i32) (c : Fin 19) (j : Fin 16384) :
    k1_pay5 (F := Ideal) x1 (ix2 c j) = hot c (x1 (ix3 0 0 j)) := by
  unfold k1_pay5
  rw [sitofp_apply, extui_apply]
  show FloatOps.sitofp (F := Ideal) .f32 ((IntOp.cmpi .eq (broadcastTo S19x16384 (shapeCast S1x16384 x1 _) _ (ix2 c j)) (iota .tc S19x16384 32 [0] _ (ix2 c j))).setWidth 32) = _
  rw [iota_single_apply, broadcastTo_1b_ab_apply, shapeCast_1ab_ab_apply]
  exact hot_word c _

/-- The squared norm of pixel j's features: the sum over the channels of feature². -/
theorem k1_pay4_apply (x0 : Vec Ideal S1x128x16384 .f32) (j : Fin 16384) :
    k1_pay4 (F := Ideal) x0 (ix2 0 j) = ∑ d : Fin 128, x0 (ix3 0 d j) * x0 (ix3 0 d j) := by
  unfold k1_pay4
  rw [shapeCast_a_1a_apply]
  refine (sumAxis0_apply _ _ _ _ j).trans ?_
  refine Finset.sum_congr rfl fun d _ => ?_
  rw [mulf_apply, k1_pay3_apply]

/-- Pixel j's features against its own class mean: the weights pick the class among the 19 products. -/
theorem k1_pay6_apply (x0 : Vec Ideal S1x128x16384 .f32) (x1 : Vec Ideal S1x1x16384 .i32) (m : Vec Ideal S19x128 .f32)
    (j : Fin 16384) :
    k1_pay6 (F := Ideal) x0 x1 m (ix2 0 j)
      = ∑ c : Fin 19, hot c (x1 (ix3 0 0 j)) * ∑ d : Fin 128, m (ix2 c d) * x0 (ix3 0 d j) := by
  unfold k1_pay6
  rw [shapeCast_a_1a_apply]
  refine (sumAxis0_apply _ _ _ _ j).trans ?_
  refine Finset.sum_congr rfl fun c _ => ?_
  rw [mulf_apply, k1_pay5_apply, matmul6_apply]
  refine congrArg _ (Finset.sum_congr rfl fun d _ => ?_)
  rw [truncf_apply, truncf_apply, shapeCast_self, k1_pay3_apply]

/-- The squared norm of pixel j's own class mean. -/
theorem k1_pay7_apply (x1 : Vec Ideal S1x1x16384 .i32) (q : Vec Ideal S19x1 .f32) (j : Fin 16384) :
    k1_pay7 (F := Ideal) x1 q (ix2 0 j) = ∑ c : Fin 19, hot c (x1 (ix3 0 0 j)) * q (ix2 c 0) := by
  unfold k1_pay7
  rw [shapeCast_a_1a_apply]
  refine (sumAxis0_apply _ _ _ _ j).trans ?_
  refine Finset.sum_congr rfl fun c _ => ?_
  rw [mulf_apply, k1_pay5_apply, broadcastTo_a1_ab_apply, shapeCast_self]

/-- The validity of pixel j's own class. -/
theorem k1_pay8_apply (x1 : Vec Ideal S1x1x16384 .i32) (v : Vec Ideal S19x1 .f32) (j : Fin 16384) :
    k1_pay8 (F := Ideal) x1 v (ix1 j) = ∑ c : Fin 19, hot c (x1 (ix3 0 0 j)) * v (ix2 c 0) := by
  unfold k1_pay8
  refine (sumAxis0_apply _ _ _ _ j).trans ?_
  refine Finset.sum_congr rfl fun c _ => ?_
  rw [mulf_apply, k1_pay5_apply, broadcastTo_a1_ab_apply, shapeCast_self]

theorem sqrt_apply {s : Shape} {φ : FTy} (a : FVec Ideal s φ) (i : s.Idx) : sqrt a i = Ideal.sqrt (a i) := rfl

/-- The variance sums after a point: the running sum plus Σ weight · per-pixel term over the block's pixels. -/
theorem k1_pay1_apply (x0 : Vec Ideal S1x128x16384 .f32) (x1 : Vec Ideal S1x1x16384 .i32) (m : Vec Ideal S19x128 .f32)
    (q v : Vec Ideal S19x1 .f32) (acc : Vec Ideal S1x19x1 .f32) (cl : Fin 19) :
    k1_pay1 (F := Ideal) (k1_pay4 x0) (k1_pay5 x1) (k1_pay6 x0 x1 m) (k1_pay7 x1 q) (k1_pay8 x1 v) acc (ix3 0 cl 0)
      = acc (ix3 0 cl 0) + ∑ j : Fin 16384, hot cl (x1 (ix3 0 0 j))
          * contribK (fun c d => m (ix2 c d)) (fun c => q (ix2 c 0)) (fun c => v (ix2 c 0))
              (fun d => x0 (ix3 0 d j)) (x1 (ix3 0 0 j)) := by
  unfold k1_pay1
  rw [shapeCast_ab_1ab_apply, addf_apply, shapeCast_1ab_ab_apply, shapeCast_a_a1_apply]
  refine congrArg _ ?_
  refine (sumAxis1_apply _ _ _ _ cl).trans ?_
  refine Finset.sum_congr rfl fun j _ => ?_
  rw [mulf_apply, k1_pay5_apply, broadcastTo_1b_ab_apply]
  refine congrArg _ ?_
  rw [mulf_apply, shapeCast_a_1a_apply]
  have e4 := k1_pay4_apply x0 j
  have e6 := k1_pay6_apply x0 x1 m j
  have e7 := k1_pay7_apply x1 q j
  have e8 := k1_pay8_apply x1 v j
  unfold contribK hinge2 safeNorm sqdK
  rw [← e4, ← e6, ← e7, ← e8]
  simp only [mulf_apply, subf_apply, addf_apply, maximumf_apply, select_apply, cmpf_apply, broadcast_apply, sqrt_apply,
    Ideal.cmpf_def, Ideal.ofBits_def]

end Cert.KernelIdeal.Region1Pay

end
-- ==== Proof.Region1.lean ====
/-
  What the variance kernel leaves in its output array.

  Each core walks its sixteen grid points in order, clearing its block [19, 1] at the first. At every point it forms,
  per pixel, the expanded squared distance to the pixel's own class mean — ‖f‖² − 2·(f · mean) + ‖mean‖², the class
  picked by the one-hot weights —, the squared hinge of its norm, times the validity of the pixel's class, and adds per
  class the weighted sum of that term over the point's 16384 pixels. The block is written back once, after the core's
  last point, to slab `k` of the output.
-/
import proofs.«428978_j18485539242916_3_alg».proof.Proof.Gen.KernelIdeal.Frame
import proofs.«428978_j18485539242916_3_alg».proof.Proof.Stat
import proofs.«428978_j18485539242916_3_alg».proof.Proof.Region1Pay
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.Stat
open Cert.KernelIdeal.Region1Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The reshaped features [8, 128, 65536] and labels [8, 1, 65536] as the region finds them. -/
abbrev feats (c : Dev nD) : S8x128x65536.Idx → EReal := V c main_call0_v0
abbrev labs (c : Dev nD) : S8x1x65536.Idx → BitVec 32 := V c main_call0_v1
/-- The class means [19, 128], their squared norms [19, 1] and the classes' validity as numbers [19, 1], as the region
    finds them. -/
abbrev meansA (c : Dev nD) : Fin 19 → Fin 128 → EReal := fun c' d => (V c main_call0_v8 : S19x128.Idx → EReal) (ix2 c' d)
abbrev mn2A (c : Dev nD) : Fin 19 → EReal := fun c' => (V c main_call0_v16 : S19x1.Idx → EReal) (ix2 c' 0)
abbrev vfA (c : Dev nD) : Fin 19 → EReal := fun c' => (V c main_call0_v13 : S19x1.Idx → EReal) (ix2 c' 0)

/-! ## What each of the two control cases leaves in the output block -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later point: the running block plus the point's sums — the one store's value, its loads reading whole buffers. -/
theorem out_B (c : Dev nD) (i : grid1.Coords) (a3 : Memref sig .tc .vmem S1x128x16384 .f32) (h3 : a3.IsWhole)
    (a4 : Memref sig .tc .vmem S1x1x16384 .i32) (h4 : a4.IsWhole) (a5 : Memref sig .tc .vmem S19x128 .f32) (h5 : a5.IsWhole)
    (a6 : Memref sig .tc .vmem S19x1 .f32) (h6 : a6.IsWhole) (a7 : Memref sig .tc .vmem S19x1 .f32) (h7 : a7.IsWhole)
    (a8 : Memref sig .tc .vmem S1x19x1 .f32) (h8 : a8.IsWhole) (hc : ¬cond1_0 i)
    (x0 : Vec F S1x128x16384 .f32) (x1 : Vec F S1x1x16384 .i32) (x2 : Vec F S19x128 .f32) (x3 : Vec F S19x1 .f32)
    (x4 : Vec F S19x1 .f32) (xo : Vec F S1x19x1 .f32) :
    out1_B_5 c i a3 h3 a4 h4 a5 h5 a6 h6 a7 h7 a8 h8 hc x0 x1 x2 x3 x4 xo
      = k1_pay1 (k1_pay4 x0) (k1_pay5 x1) (k1_pay6 x0 x1 x2) (k1_pay7 x1 x3) (k1_pay8 x1 x4) xo := by
  unfold out1_B_5
  rw [View.read_writes_eq_canon _ _ _ (cover1_B_5 c i a3 h3 a4 h4 a5 h5 a6 h6 a7 h7 a8 h8 hc x0 x1 x2 x3 x4 xo)]
  unfold kernelRun1_B
  dsimp only
  sl_unfold_words
  rw [View.canon_unit_zero hz3]
  simp only [View.readAt_eq_ld, h3.read_unread, h4.read_unread, h5.read_unread, h6.read_unread, h7.read_unread,
    h8.read_unread, View.ld_unit_zero (S := S1x128x16384) hz3, View.ld_unit_zero (S := S1x1x16384) hz3,
    View.ld_unit_zero (S := S19x128) hz2, View.ld_unit_zero (S := S19x1) hz2, View.ld_unit_zero (S := S1x19x1) hz3]

/-- A core's first point: the same over the cleared block. -/
theorem out_A (c : Dev nD) (i : grid1.Coords) (a3 : Memref sig .tc .vmem S1x128x16384 .f32) (h3 : a3.IsWhole)
    (a4 : Memref sig .tc .vmem S1x1x16384 .i32) (h4 : a4.IsWhole) (a5 : Memref sig .tc .vmem S19x128 .f32) (h5 : a5.IsWhole)
    (a6 : Memref sig .tc .vmem S19x1 .f32) (h6 : a6.IsWhole) (a7 : Memref sig .tc .vmem S19x1 .f32) (h7 : a7.IsWhole)
    (a8 : Memref sig .tc .vmem S1x19x1 .f32) (h8 : a8.IsWhole) (hc : cond1_0 i)
    (x0 : Vec F S1x128x16384 .f32) (x1 : Vec F S1x1x16384 .i32) (x2 : Vec F S19x128 .f32) (x3 : Vec F S19x1 .f32)
    (x4 : Vec F S19x1 .f32) :
    out1_A_5 c i a3 h3 a4 h4 a5 h5 a6 h6 a7 h7 a8 h8 hc x0 x1 x2 x3 x4
      = k1_pay1 (k1_pay4 x0) (k1_pay5 x1) (k1_pay6 x0 x1 x2) (k1_pay7 x1 x3) (k1_pay8 x1 x4) (k1_pay2 (F := F)) := by
  unfold out1_A_5
  rw [View.read_writes_eq_canon _ _ _ (cover1_A_5 c i a3 h3 a4 h4 a5 h5 a6 h6 a7 h7 a8 h8 hc x0 x1 x2 x3 x4)]
  unfold kernelRun1_A
  dsimp only
  sl_unfold_words
  rw [View.canon_cons_unit_zero (S := S1x19x1) hz3, View.readCov_unit_zero (S := S1x19x1) _ hz3]
  simp only [View.readAt_eq_ld, h3.read_unread, h4.read_unread, h5.read_unread, h6.read_unread, h7.read_unread,
    View.ld_unit_zero (S := S1x128x16384) hz3, View.ld_unit_zero (S := S1x1x16384) hz3,
    View.ld_unit_zero (S := S19x128) hz2, View.ld_unit_zero (S := S19x1) hz2, View.ld_unit_zero (S := S1x19x1) hz3]

end Pieces

/-! ## The blocks a point reads -/

/-- The block index maps, decided once over the 32 grid points: point t reads batch t / 4 and pixel tile t % 4 of the
    features and the labels, the whole small arrays, and writes slab t / 16. -/
theorem idx_facts : ∀ t : Fin cfg1.N,
    win1_0.index t (0 : Fin 3) = t.val / 4 ∧ win1_0.index t (1 : Fin 3) = 0 ∧ win1_0.index t (2 : Fin 3) = t.val % 4
    ∧ win1_1.index t (0 : Fin 3) = t.val / 4 ∧ win1_1.index t (1 : Fin 3) = 0 ∧ win1_1.index t (2 : Fin 3) = t.val % 4
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 16 ∧ win1_5.index t (1 : Fin 3) = 0 ∧ win1_5.index t (2 : Fin 3) = 0 :=
  (by decide +kernel : ∀ t : Fin grid1.N, _)

/-- The blocks at a point, by their literal types. -/
abbrev fblk (c : Dev nD) (t : Fin cfg1.N) : Vec Ideal S1x128x16384 .f32 := iblk1 V c 0 t
abbrev lblk (c : Dev nD) (t : Fin cfg1.N) : Vec Ideal S1x1x16384 .i32 := iblk1 V c 1 t
abbrev mblk (c : Dev nD) (t : Fin cfg1.N) : Vec Ideal S19x128 .f32 := iblk1 V c 2 t
abbrev qblk (c : Dev nD) (t : Fin cfg1.N) : Vec Ideal S19x1 .f32 := iblk1 V c 3 t
abbrev vblk (c : Dev nD) (t : Fin cfg1.N) : Vec Ideal S19x1 .f32 := iblk1 V c 4 t

/-- Channel d of pixel j of the feature block at point t is channel d of pixel (t % 4)·16384 + j of batch t / 4. -/
theorem fblk_apply (c : Dev nD) (t : Fin cfg1.N) (d : Fin 128) (j : Fin 16384) (b : Fin 8) (p : Fin 65536)
    (hb : b.val = t.val / 4) (hp : p.val = (t.val % 4) * 16384 + j.val) :
    fblk V c t (ix3 0 d j) = feats V c (ix3 b d p) := by
  obtain ⟨e0, e1, e2, -⟩ := idx_facts t
  show V c main_call0_v0 (((cfg1.win 0).blk t).view.emb (ix3 0 d j)) = V c main_call0_v0 (ix3 b d p)
  refine congrArg _ (funext fun a => Fin.ext ?_)
  match a with
  | ⟨0, _⟩ => show win1_0.index t (0 : Fin 3) * 1 + 1 * 0 = b.val; omega
  | ⟨1, _⟩ => show win1_0.index t (1 : Fin 3) * 128 + 1 * d.val = d.val; omega
  | ⟨2, _⟩ => show win1_0.index t (2 : Fin 3) * 16384 + 1 * j.val = p.val; omega

/-- The label of pixel j of the label block at point t, likewise. -/
theorem lblk_apply (c : Dev nD) (t : Fin cfg1.N) (j : Fin 16384) (b : Fin 8) (p : Fin 65536)
    (hb : b.val = t.val / 4) (hp : p.val = (t.val % 4) * 16384 + j.val) :
    lblk V c t (ix3 0 0 j) = labs V c (ix3 b 0 p) := by
  obtain ⟨-, -, -, e0, e1, e2, -⟩ := idx_facts t
  show V c main_call0_v1 (((cfg1.win 1).blk t).view.emb (ix3 0 0 j)) = V c main_call0_v1 (ix3 b 0 p)
  refine congrArg _ (funext fun a => Fin.ext ?_)
  match a with
  | ⟨0, _⟩ => show win1_1.index t (0 : Fin 3) * 1 + 1 * 0 = b.val; omega
  | ⟨1, _⟩ => show win1_1.index t (1 : Fin 3) * 1 + 1 * 0 = 0; omega
  | ⟨2, _⟩ => show win1_1.index t (2 : Fin 3) * 16384 + 1 * j.val = p.val; omega

/-- The means' block is the whole array, at every point; so are the squared norms' and the validity numbers'. -/
theorem mblk_apply (c : Dev nD) (t : Fin cfg1.N) (c' : Fin 19) (d : Fin 128) :
    mblk V c t (ix2 c' d) = meansA V c c' d := by
  obtain ⟨-, -, -, -, -, -, e0, e1, -⟩ := idx_facts t
  show V c main_call0_v8 (((cfg1.win 2).blk t).view.emb (ix2 c' d)) = V c main_call0_v8 (ix2 c' d)
  refine congrArg _ (funext fun a => Fin.ext ?_)
  match a with
  | ⟨0, _⟩ => show win1_2.index t (0 : Fin 2) * 19 + 1 * c'.val = c'.val; omega
  | ⟨1, _⟩ => show win1_2.index t (1 : Fin 2) * 128 + 1 * d.val = d.val; omega

theorem qblk_apply (c : Dev nD) (t : Fin cfg1.N) (c' : Fin 19) :
    qblk V c t (ix2 c' 0) = mn2A V c c' := by
  obtain ⟨-, -, -, -, -, -, -, -, e0, e1, -⟩ := idx_facts t
  show V c main_call0_v16 (((cfg1.win 3).blk t).view.emb (ix2 c' 0)) = V c main_call0_v16 (ix2 c' 0)
  refine congrArg _ (funext fun a => Fin.ext ?_)
  match a with
  | ⟨0, _⟩ => show win1_3.index t (0 : Fin 2) * 19 + 1 * c'.val = c'.val; omega
  | ⟨1, _⟩ => show win1_3.index t (1 : Fin 2) * 1 + 1 * 0 = 0; omega

theorem vblk_apply (c : Dev nD) (t : Fin cfg1.N) (c' : Fin 19) :
    vblk V c t (ix2 c' 0) = vfA V c c' := by
  obtain ⟨-, -, -, -, -, -, -, -, -, -, e0, e1, -⟩ := idx_facts t
  show V c main_call0_v13 (((cfg1.win 4).blk t).view.emb (ix2 c' 0)) = V c main_call0_v13 (ix2 c' 0)
  refine congrArg _ (funext fun a => Fin.ext ?_)
  match a with
  | ⟨0, _⟩ => show win1_4.index t (0 : Fin 2) * 19 + 1 * c'.val = c'.val; omega
  | ⟨1, _⟩ => show win1_4.index t (1 : Fin 2) * 1 + 1 * 0 = 0; omega

/-! ## One point's addend, and the fold over a core's sixteen points -/

/-- Class cl's weight of pixel (b, p) times the pixel's term. -/
abbrev pix (c : Dev nD) (cl : Fin 19) (b : Fin 8) (p : Fin 65536) : EReal :=
  hot cl (labs V c (ix3 b 0 p))
    * contribK (meansA V c) (mn2A V c) (vfA V c) (fun d => feats V c (ix3 b d p)) (labs V c (ix3 b 0 p))

/-- What grid point n adds for class cl: the sum over its 16384 pixels — batch n / 4, positions (n % 4)·16384 + j. -/
def addend (c : Dev nD) (n : ℕ) (cl : Fin 19) : EReal :=
  if h : n < 32 then ∑ j : Fin 16384, pix V c cl ⟨n / 4, by omega⟩ ⟨(n % 4) * 16384 + j.val, by omega⟩ else 0

/-- The point's store at class cl: the running value plus the point's addend. -/
theorem point_sum (c : Dev nD) (t : Fin cfg1.N) (acc : Vec Ideal S1x19x1 .f32) (cl : Fin 19) :
    k1_pay1 (F := Ideal) (k1_pay4 (fblk V c t)) (k1_pay5 (lblk V c t)) (k1_pay6 (fblk V c t) (lblk V c t) (mblk V c t))
        (k1_pay7 (lblk V c t) (qblk V c t)) (k1_pay8 (lblk V c t) (vblk V c t)) acc (ix3 0 cl 0)
      = acc (ix3 0 cl 0) + addend V c t.val cl := by
  have hN : t.val < 32 := lt_of_lt_of_eq t.isLt N_1
  refine (k1_pay1_apply (fblk V c t) (lblk V c t) (mblk V c t) (qblk V c t) (vblk V c t) acc cl).trans ?_
  unfold addend
  rw [dif_pos hN]
  refine congrArg _ (Finset.sum_congr rfl fun j _ => ?_)
  have hm : (fun c' d => mblk V c t (ix2 c' d)) = meansA V c := funext fun c' => funext fun d => mblk_apply V c t c' d
  have hq : (fun c' => qblk V c t (ix2 c' 0)) = mn2A V c := funext fun c' => qblk_apply V c t c'
  have hv : (fun c' => vblk V c t (ix2 c' 0)) = vfA V c := funext fun c' => vblk_apply V c t c'
  have hl : lblk V c t (ix3 0 0 j) = labs V c (ix3 ⟨t.val / 4, by omega⟩ 0 ⟨(t.val % 4) * 16384 + j.val, by omega⟩) :=
    lblk_apply V c t j _ _ rfl rfl
  have hf : (fun d => fblk V c t (ix3 0 d j))
      = fun d => feats V c (ix3 ⟨t.val / 4, by omega⟩ d ⟨(t.val % 4) * 16384 + j.val, by omega⟩) :=
    funext fun d => fblk_apply V c t d j _ _ rfl rfl
  rw [hm, hq, hv, hl, hf]

/-- What the output block holds after point n, class by class. -/
abbrev held (c : Dev nD) (n : ℕ) (h : n < cfg1.N) : Fin 19 → EReal := fun cl => outsAt1 V c n h (ix3 0 cl 0)

/-- At a core's first point the block is cleared, then the point's addend is added. -/
theorem held_first (c : Dev nD) (n : ℕ) (h : n < cfg1.N) (h0 : n % 16 = 0) :
    held V c n h = fun cl => 0 + addend V c n cl := by
  funext cl
  refine (congrFun (outsAt1_A V c ⟨n, h⟩ h0) (ix3 0 cl 0)).trans ?_
  refine (congrFun (out_A (F := Ideal) c (grid1.coords ⟨n, h⟩) (ms1_0 ⟨n, h⟩) (hs1_0 ⟨n, h⟩) (ms1_1 ⟨n, h⟩) (hs1_1 ⟨n, h⟩)
    (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩)
    ((hcond1_0 ⟨n, h⟩).mpr h0) (fblk V c ⟨n, h⟩) (lblk V c ⟨n, h⟩) (mblk V c ⟨n, h⟩) (qblk V c ⟨n, h⟩) (vblk V c ⟨n, h⟩))
    (ix3 0 cl 0)).trans ?_
  refine (point_sum V c ⟨n, h⟩ (k1_pay2 (F := Ideal)) cl).trans ?_
  rw [k1_pay2_apply]

/-- At every other point the point's addend is added to what the point before left. -/
theorem held_step (c : Dev nD) (n : ℕ) (h : n + 1 < cfg1.N) (h0 : ¬(n + 1) % 16 = 0) :
    held V c (n + 1) h = fun cl => held V c n (Nat.lt_of_succ_lt h) cl + addend V c (n + 1) cl := by
  funext cl
  refine (congrFun (outsAt1_B V c ⟨n + 1, h⟩ h0) (ix3 0 cl 0)).trans ?_
  refine (congrFun (out_B (F := Ideal) c (grid1.coords ⟨n + 1, h⟩) (ms1_0 ⟨n + 1, h⟩) (hs1_0 ⟨n + 1, h⟩) (ms1_1 ⟨n + 1, h⟩)
    (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩)
    (hs1_4 ⟨n + 1, h⟩) (ms1_5 ⟨n + 1, h⟩) (hs1_5 ⟨n + 1, h⟩) (fun hh => h0 ((hcond1_0 ⟨n + 1, h⟩).mp hh))
    (fblk V c ⟨n + 1, h⟩) (lblk V c ⟨n + 1, h⟩) (mblk V c ⟨n + 1, h⟩) (qblk V c ⟨n + 1, h⟩) (vblk V c ⟨n + 1, h⟩)
    (outsAt1 V c n (Nat.lt_of_succ_lt h))) (ix3 0 cl 0)).trans ?_
  exact point_sum V c ⟨n + 1, h⟩ (outsAt1 V c n (Nat.lt_of_succ_lt h)) cl

/-- So after point t the block holds the sum of the addends of the core's points up to t. -/
theorem held_eq (c : Dev nD) (t : ℕ) (ht : t < cfg1.N) (cl : Fin 19) :
    held V c t ht cl = 0 + ∑ s ∈ Finset.range (t % 16 + 1), addend V c (16 * (t / 16) + s) cl := by
  have h' : 16 * (t / 16) + t % 16 < cfg1.N := by rw [Nat.div_add_mod]; exact ht
  have e := Pipeline.eq_accAt_of_mod (N := cfg1.N) (held V c) 16 (fun n _ cl => 0 + addend V c n cl)
    (fun n _ acc cl => acc cl + addend V c n cl) (held_first V c) (held_step V c) (by decide) t ht h'
  rw [e]
  exact Pipeline.accAt_add_apply (N := cfg1.N) (fun n _ cl => 0 + addend V c n cl) (fun n _ acc cl => acc cl + addend V c n cl)
    (fun _ => 0) (fun n cl => addend V c n cl) (16 * (t / 16)) 15 (fun _ _ => rfl) (fun _ _ _ _ _ _ => rfl) (t % 16)
    (by omega) h' cl

/-! ## The array after the run -/

/-- The two points that write back, 15 and 31, write different slabs. -/
theorem flush_disjoint : ∀ t t' : Fin cfg1.N, (cfg1.win 5).flush t = true → (cfg1.win 5).flush t' = true → t ≠ t' →
    Disjoint ((cfg1.win 5).blk t).view.set ((cfg1.win 5).blk t').view.set := by
  intro t t' hf hf' hne
  have h1 := (flush1_5 t).mp hf
  have h2 := (flush1_5 t').mp hf'
  have l1 : t.val < 32 := lt_of_lt_of_eq t.isLt N_1
  have l2 : t'.val < 32 := lt_of_lt_of_eq t'.isLt N_1
  obtain ⟨-, -, -, -, -, -, -, -, -, -, -, -, e0, -, -⟩ := idx_facts t
  obtain ⟨-, -, -, -, -, -, -, -, -, -, -, -, e0', -, -⟩ := idx_facts t'
  refine win1_5.disjoint_blk fun e => hne (Fin.ext ?_)
  have e' := congrFun e (0 : Fin 3)
  rw [e0, e0'] at e'
  omega

/-- Slab `k` of the variance sums after the region: core `k`'s share of Σ weight · per-pixel term. -/
theorem var_arr (c : Dev nD) (k : Fin 2) (cl : Fin 19) :
    ((dat1 (F := Ideal) V c).arrAt 5 cfg1.N : S2x19x1.Idx → EReal) (ix3 k cl 0)
      = coreSum (fun b p => hot cl (labs V c (ix3 b 0 p))
          * contribK (meansA V c) (mn2A V c) (vfA V c) (fun d => feats V c (ix3 b d p)) (labs V c (ix3 b 0 p))) k := by
  have hN : cfg1.N = 32 := N_1
  have hk : 16 * k.val + 15 < cfg1.N := by omega
  have hf : (cfg1.win 5).flush ⟨16 * k.val + 15, hk⟩ = true :=
    (flush1_5 _).mpr (by show (16 * k.val + 15) % 16 = 15; omega)
  obtain ⟨-, -, -, -, -, -, -, -, -, -, -, -, e0, e1, e2⟩ := idx_facts ⟨16 * k.val + 15, hk⟩
  -- the block's entry (0, cl, 0) sits at (k, cl, 0) of the array
  have hemb : ((cfg1.win 5).blk ⟨16 * k.val + 15, hk⟩).view.emb (ix3 0 cl 0) = ix3 k cl 0 := by
    funext a; apply Fin.ext
    match a with
    | ⟨0, _⟩ => show win1_5.index ⟨16 * k.val + 15, hk⟩ (0 : Fin 3) * 1 + 1 * 0 = k.val
                rw [e0]; show (16 * k.val + 15) / 16 * 1 + 1 * 0 = k.val; omega
    | ⟨1, _⟩ => show win1_5.index ⟨16 * k.val + 15, hk⟩ (1 : Fin 3) * 19 + 1 * cl.val = cl.val; omega
    | ⟨2, _⟩ => show win1_5.index ⟨16 * k.val + 15, hk⟩ (2 : Fin 3) * 1 + 1 * 0 = 0; omega
  have h := (dat1 (F := Ideal) V c).arrAt_emb_eq_flushed 5 flush_disjoint ⟨16 * k.val + 15, hk⟩ hf (ix3 0 cl 0)
  rw [hemb] at h
  refine h.trans ?_
  show (cfg1.win 5).cut (grid1.coords ⟨16 * k.val + 15, hk⟩) ((dat1 V c).after 5 ⟨16 * k.val + 15, hk⟩) (ix3 0 cl 0) = _
  rw [after1_5]
  show held V c (16 * k.val + 15) hk cl = _
  rw [held_eq]
  -- the sixteen addends, re-indexed
  have m1 : (16 * k.val + 15) % 16 + 1 = 16 := by omega
  have m2 : (16 * k.val + 15) / 16 = k.val := by omega
  rw [m1, m2, zero_add, Finset.sum_range]
  unfold coreSum
  refine Finset.sum_congr rfl fun s _ => ?_
  unfold addend
  rw [dif_pos (by omega)]
  refine Finset.sum_congr rfl fun j _ => ?_
  have hb : (⟨(16 * k.val + s.val) / 4, by omega⟩ : Fin 8) = ptBatch k s :=
    Fin.ext (by show (16 * k.val + s.val) / 4 = 4 * k.val + s.val / 4; omega)
  have hp : (⟨((16 * k.val + s.val) % 4) * 16384 + j.val, by omega⟩ : Fin 65536) = ptPix s j :=
    Fin.ext (by show ((16 * k.val + s.val) % 4) * 16384 + j.val = (s.val % 4) * 16384 + j.val; omega)
  rw [hb, hp]

end Cert.KernelIdeal.Region1

end
-- ==== Proof.RefDecode.lean ====
/-
  Where the reference's scatters land and what its gathers read.

  The reference adds per-pixel values into per-class rows by a scatter whose index is the pixel's label (−1 replaced by
  0), read as a signed number and NOT clamped: a label outside 0 … 18 lands nowhere. Its gathers read the row named by
  the label, which for a label inside 0 … 18 is that very row.
-/
import proofs.«428978_j18485539242916_3_alg».proof.Proof.RefRead
import proofs.«428978_j18485539242916_3_alg».proof.Proof.Stat
import Idealize.ShloMosaic.Lib.Pipeline.Value
import Idealize.ShloMosaic.Lib.ValueIdx
import Idealize.ShloMosaic.PureOps.Ideal.Laws

set_option maxRecDepth 16384

noncomputable section

namespace Cert.ReferenceIdeal.RefDecode

open Cert.ReferenceIdeal Cert.ReferenceIdeal.ReadP Cert.Stat
open Idealize.ShloMosaic Idealize.ShloMosaic.TcCoe Idealize.ShloMosaic.ValueIdx Idealize.SL.Sem

/-- The start of the rank-1 scatter's window on the one class axis: the pixel's index word, read signed. -/
theorem start1 (idx : IVec S524288x1 32) (n : Fin 524288) (a : Fin 1) :
    scatter_S19_S524288x1_S524288_n_0_0_1.start (ix1 n) idx a = (idx (ix2 n 0)).toInt := by
  have ha : a = 0 := Subsingleton.elim _ _
  subst ha
  unfold ScatterDims.start
  rw [dif_pos (by show (0 : Fin 1) ∈ [0]; simp)]
  congr 2
  funext b
  match b with
  | ⟨0, _⟩ => rfl
  | ⟨1, _⟩ => rfl
/-- The class axis is an inserted axis: no window coordinate. -/
theorem window1 (n : Fin 524288) (a : Fin 1) :
    scatter_S19_S524288x1_S524288_n_0_0_1.window (ix1 n) a = 0 := by
  have ha : a = 0 := Subsingleton.elim _ _
  subst ha
  unfold ScatterDims.window
  rw [dif_neg (by show (0 : Fin S19.rank) ∉ S19.kept [0]; decide)]
/-- An update of the rank-1 scatter into [19] lands on class `c` exactly when its index word, read signed, is `c`. -/
theorem scatter1_lands (idx : IVec S524288x1 32) (n : Fin 524288) (c : Fin 19) :
    scatter_S19_S524288x1_S524288_n_0_0_1.resultIdx? (ix1 n) idx = some (ix1 c) ↔ (idx (ix2 n 0)).toInt = (c.val : Int) := by
  unfold ScatterDims.resultIdx?
  simp only [start1, window1]
  constructor
  · intro h
    split at h
    · rename_i H
      have h0 := congrArg Fin.val (congrFun (Option.some.inj h) 0)
      have H0 := H 0
      simp only [Nat.cast_zero, add_zero] at h0 H0
      change ((idx (ix2 n 0)).toInt).toNat = c.val at h0
      omega
    · exact absurd h (by simp)
  · intro h
    have hc := c.isLt
    rw [dif_pos (by
      intro a
      have ha : a = 0 := Subsingleton.elim _ _
      subst ha
      simp only [Nat.cast_zero, add_zero]
      show 0 ≤ (idx (ix2 n 0)).toInt ∧ (idx (ix2 n 0)).toInt < ((19 : ℕ) : Int)
      omega)]
    congr 1
    funext a
    have ha : a = 0 := Subsingleton.elim _ _
    subst ha
    apply Fin.ext
    show ((idx (ix2 n 0)).toInt + ((0 : ℕ) : Int)).toNat = c.val
    omega

/-- The rank-2 scatter's window starts at the pixel's index word (read signed) on the class axis … -/
theorem start2_0 (idx : IVec S524288x1 32) (n : Fin 524288) (e : Fin 128) :
    scatter_S19x128_S524288x1_S524288x128_1_0_0_1.start (ix2 n e) idx 0 = (idx (ix2 n 0)).toInt := by
  unfold ScatterDims.start
  rw [dif_pos (by show (0 : Fin 2) ∈ [0]; simp)]
  congr 2
  funext b
  match b with
  | ⟨0, _⟩ => rfl
  | ⟨1, _⟩ => rfl
/-- … and at 0 on the channel axis, which the index does not name. -/
theorem start2_1 (idx : IVec S524288x1 32) (n : Fin 524288) (e : Fin 128) :
    scatter_S19x128_S524288x1_S524288x128_1_0_0_1.start (ix2 n e) idx 1 = 0 := by
  unfold ScatterDims.start
  rw [dif_neg (by show (1 : Fin 2) ∉ [0]; decide)]
/-- The class axis is inserted: no window coordinate there; -/
theorem window2_0 (n : Fin 524288) (e : Fin 128) :
    scatter_S19x128_S524288x1_S524288x128_1_0_0_1.window (ix2 n e) 0 = 0 := by
  unfold ScatterDims.window
  rw [dif_neg (by show (0 : Fin S19x128.rank) ∉ S19x128.kept [0]; decide)]
/-- the channel axis carries the update's channel. -/
theorem window2_1 (n : Fin 524288) (e : Fin 128) :
    scatter_S19x128_S524288x1_S524288x128_1_0_0_1.window (ix2 n e) 1 = e.val := by
  unfold ScatterDims.window
  rw [dif_pos (by show (1 : Fin S19x128.rank) ∈ S19x128.kept [0]; decide)]
  rfl

/-- An update of the rank-2 scatter into [19, 128] lands on (c, d) exactly when its index word, read signed, is `c` and
    its channel is `d`. -/
theorem scatter2_lands (idx : IVec S524288x1 32) (n : Fin 524288) (e : Fin 128) (c : Fin 19) (d : Fin 128) :
    scatter_S19x128_S524288x1_S524288x128_1_0_0_1.resultIdx? (ix2 n e) idx = some (ix2 c d)
      ↔ (idx (ix2 n 0)).toInt = (c.val : Int) ∧ e = d := by
  have he := e.isLt
  have hc := c.isLt
  unfold ScatterDims.resultIdx?
  constructor
  · intro h
    split at h
    · rename_i H
      have h0 := congrArg Fin.val (congrFun (Option.some.inj h) 0)
      have h1 := congrArg Fin.val (congrFun (Option.some.inj h) 1)
      have H0 := H 0
      simp only [start2_0, window2_0, Nat.cast_zero, add_zero] at h0 H0
      simp only [start2_1, window2_1, zero_add, Int.toNat_natCast] at h1
      change ((idx (ix2 n 0)).toInt).toNat = c.val at h0
      change e.val = d.val at h1
      exact ⟨by omega, Fin.ext h1⟩
    · exact absurd h (by simp)
  · rintro ⟨h, rfl⟩
    rw [dif_pos (by
      intro a
      match a with
      | ⟨0, _⟩ =>
        show 0 ≤ scatter_S19x128_S524288x1_S524288x128_1_0_0_1.start (ix2 n e) idx 0
              + ((scatter_S19x128_S524288x1_S524288x128_1_0_0_1.window (ix2 n e) 0 : ℕ) : Int) ∧
            scatter_S19x128_S524288x1_S524288x128_1_0_0_1.start (ix2 n e) idx 0
              + ((scatter_S19x128_S524288x1_S524288x128_1_0_0_1.window (ix2 n e) 0 : ℕ) : Int) < ((19 : ℕ) : Int)
        rw [start2_0, window2_0]
        omega
      | ⟨1, _⟩ =>
        show 0 ≤ scatter_S19x128_S524288x1_S524288x128_1_0_0_1.start (ix2 n e) idx 1
              + ((scatter_S19x128_S524288x1_S524288x128_1_0_0_1.window (ix2 n e) 1 : ℕ) : Int) ∧
            scatter_S19x128_S524288x1_S524288x128_1_0_0_1.start (ix2 n e) idx 1
              + ((scatter_S19x128_S524288x1_S524288x128_1_0_0_1.window (ix2 n e) 1 : ℕ) : Int) < ((128 : ℕ) : Int)
        rw [start2_1, window2_1]
        omega)]
    congr 1
    funext a
    apply Fin.ext
    match a with
    | ⟨0, _⟩ =>
      show (scatter_S19x128_S524288x1_S524288x128_1_0_0_1.start (ix2 n e) idx 0
              + ((scatter_S19x128_S524288x1_S524288x128_1_0_0_1.window (ix2 n e) 0 : ℕ) : Int)).toNat = c.val
      rw [start2_0, window2_0]
      omega
    | ⟨1, _⟩ =>
      show (scatter_S19x128_S524288x1_S524288x128_1_0_0_1.start (ix2 n e) idx 1
              + ((scatter_S19x128_S524288x1_S524288x128_1_0_0_1.window (ix2 n e) 1 : ℕ) : Int)).toNat = e.val
      rw [start2_1, window2_1]
      omega

/-- The gather of rows of [19, 128]: where the index word, read signed, is a class `c`, pixel `n` reads row `c`. -/
theorem gather2_reads (idx : IVec S524288x1 32) (n : Fin 524288) (e : Fin 128) (c : Fin 19)
    (h : (idx (ix2 n 0)).toInt = (c.val : Int)) :
    gather_S19x128_S524288x1_S524288x128_1_0_n_n_0_1_1128.operandIdx (ix2 n e) idx = ix2 c e := by
  have hc := c.isLt
  have hb : ∀ a : Fin S19x128.rank, a ∉ gather_S19x128_S524288x1_S524288x128_1_0_n_n_0_1_1128.operandBatchingDims := by
    intro a; show a ∉ []; simp
  funext a
  apply Fin.ext
  show gather_S19x128_S524288x1_S524288x128_1_0_n_n_0_1_1128.start (ix2 n e) idx a
      + gather_S19x128_S524288x1_S524288x128_1_0_n_n_0_1_1128.batchCoord (ix2 n e) a
      + gather_S19x128_S524288x1_S524288x128_1_0_n_n_0_1_1128.offCoord (ix2 n e) a = (ix2 c e a).val
  rw [GatherDims.batchCoord_eq_zero _ _ _ (hb a)]
  match a with
  | ⟨0, _⟩ =>
    have hk : (0 : Fin S19x128.rank) ∉ gather_S19x128_S524288x1_S524288x128_1_0_n_n_0_1_1128.sKept := by
      show (0 : Fin S19x128.rank) ∉ S19x128.kept ([0] ++ []); decide
    have hs : gather_S19x128_S524288x1_S524288x128_1_0_n_n_0_1_1128.start (ix2 n e) idx 0
        = min (idx (ix2 n 0)).toInt.toNat (19 - 1) := by
      unfold GatherDims.start
      rw [dif_pos (by show (0 : Fin 2) ∈ [0]; simp)]
      congr 3
      congr 1
      funext b
      match b with
      | ⟨0, _⟩ => rfl
      | ⟨1, _⟩ => rfl
    show gather_S19x128_S524288x1_S524288x128_1_0_n_n_0_1_1128.start (ix2 n e) idx 0 + 0
      + gather_S19x128_S524288x1_S524288x128_1_0_n_n_0_1_1128.offCoord (ix2 n e) 0 = c.val
    rw [GatherDims.offCoord_eq_zero _ _ _ hk, hs, h]
    omega
  | ⟨1, _⟩ =>
    have hs : gather_S19x128_S524288x1_S524288x128_1_0_n_n_0_1_1128.start (ix2 n e) idx 1 = 0 := by
      unfold GatherDims.start
      rw [dif_neg (by show (1 : Fin 2) ∉ [0]; decide)]
    have ho : gather_S19x128_S524288x1_S524288x128_1_0_n_n_0_1_1128.offCoord (ix2 n e) 1 = e.val := by
      unfold GatherDims.offCoord
      rw [dif_pos (by show (1 : Fin S19x128.rank) ∈ S19x128.kept ([0] ++ []); decide)]
      rfl
    show gather_S19x128_S524288x1_S524288x128_1_0_n_n_0_1_1128.start (ix2 n e) idx 1 + 0
      + gather_S19x128_S524288x1_S524288x128_1_0_n_n_0_1_1128.offCoord (ix2 n e) 1 = e.val
    rw [hs, ho]
    omega

/-- The gather of entries of [19]: where the index word, read signed, is a class `c`, pixel `n` reads entry `c`. -/
theorem gather1_reads (idx : IVec S524288x1 32) (n : Fin 524288) (c : Fin 19)
    (h : (idx (ix2 n 0)).toInt = (c.val : Int)) :
    gather_S19_S524288x1_S524288_n_0_n_n_0_1_1.operandIdx (ix1 n) idx = ix1 c := by
  have hc := c.isLt
  funext a
  have ha : a = 0 := Subsingleton.elim _ _
  subst ha
  apply Fin.ext
  have hb : (0 : Fin S19.rank) ∉ gather_S19_S524288x1_S524288_n_0_n_n_0_1_1.operandBatchingDims := by
    show (0 : Fin 1) ∉ []; simp
  have hk : (0 : Fin S19.rank) ∉ gather_S19_S524288x1_S524288_n_0_n_n_0_1_1.sKept := by
    show (0 : Fin S19.rank) ∉ S19.kept ([0] ++ []); decide
  have hs : gather_S19_S524288x1_S524288_n_0_n_n_0_1_1.start (ix1 n) idx 0
      = min (idx (ix2 n 0)).toInt.toNat (19 - 1) := by
    unfold GatherDims.start
    rw [dif_pos (by show (0 : Fin 1) ∈ [0]; simp)]
    congr 3
    congr 1
    funext b
    match b with
    | ⟨0, _⟩ => rfl
    | ⟨1, _⟩ => rfl
  show gather_S19_S524288x1_S524288_n_0_n_n_0_1_1.start (ix1 n) idx 0
      + gather_S19_S524288x1_S524288_n_0_n_n_0_1_1.batchCoord (ix1 n) 0
      + gather_S19_S524288x1_S524288_n_0_n_n_0_1_1.offCoord (ix1 n) 0 = c.val
  rw [GatherDims.batchCoord_eq_zero _ _ _ hb, GatherDims.offCoord_eq_zero _ _ _ hk, hs, h]
  omega

/-- A flattened pixel below 524288 is a batch below 8 and a position below 65536: n = 65536 · b + p. -/
def pixEquiv : Fin 8 × Fin 65536 ≃ Fin 524288 where
  toFun q := ⟨65536 * q.1.val + q.2.val, by have := q.1.isLt; have := q.2.isLt; omega⟩
  invFun n := (⟨n.val / 65536, by have := n.isLt; omega⟩, ⟨n.val % 65536, by omega⟩)
  left_inv := by
    rintro ⟨⟨b, hb⟩, ⟨p, hp⟩⟩
    apply Prod.ext
    · apply Fin.ext; show (65536 * b + p) / 65536 = b; omega
    · apply Fin.ext; show (65536 * b + p) % 65536 = p; omega
  right_inv := by
    rintro ⟨n, hn⟩
    apply Fin.ext; show 65536 * (n / 65536) + n % 65536 = n; omega

/-- A sum over the 524288 flattened pixels is the sum over batches and positions, pixel `65536 · b + p`. -/
theorem sum_pixels {M : Type*} [AddCommMonoid M] (g : Fin 524288 → M) :
    ∑ n : Fin 524288, g n = ∑ b : Fin 8, ∑ p : Fin 65536, g ⟨65536 * b.val + p.val, by omega⟩ := by
  rw [← Equiv.sum_comp pixEquiv g, Fintype.sum_prod_type]
  rfl

end Cert.ReferenceIdeal.RefDecode

end
-- ==== Proof.RefStats.lean ====
/-
  The reference's per-class counts and feature sums.

  The reference flattens the pixels to 524288 rows and adds each pixel's validity (label ≠ −1, as a number) and its
  feature row (zeroed where the label is −1) into the row its label names, −1 replaced by 0. A pixel labelled −1 so
  adds 0 to class 0; a pixel with a label outside −1 … 18 lands nowhere; every other pixel adds 1, or its features,
  to its own class. That is the sum of the one-hot weights, and of weight · feature, over all pixels.
-/
import proofs.«428978_j18485539242916_3_alg».proof.Proof.RefRead
import proofs.«428978_j18485539242916_3_alg».proof.Proof.Stat
import Idealize.ShloMosaic.Lib.Pipeline.Value
import Idealize.ShloMosaic.Lib.ValueIdx
import Idealize.ShloMosaic.PureOps.Ideal.Laws
import proofs.«428978_j18485539242916_3_alg».proof.Proof.RefDecode
set_option maxRecDepth 16384

noncomputable section

namespace Cert.ReferenceIdeal.RefStats

open Cert.ReferenceIdeal Cert.ReferenceIdeal.ReadP Cert.Stat
open Idealize.ShloMosaic Idealize.ShloMosaic.TcCoe Idealize.ShloMosaic.ValueIdx Idealize.SL.Sem

open Cert.ReferenceIdeal.RefDecode

variable (x0 : S8x128x256x256.Idx → EReal) (x1 : S8x256x256.Idx → BitVec 32)

/-- For a class below 19, a word read signed is the class exactly when the word is the class's word. -/
theorem toInt_eq_class (c : Fin 19) (l : BitVec 32) : l.toInt = (c.val : Int) ↔ l = BitVec.ofNat 32 c.val := by
  have hc := c.isLt
  constructor
  · intro h
    apply BitVec.eq_of_toNat_eq
    rw [BitVec.toNat_ofNat]
    have h2 := BitVec.toInt_eq_toNat_cond l
    have h3 := l.isLt
    split at h2 <;> omega
  · rintro rfl
    rw [BitVec.toInt_eq_toNat_cond, BitVec.toNat_ofNat]
    split <;> omega

/-- The word −1 is no class: it weighs nothing. -/
theorem hot_neg_one (c : Fin 19) : Stat.hot c 4294967295#32 = 0 := by
  have hc := c.isLt
  unfold Stat.hot Stat.hotR
  rw [if_neg (by
    intro h
    have := congrArg BitVec.toNat h
    rw [BitVec.toNat_ofNat] at this
    simp at this
    omega)]
  simp

/-- One pixel's term of the count: the validity as a number where the label (−1 replaced by 0), read signed, is the
    class, and 0 elsewhere, is the class's weight of the label word. -/
theorem term_word (c : Fin 19) (l : BitVec 32) :
    (if (Scalar.select (IntOp.cmpi .ne l 4294967295#32) l 0#32).toInt = (c.val : Int) then
      (((IntOp.cmpi .ne l 4294967295#32).toNat : ℝ) : EReal) else 0) = Stat.hot c l := by
  by_cases hl : l = 4294967295#32
  · subst hl
    have h1 : IntOp.cmpi .ne 4294967295#32 4294967295#32 = 0#1 := by decide
    rw [h1, select_zero, hot_neg_one]
    simp
  · have h1 : IntOp.cmpi .ne l 4294967295#32 = 1#1 := by
      have hb : (l != 4294967295#32) = true := bne_iff_ne.2 hl
      show BitVec.ofBool (l != 4294967295#32) = 1#1
      rw [hb]; rfl
    rw [h1, select_one]
    unfold Stat.hot Stat.hotR
    by_cases h : l = BitVec.ofNat 32 c.val
    · rw [if_pos h, if_pos ((toInt_eq_class c l).2 h)]; simp
    · rw [if_neg h, if_neg (fun hh => h ((toInt_eq_class c l).1 hh))]; simp

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The flattened label array at pixel 65536 · b + p is the label of pixel (b, p). -/
theorem v2_pixel (b : Fin 8) (p : Fin 65536) :
    val_main_v2 (F := Ideal) x1 (ix1 ⟨65536 * b.val + p.val, by omega⟩) = Stat.lab3 x1 b p := by
  have hb := b.isLt
  have hp := p.isLt
  rw [val_main_v2_apply]
  unfold Stat.lab3
  congr 1
  funext a
  match a with
  | ⟨0, _⟩ => apply Fin.ext; show (65536 * b.val + p.val) / 65536 = b.val; omega
  | ⟨1, _⟩ => apply Fin.ext; show (65536 * b.val + p.val) / 256 % 256 = p.val / 256; omega
  | ⟨2, _⟩ => apply Fin.ext; show (65536 * b.val + p.val) % 256 = p.val % 256; omega

/-- The scatter's index word of pixel n: the label with −1 replaced by 0. -/
theorem v5_word (n : Fin 524288) :
    val_main_v5 (F := Ideal) x1 (ix1 n)
      = Scalar.select (IntOp.cmpi .ne (val_main_v2 (F := Ideal) x1 (ix1 n)) 4294967295#32)
          (val_main_v2 (F := Ideal) x1 (ix1 n)) 0#32 := by
  rw [val_main_v5_apply, val_main_v4_apply, val_main_v3_apply, val_main_c_apply, val_main_call0_v1_apply,
    val_main_call0_v0_apply, val_main_c_0_apply]

/-- The index array at (n, 0) is that word. -/
theorem v8_word (n : Fin 524288) :
    val_main_v8 (F := Ideal) x1 (ix2 n 0) = val_main_v5 (F := Ideal) x1 (ix1 n) := by
  rw [val_main_v8_apply]
  congr 1
  funext a
  match a with
  | ⟨0, _⟩ => rfl

/-- The validity of pixel n as a number. -/
theorem v6_word (n : Fin 524288) :
    val_main_v6 (F := Ideal) x1 (ix1 n)
      = (((IntOp.cmpi .ne (val_main_v2 (F := Ideal) x1 (ix1 n)) 4294967295#32).toNat : ℝ) : EReal) := by
  rw [val_main_v6_apply, val_main_v4_apply, val_main_v3_apply, val_main_c_apply]
  rfl

/-- One pixel's share of class c's count: its validity where its index word lands on c, nothing elsewhere, is the
    class's weight of its label. -/
theorem cnt_term (c : Fin 19) (n : Fin 524288)
    [inst : Decidable (scatter_S19_S524288x1_S524288_n_0_0_1.resultIdx? (ix1 n) (val_main_v8 (F := Ideal) x1) = some (ix1 c))] :
    (if scatter_S19_S524288x1_S524288_n_0_0_1.resultIdx? (ix1 n) (val_main_v8 (F := Ideal) x1) = some (ix1 c)
      then val_main_v6 (F := Ideal) x1 (ix1 n) else 0) = Stat.hot c (val_main_v2 (F := Ideal) x1 (ix1 n)) := by
  by_cases h : scatter_S19_S524288x1_S524288_n_0_0_1.resultIdx? (ix1 n) (val_main_v8 (F := Ideal) x1) = some (ix1 c)
  · rw [if_pos h]
    rw [scatter1_lands, v8_word, v5_word] at h
    rw [v6_word]
    exact ((term_word c _).symm.trans (if_pos h)).symm
  · rw [if_neg h]
    rw [scatter1_lands, v8_word, v5_word] at h
    exact ((term_word c _).symm.trans (if_neg h)).symm

/-- The reference's count of class `c` is the number of pixels labelled `c`. -/
theorem cnt_eq (c : Fin 19) : val_main_v9 (F := Ideal) x1 (ix1 c) = Stat.cnt x1 c := by
  unfold val_main_v9 Host.scatterAdd
  rw [Ideal.hostScatterAdd_def]
  unfold Ideal.hostScatterAdd
  rw [val_main_v7_apply, val_main_cst_apply]
  have hz : (FloatOps.ofBits FTy.f32 0#32 : Ideal .f32) = 0 := Ideal.ofBits_zero_f32
  rw [hz, zero_add, Finset.sum_filter, sum_idx1, sum_pixels]
  unfold Stat.cnt
  refine Finset.sum_congr rfl fun b _ => Finset.sum_congr rfl fun p _ => ?_
  rw [← v2_pixel x1 b p]
  exact cnt_term x1 c _

/-- One pixel's term of a feature sum: the feature (0 where the label is −1) where the label (−1 replaced by 0), read
    signed, is the class, and 0 elsewhere, is weight · feature (0 · x = 0 for every extended real x). -/
theorem term_word2 (c : Fin 19) (l : BitVec 32) (f : EReal) :
    (if (Scalar.select (IntOp.cmpi .ne l 4294967295#32) l 0#32).toInt = (c.val : Int) then
      Scalar.select (IntOp.cmpi .ne l 4294967295#32) f 0 else 0) = Stat.hot c l * f := by
  by_cases hl : l = 4294967295#32
  · subst hl
    have h1 : IntOp.cmpi .ne 4294967295#32 4294967295#32 = 0#1 := by decide
    rw [h1, select_zero, select_zero, hot_neg_one, zero_mul]
    simp
  · have h1 : IntOp.cmpi .ne l 4294967295#32 = 1#1 := by
      have hb : (l != 4294967295#32) = true := bne_iff_ne.2 hl
      show BitVec.ofBool (l != 4294967295#32) = 1#1
      rw [hb]; rfl
    rw [h1, select_one, select_one]
    unfold Stat.hot Stat.hotR
    by_cases h : l = BitVec.ofNat 32 c.val
    · rw [if_pos h, if_pos ((toInt_eq_class c l).2 h), EReal.coe_one, one_mul]
    · rw [if_neg h, if_neg (fun hh => h ((toInt_eq_class c l).1 hh)), EReal.coe_zero, zero_mul]

/-- The flattened feature array at (65536 · b + p, d) is channel d of pixel (b, p). -/
theorem v1_pixel (b : Fin 8) (p : Fin 65536) (d : Fin 128) :
    val_main_v1 (F := Ideal) x0 (ix2 ⟨65536 * b.val + p.val, by omega⟩ d) = Stat.fea3 x0 b d p := by
  have hb := b.isLt
  have hp := p.isLt
  have hd := d.isLt
  rw [val_main_v1_apply, val_main_v0_apply]
  unfold Stat.fea3
  congr 1
  funext a
  match a with
  | ⟨0, _⟩ => apply Fin.ext; show ((65536 * b.val + p.val) * 128 + d.val) / 8388608 = b.val; omega
  | ⟨1, _⟩ => apply Fin.ext; show ((65536 * b.val + p.val) * 128 + d.val) % 128 = d.val; omega
  | ⟨2, _⟩ => apply Fin.ext; show ((65536 * b.val + p.val) * 128 + d.val) / 32768 % 256 = p.val / 256; omega
  | ⟨3, _⟩ => apply Fin.ext; show ((65536 * b.val + p.val) * 128 + d.val) / 128 % 256 = p.val % 256; omega

/-- The second scatter's index array at (n, 0) is the same word: the label with −1 replaced by 0. -/
theorem v13_word (n : Fin 524288) :
    val_main_v13 (F := Ideal) x1 (ix2 n 0) = val_main_v5 (F := Ideal) x1 (ix1 n) := by
  rw [val_main_v13_apply]
  congr 1
  funext a
  match a with
  | ⟨0, _⟩ => rfl

/-- The update at (n, e): the feature, zeroed where the label is −1. -/
theorem v11_word (n : Fin 524288) (e : Fin 128) :
    val_main_v11 (F := Ideal) x0 x1 (ix2 n e)
      = Scalar.select (IntOp.cmpi .ne (val_main_v2 (F := Ideal) x1 (ix1 n)) 4294967295#32)
          (val_main_v1 (F := Ideal) x0 (ix2 n e)) 0 := by
  have e1 : val_main_call1_v1 (F := Ideal) x1 (ix2 n e) = val_main_v4 (F := Ideal) x1 (ix1 n) := by
    rw [val_main_call1_v1_apply, val_main_v10_apply]
    congr 1
    funext a
    match a with
    | ⟨0, _⟩ => rfl
  have e2 : val_main_call1_v2 (F := Ideal) (ix2 n e) = 0 := by
    rw [val_main_call1_v2_apply, val_main_call1_v0_apply, val_main_cst_1_apply]
    exact Ideal.ofBits_zero_f32
  rw [val_main_v11_apply, e1, e2, val_main_v4_apply, val_main_v3_apply, val_main_c_apply]

/-- One pixel's share of class c's feature sum in channel d, over its 128 updates: only the update of channel d can
    land on (c, d), and it does where the pixel's index word is c. -/
theorem sum_term (c : Fin 19) (d : Fin 128) (n : Fin 524288)
    [inst : ∀ e : Fin 128, Decidable (scatter_S19x128_S524288x1_S524288x128_1_0_0_1.resultIdx? (ix2 n e)
      (val_main_v13 (F := Ideal) x1) = some (ix2 c d))] :
    (∑ e : Fin 128, if scatter_S19x128_S524288x1_S524288x128_1_0_0_1.resultIdx? (ix2 n e)
        (val_main_v13 (F := Ideal) x1) = some (ix2 c d) then val_main_v11 (F := Ideal) x0 x1 (ix2 n e) else 0)
      = Stat.hot c (val_main_v2 (F := Ideal) x1 (ix1 n)) * val_main_v1 (F := Ideal) x0 (ix2 n d) := by
  rw [← term_word2 c (val_main_v2 (F := Ideal) x1 (ix1 n)) (val_main_v1 (F := Ideal) x0 (ix2 n d))]
  by_cases hA : (Scalar.select (IntOp.cmpi .ne (val_main_v2 (F := Ideal) x1 (ix1 n)) 4294967295#32)
      (val_main_v2 (F := Ideal) x1 (ix1 n)) 0#32).toInt = (c.val : Int)
  · rw [if_pos hA, Finset.sum_eq_single d]
    · rw [if_pos ((scatter2_lands _ n d c d).2 ⟨by rw [v13_word, v5_word]; exact hA, rfl⟩), v11_word]
    · intro e _ hed
      rw [if_neg (fun h => hed ((scatter2_lands _ n e c d).1 h).2)]
    · intro h
      exact absurd (Finset.mem_univ d) h
  · rw [if_neg hA]
    refine Finset.sum_eq_zero fun e _ => ?_
    rw [if_neg (fun h => hA (by
      have h2 := ((scatter2_lands _ n e c d).1 h).1
      rwa [v13_word, v5_word] at h2))]

/-- The reference's feature sum of class `c` in channel `d` is Σ weight · feature over all pixels. -/
theorem sum_eq (c : Fin 19) (d : Fin 128) : val_main_v14 (F := Ideal) x0 x1 (ix2 c d) = Stat.sum x0 x1 c d := by
  unfold val_main_v14 Host.scatterAdd
  rw [Ideal.hostScatterAdd_def]
  unfold Ideal.hostScatterAdd
  rw [val_main_v12_apply, val_main_cst_2_apply]
  have hz : (FloatOps.ofBits FTy.f32 0#32 : Ideal .f32) = 0 := Ideal.ofBits_zero_f32
  rw [hz, zero_add, Finset.sum_filter, sum_idx2, sum_pixels]
  unfold Stat.sum
  refine Finset.sum_congr rfl fun b _ => Finset.sum_congr rfl fun p _ => ?_
  rw [← v2_pixel x1 b p, ← v1_pixel x0 b p d]
  exact sum_term x0 x1 c d _

end Cert.ReferenceIdeal.RefStats

end
-- ==== Proof.RefVar.lean ====
/-
  The reference's per-class variance sums.

  Per pixel the reference subtracts the mean row its label names from the feature row, sums the squared differences,
  takes the squared hinge of the norm, keeps it where the pixel is valid and its class is valid, and adds it into the
  row its label names (−1 replaced by 0). A pixel labelled −1 adds 0 to class 0, a pixel labelled outside −1 … 18
  lands nowhere, and a pixel of class c reads row c of the means and entry c of the validity. So class c's sum is the
  weighted sum, over all pixels, of the squared hinge of the distance to mean c, kept where class c is valid.
-/
import proofs.«428978_j18485539242916_3_alg».proof.Proof.RefRead
import proofs.«428978_j18485539242916_3_alg».proof.Proof.Stat
import Idealize.ShloMosaic.Lib.Pipeline.Value
import Idealize.ShloMosaic.Lib.ValueIdx
import Idealize.ShloMosaic.PureOps.Ideal.Laws
import Idealize.ShloMosaic.Lib.StableHlo.Predicate
import proofs.«428978_j18485539242916_3_alg».proof.Proof.RefDecode
set_option maxRecDepth 16384

noncomputable section

namespace Cert.ReferenceIdeal.RefVar

open Cert.ReferenceIdeal Cert.ReferenceIdeal.ReadP Cert.Stat
open Idealize.ShloMosaic Idealize.ShloMosaic.TcCoe Idealize.ShloMosaic.ValueIdx Idealize.SL.Sem

open Cert.ReferenceIdeal.RefDecode

variable (x0 : S8x128x256x256.Idx → EReal) (x1 : S8x256x256.Idx → BitVec 32)

/-- The reference's means [19, 128] and class validity [19], by class and channel. -/
abbrev meansR : Fin 19 → Fin 128 → EReal := fun c d => val_main_v19 (F := Ideal) x0 x1 (ix2 c d)
abbrev validR : Fin 19 → BitVec 1 := fun c => val_main_v21 (F := Ideal) x1 (ix1 c)

/-! ### Words -/

/-- A word other than −1 compares "not equal" to −1. -/
theorem ne_neg1_one (l : BitVec 32) (h : l ≠ 4294967295#32) : IntOp.cmpi .ne l 4294967295#32 = 1#1 := by
  unfold IntOp.cmpi
  show BitVec.ofBool (l != 4294967295#32) = 1#1
  rw [StableHlo.Predicate.ofBool_eq_one_iff]
  exact bne_iff_ne.mpr h

/-- The word −1 does not. -/
theorem ne_neg1_zero : IntOp.cmpi .ne (4294967295#32 : BitVec 32) 4294967295#32 = 0#1 := by decide

/-- A class number, as a word, is not negative. -/
theorem slt_class (c : Fin 19) : IntOp.cmpi .slt (BitVec.ofNat 32 c.val) 0#32 = 0#1 := by
  revert c; decide

/-- A class number, as a word, reads signed as itself. -/
theorem toInt_class (c : Fin 19) : (BitVec.ofNat 32 c.val).toInt = (c.val : Int) :=
  StableHlo.Predicate.toInt_ofNat_small c.val (by have := c.isLt; omega)

/-- The word −1 is no class number. -/
theorem neg1_ne_class (c : Fin 19) : (4294967295#32 : BitVec 32) ≠ BitVec.ofNat 32 c.val := by
  revert c; decide

/-- A word that reads signed as a class number is that class number's word. -/
theorem eq_class_of_toInt (l : BitVec 32) (c : Fin 19) (h : l.toInt = (c.val : Int)) : l = BitVec.ofNat 32 c.val :=
  BitVec.eq_of_toInt_eq (h.trans (toInt_class c).symm)

/-- One bit: "and" with 1 keeps the other bit, "and" with 0 is 0. -/
theorem and_one (b : BitVec 1) : IntOp.andi 1#1 b = b := by
  revert b; decide
theorem and_zero (b : BitVec 1) : IntOp.andi 0#1 b = 0#1 := by
  revert b; decide

/-! ### One pixel of the flattened arrays -/

/-- Pixel `n`'s label word and feature vector, as the reference's flattened arrays hold them. -/
abbrev labR (n : Fin 524288) : BitVec 32 := val_main_v2 (F := Ideal) x1 (ix1 n)
abbrev feaR (n : Fin 524288) (d : Fin 128) : EReal := val_main_v1 (F := Ideal) x0 (ix2 n d)

/-- The pixel's validity bit: its label is not −1. -/
theorem v4_at (n : Fin 524288) :
    val_main_v4 (F := Ideal) x1 (ix1 n) = IntOp.cmpi .ne (labR x1 n) 4294967295#32 := by
  rw [val_main_v4_apply, val_main_v3_apply, val_main_c_apply]

/-- The pixel's row index: its label, −1 replaced by 0. -/
theorem v5_at (n : Fin 524288) :
    val_main_v5 (F := Ideal) x1 (ix1 n)
      = Scalar.select (IntOp.cmpi .ne (labR x1 n) 4294967295#32) (labR x1 n) 0#32 := by
  rw [val_main_v5_apply, v4_at, val_main_call0_v1_apply, val_main_call0_v0_apply, val_main_c_0_apply]

theorem v4_of_ne (n : Fin 524288) (h : labR x1 n ≠ 4294967295#32) : val_main_v4 (F := Ideal) x1 (ix1 n) = 1#1 := by
  rw [v4_at, ne_neg1_one _ h]
theorem v5_of_ne (n : Fin 524288) (h : labR x1 n ≠ 4294967295#32) : val_main_v5 (F := Ideal) x1 (ix1 n) = labR x1 n := by
  rw [v5_at, ne_neg1_one _ h, select_one]
theorem v4_of_neg1 (n : Fin 524288) (h : labR x1 n = 4294967295#32) : val_main_v4 (F := Ideal) x1 (ix1 n) = 0#1 := by
  rw [v4_at, h, ne_neg1_zero]
theorem v5_of_neg1 (n : Fin 524288) (h : labR x1 n = 4294967295#32) : val_main_v5 (F := Ideal) x1 (ix1 n) = 0#32 := by
  rw [v5_at, h, ne_neg1_zero, select_zero]

/-- The three index columns [524288, 1] read the flat array at the pixel. -/
theorem v52_at (n : Fin 524288) : val_main_v52 (F := Ideal) x1 (ix2 n 0) = val_main_v5 (F := Ideal) x1 (ix1 n) := by
  rw [val_main_v52_apply]
  exact congrArg _ (funext fun a => by match a with | ⟨0, _⟩ => rfl)
theorem v27_at (n : Fin 524288) : val_main_v27 (F := Ideal) x1 (ix2 n 0) = val_main_v26 (F := Ideal) x1 (ix1 n) := by
  rw [val_main_v27_apply]
  exact congrArg _ (funext fun a => by match a with | ⟨0, _⟩ => rfl)
theorem v46_at (n : Fin 524288) : val_main_v46 (F := Ideal) x1 (ix2 n 0) = val_main_v45 (F := Ideal) x1 (ix1 n) := by
  rw [val_main_v46_apply]
  exact congrArg _ (funext fun a => by match a with | ⟨0, _⟩ => rfl)

/-- Where the row index is a class number the wrap-around choice keeps it. -/
theorem v26_at (n : Fin 524288) (c : Fin 19) (h : val_main_v5 (F := Ideal) x1 (ix1 n) = BitVec.ofNat 32 c.val) :
    val_main_v26 (F := Ideal) x1 (ix1 n) = BitVec.ofNat 32 c.val := by
  rw [val_main_v26_apply, val_main_v23_apply, h, val_main_v22_apply, val_main_c_5_apply, slt_class, select_zero]
theorem v45_at (n : Fin 524288) (c : Fin 19) (h : val_main_v5 (F := Ideal) x1 (ix1 n) = BitVec.ofNat 32 c.val) :
    val_main_v45 (F := Ideal) x1 (ix1 n) = BitVec.ofNat 32 c.val := by
  rw [val_main_v45_apply, val_main_v42_apply, h, val_main_v41_apply, val_main_c_13_apply, slt_class, select_zero]

/-- So the first gather reads the mean row of that class … -/
theorem v28_at (n : Fin 524288) (e : Fin 128) (c : Fin 19) (h : val_main_v5 (F := Ideal) x1 (ix1 n) = BitVec.ofNat 32 c.val) :
    val_main_v28 (F := Ideal) x0 x1 (ix2 n e) = meansR x0 x1 c e := by
  show val_main_v19 (F := Ideal) x0 x1
    (gather_S19x128_S524288x1_S524288x128_1_0_n_n_0_1_1128.operandIdx (ix2 n e) (val_main_v27 (F := Ideal) x1)) = _
  rw [gather2_reads _ n e c (by rw [v27_at, v26_at x1 n c h, toInt_class])]

/-- … and the second the class's validity. -/
theorem v47_at (n : Fin 524288) (c : Fin 19) (h : val_main_v5 (F := Ideal) x1 (ix1 n) = BitVec.ofNat 32 c.val) :
    val_main_v47 (F := Ideal) x1 (ix1 n) = validR x1 c := by
  show val_main_v21 (F := Ideal) x1
    (gather_S19_S524288x1_S524288_n_0_n_n_0_1_1.operandIdx (ix1 n) (val_main_v46 (F := Ideal) x1)) = _
  rw [gather1_reads _ n c (by rw [v46_at, v45_at x1 n c h, toInt_class])]

/-! ### The float chain at a pixel -/

/-- The squared hinge the reference computes from the pixel's channel sum. -/
theorem v49_at (n : Fin 524288) :
    val_main_v49 (F := Ideal) x0 x1 (ix1 n) = hinge2 (val_main_v31 (F := Ideal) x0 x1 (ix1 n)) := by
  rw [val_main_v49_apply, val_main_v40_apply, val_main_v38_apply, val_main_v36_apply, val_main_v35_apply,
    val_main_v34_apply, val_main_v33_apply, val_main_v32_apply, val_main_cst_8_apply,
    val_main_call2_v1_apply, val_main_call2_v0_apply, val_main_cst_9_apply,
    val_main_call3_v1_apply, val_main_call3_v0_apply, val_main_cst_10_apply,
    val_main_v37_apply, val_main_cst_11_apply, val_main_v39_apply, val_main_cst_12_apply]
  generalize val_main_v31 (F := Ideal) x0 x1 (ix1 n) = q
  rfl

/-- The channel sum of a pixel whose row index is class `c`: the squared differences to mean `c`, from the initial value. -/
theorem v31_at (n : Fin 524288) (c : Fin 19) (h : val_main_v5 (F := Ideal) x1 (ix1 n) = BitVec.ofNat 32 c.val) :
    val_main_v31 (F := Ideal) x0 x1 (ix1 n) = sqdR (meansR x0 x1 c) (feaR x0 n) := by
  rw [val_main_v31_apply, val_main_cst_7_apply]
  unfold sqdR
  refine congrArg (_ + ·) (Finset.sum_congr rfl fun k _ => ?_)
  have hk : idx_main_v31 (ix1 n) k = ix2 n k :=
    funext fun a => by match a with | ⟨0, _⟩ => rfl | ⟨1, _⟩ => rfl
  rw [hk, val_main_v30_apply, val_main_v29_apply, v28_at x0 x1 n k c h]
  rfl

/-- The update of a pixel of class `c` (label not −1). -/
theorem v50_class (n : Fin 524288) (c : Fin 19) (hne : labR x1 n ≠ 4294967295#32)
    (h : val_main_v5 (F := Ideal) x1 (ix1 n) = BitVec.ofNat 32 c.val) :
    val_main_v50 (F := Ideal) x0 x1 (ix1 n) = contribR (meansR x0 x1) (validR x1) c (feaR x0 n) := by
  rw [val_main_v50_apply, val_main_v48_apply, v4_of_ne x1 n hne, v47_at x1 n c h, and_one, v49_at,
    v31_at x0 x1 n c h, val_main_call4_v1_apply, val_main_call4_v0_apply, val_main_cst_15_apply]
  rfl

/-- The update of a pixel labelled −1 is 0. -/
theorem v50_neg1 (n : Fin 524288) (h : labR x1 n = 4294967295#32) : val_main_v50 (F := Ideal) x0 x1 (ix1 n) = 0 := by
  rw [val_main_v50_apply, val_main_v48_apply, v4_of_neg1 x1 n h, and_zero, select_zero, val_main_call4_v1_apply,
    val_main_call4_v0_apply, val_main_cst_15_apply, Ideal.ofBits_def, Ideal.ofBits_zero_f32]

/-- The update of pixel `n` lands on class `c` exactly when its row index reads signed as `c`. -/
theorem lands_iff (n : Fin 524288) (c : Fin 19) :
    scatter_S19_S524288x1_S524288_n_0_0_1.resultIdx? (ix1 n) (val_main_v52 (F := Ideal) x1) = some (ix1 c)
      ↔ (val_main_v5 (F := Ideal) x1 (ix1 n)).toInt = (c.val : Int) := by
  rw [scatter1_lands, v52_at]

/-- The weights: 1 at the class's own word, 0 at any other. -/
theorem hot_class (c : Fin 19) : hot c (BitVec.ofNat 32 c.val) = 1 := by
  unfold hot hotR; rw [if_pos rfl]; exact EReal.coe_one
theorem hot_ne (c : Fin 19) (l : BitVec 32) (h : l ≠ BitVec.ofNat 32 c.val) : hot c l = 0 := by
  unfold hot hotR; rw [if_neg h]; exact EReal.coe_zero

/-- One pixel's share of class `c`'s sum: its update where it lands on `c`, which is the class weight of its label
    times the class-`c` term. -/
theorem term_eq (n : Fin 524288) (c : Fin 19)
    [Decidable (scatter_S19_S524288x1_S524288_n_0_0_1.resultIdx? (ix1 n) (val_main_v52 (F := Ideal) x1) = some (ix1 c))] :
    (if scatter_S19_S524288x1_S524288_n_0_0_1.resultIdx? (ix1 n) (val_main_v52 (F := Ideal) x1) = some (ix1 c)
        then val_main_v50 (F := Ideal) x0 x1 (ix1 n) else 0)
      = hot c (labR x1 n) * contribR (meansR x0 x1) (validR x1) c (feaR x0 n) := by
  by_cases hm : labR x1 n = 4294967295#32
  · rw [v50_neg1 x0 x1 n hm, ite_self, hm, hot_ne c _ (neg1_ne_class c), zero_mul]
  · by_cases hc : labR x1 n = BitVec.ofNat 32 c.val
    · have h5 : val_main_v5 (F := Ideal) x1 (ix1 n) = BitVec.ofNat 32 c.val := (v5_of_ne x1 n hm).trans hc
      rw [if_pos ((lands_iff x1 n c).mpr (by rw [h5, toInt_class])), v50_class x0 x1 n c hm h5, hc, hot_class, one_mul]
    · rw [if_neg (fun hl => hc (by
        have h := (lands_iff x1 n c).mp hl
        rw [v5_of_ne x1 n hm] at h
        exact eq_class_of_toInt _ c h)), hot_ne c _ hc, zero_mul]

/-! ### The sum over the pixels -/

/-- A flat index set [524288] is its one coordinate's range. -/
def pixEquiv : S524288.Idx ≃ Fin 524288 where
  toFun i := i 0
  invFun n := ix1 n
  left_inv i := (eq_ix1 i).symm
  right_inv _ := rfl

/-- The flattened pixel 65536·b + p holds the label word of pixel (b, p) … -/
theorem labR_flat (b : Fin 8) (p : Fin 65536) :
    labR x1 ⟨65536 * b.val + p.val, by omega⟩ = lab3 x1 b p := by
  unfold lab3
  show val_main_v2 (F := Ideal) x1 (ix1 _) = _
  rw [val_main_v2_apply]
  refine congrArg x1 (funext fun a => ?_)
  match a with
  | ⟨0, _⟩ => exact Fin.ext (by show (65536 * b.val + p.val) / 65536 = b.val; omega)
  | ⟨1, _⟩ => exact Fin.ext (by show (65536 * b.val + p.val) / 256 % 256 = p.val / 256; omega)
  | ⟨2, _⟩ => exact Fin.ext (by show (65536 * b.val + p.val) % 256 = p.val % 256; omega)

/-- … and, channel by channel, its feature vector (the flattening follows a move of the channel axis to the end). -/
theorem feaR_flat (b : Fin 8) (p : Fin 65536) (d : Fin 128) :
    feaR x0 ⟨65536 * b.val + p.val, by omega⟩ d = fea3 x0 b d p := by
  unfold fea3
  show val_main_v1 (F := Ideal) x0 (ix2 _ d) = _
  rw [val_main_v1_apply, val_main_v0_apply]
  refine congrArg x0 (funext fun a => ?_)
  match a with
  | ⟨0, _⟩ => exact Fin.ext (by show ((65536 * b.val + p.val) * 128 + d.val) / 8388608 = b.val; omega)
  | ⟨1, _⟩ => exact Fin.ext (by show ((65536 * b.val + p.val) * 128 + d.val) % 128 = d.val; omega)
  | ⟨2, _⟩ => exact Fin.ext (by show ((65536 * b.val + p.val) * 128 + d.val) / 32768 % 256 = p.val / 256; omega)
  | ⟨3, _⟩ => exact Fin.ext (by show ((65536 * b.val + p.val) * 128 + d.val) / 128 % 256 = p.val % 256; omega)

/-- The reference's variance sum of class `c`. -/
theorem var_eq (c : Fin 19) :
    val_main_v53 (F := Ideal) x0 x1 (ix1 c)
      = ∑ b : Fin 8, ∑ p : Fin 65536, hot c (lab3 x1 b p) * contribR (meansR x0 x1) (validR x1) c (fun d => fea3 x0 b d p) := by
  have hsum : ∀ f : S524288.Idx → EReal, ∑ j, f j = ∑ n : Fin 524288, f (ix1 n) := fun f =>
    (Equiv.sum_comp pixEquiv.symm f).symm
  unfold val_main_v53
  simp only [Host.scatterAdd, Ideal.hostScatterAdd_def, Ideal.hostScatterAdd]
  rw [Finset.sum_filter, hsum, Finset.sum_congr rfl (fun n _ => term_eq x0 x1 n c),
    val_main_v51_apply, val_main_cst_16_apply, Ideal.ofBits_def, Ideal.ofBits_zero_f32, zero_add, sum_pixels]
  refine Finset.sum_congr rfl fun b _ => Finset.sum_congr rfl fun p _ => ?_
  exact congrArg₂ (· * ·) (congrArg (hot c) (labR_flat x1 b p))
    (congrArg (contribR (meansR x0 x1) (validR x1) c) (funext fun d => feaR_flat x0 b p d))

end Cert.ReferenceIdeal.RefVar

end
-- ==== Proof.RefTail.lean ====
/-
  The reference's result is the loss of its own per-class statistics.

  After its variance sums the reference applies, operation for operation, the chain that `Cert.Tail.lossTail` states:
  to its variance sums, its counts clipped at 1, its class validity, the squared norms of its means and its means.
-/
import proofs.«428978_j18485539242916_3_alg».proof.Proof.RefRead
import proofs.«428978_j18485539242916_3_alg».proof.Proof.Tail

set_option maxRecDepth 65536

noncomputable section

namespace Cert.ReferenceIdeal.RefTail

open Cert.ReferenceIdeal Cert.ReferenceIdeal.ReadP Cert.Tail Idealize.ShloMosaic

variable {F : FTy → Type} [FloatOps F]

set_option maxHeartbeats 4000000 in
/-- The last stage of the reference is the loss chain over five of its earlier stages. -/
theorem result_eq (x0 : (⟨S8x128x256x256, .f32⟩ : BufTy).Contents (Elt F)) (x1 : (⟨S8x256x256, .i32⟩ : BufTy).Contents (Elt F)) :
    val_main_v108 (F := F) x0 x1
      = lossTail (F := F) (val_main_v53 (F := F) x0 x1) (val_main_v16 (F := F) x1) (val_main_v21 (F := F) x1)
          (val_main_v58 (F := F) x0 x1) (val_main_v19 (F := F) x0 x1) := by
  rfl

end Cert.ReferenceIdeal.RefTail

end
-- ==== Proof.RealSums.lean ====
/-
  Finite sums of real numbers, read inside the extended reals.

  Every quantity the two programs compute from finite features is a real number, and the laws that join
  the two programs (expanding a squared distance, moving a factor across a sum) hold for real numbers only:
  at an infinity the extended reals lose distributivity. These lemmas carry a sum of reals across the
  coercion, and state the one expansion the distance term needs.
-/
import Mathlib.Data.EReal.Inv
import Mathlib.Algebra.BigOperators.Group.Finset.Basic
import Mathlib.Algebra.BigOperators.Ring.Finset
import Mathlib.Tactic.Ring

namespace Cert.RealSums

open Finset

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is a real is a real: the sum of those reals. -/
theorem sum_eq_coe {ι : Type*} (s : Finset ι) (x : ι → EReal) (r : ι → ℝ) (h : ∀ i ∈ s, x i = (r i : EReal)) :
    ∑ i ∈ s, x i = ((∑ i ∈ s, r i : ℝ) : EReal) := by
  rw [coe_sum]; exact Finset.sum_congr rfl h

/-- Over the reals, the squared distance between two vectors expands:
    Σ (f − m)² = Σ f² − 2 · Σ m·f + Σ m². -/
theorem sq_dist_expand_real {ι : Type*} (s : Finset ι) (f m : ι → ℝ) :
    ∑ d ∈ s, (f d - m d) * (f d - m d)
      = (∑ d ∈ s, f d * f d) - 2 * (∑ d ∈ s, m d * f d) + ∑ d ∈ s, m d * m d := by
  rw [Finset.mul_sum, ← Finset.sum_sub_distrib, ← Finset.sum_add_distrib]
  exact Finset.sum_congr rfl fun d _ => by ring

end Cert.RealSums
-- ==== Proof.Bridge.lean ====
/-
  The algebra that joins the two programs.

  (1) The two cores' shares, each sixteen points of 16384 pixels, make up the sum over all eight batches and 65536
  positions: core k's point s is batch 4k + s / 4 and positions 16384 · (s % 4) + j. (2) For a pixel of class c, with
  real features and real class means, the kernel's expanded squared distance ‖f‖² − 2·(f · mean_c) + ‖mean_c‖² is the
  reference's Σ (f − mean_c)²; the law is distributivity, which holds for real numbers and fails at an infinity, so
  the features and the means must be real. The validity factor, a 0/1 number, times the squared hinge is the
  reference's choice between the squared hinge and 0. For a pixel of another class both weighted terms are 0.
-/
import proofs.«428978_j18485539242916_3_alg».proof.Proof.Stat
import proofs.«428978_j18485539242916_3_alg».proof.Proof.RealSums
import Idealize.ShloMosaic.PureOps.Ideal.Laws
import Mathlib.Logic.Equiv.Fin.Basic
import Mathlib.Algebra.BigOperators.Group.Finset.Basic
import Mathlib.Data.Fintype.BigOperators

noncomputable section

namespace Cert.Bridge

open Cert.Stat Idealize.ShloMosaic

/-- The word 0 denotes 0. -/
theorem zeroW_eq : zeroW = 0 := Ideal.ofBits_zero_f32
/-- The words 1, 2 and 1/2 denote those reals. -/
theorem oneW_eq : oneW = ((1 : ℝ) : EReal) := by
  -- sign field 0, exponent field 127 (the bias), significand field 0: (2^23 + 0) · 2^(127 − 127 − 23) = 1
  have h1 : (BitVec.extractLsb' 31 1 (0x3F800000#32)) = 0#1 := by decide
  have h2 : (BitVec.extractLsb' 23 8 (0x3F800000#32)).toNat = 127 := by decide
  have h3 : (BitVec.extractLsb' 0 23 (0x3F800000#32)).toNat = 0 := by decide
  simp only [oneW, Ideal.ofBits, Ideal.ieee]
  rw [show (8 + 23) = 31 from rfl, h1, h2, h3]
  norm_num
theorem twoW_eq : twoW = ((2 : ℝ) : EReal) := by
  -- sign field 0, exponent field 128, significand field 0: (2^23 + 0) · 2^(128 − 127 − 23) = 2
  have h1 : (BitVec.extractLsb' 31 1 (0x40000000#32)) = 0#1 := by decide
  have h2 : (BitVec.extractLsb' 23 8 (0x40000000#32)).toNat = 128 := by decide
  have h3 : (BitVec.extractLsb' 0 23 (0x40000000#32)).toNat = 0 := by decide
  simp only [twoW, Ideal.ofBits, Ideal.ieee]
  rw [show (8 + 23) = 31 from rfl, h1, h2, h3]
  norm_num

/-- A sum over the numbers below m · n is a double sum: every such number is b + n · a for one a below m and one
    b below n. -/
theorem sum_split {M : Type*} [AddCommMonoid M] (m n N : ℕ) (h : m * n = N) (f : Fin N → M) :
    ∑ i : Fin N, f i
      = ∑ a : Fin m, ∑ b : Fin n, f ⟨b.val + n * a.val, by
          have ha := a.isLt; have hb := b.isLt
          calc b.val + n * a.val < n + n * a.val := by omega
            _ = n * (a.val + 1) := by ring
            _ ≤ n * m := Nat.mul_le_mul_left n ha
            _ = N := by rw [Nat.mul_comm]; exact h⟩ := by
  subst h
  rw [← Equiv.sum_comp finProdFinEquiv f, Fintype.sum_prod_type]
  rfl

/-- The two cores' shares make up the sum over all batches and positions. -/
theorem coreSum_total (g : Fin 8 → Fin 65536 → EReal) :
    ∑ k : Fin 2, coreSum g k = ∑ b : Fin 8, ∑ p : Fin 65536, g b p := by
  unfold coreSum
  -- batch b = s1 + 4 · k, point s = s2 + 4 · s1, position p = j + 16384 · s2
  rw [sum_split 2 4 8 rfl (fun b => ∑ p : Fin 65536, g b p)]
  refine Finset.sum_congr rfl fun k _ => ?_
  rw [sum_split 4 4 16 rfl (fun s => ∑ j : Fin 16384, g (ptBatch k s) (ptPix s j))]
  refine Finset.sum_congr rfl fun s1 _ => ?_
  rw [sum_split 4 16384 65536 rfl (fun p => g _ p)]
  refine Finset.sum_congr rfl fun s2 _ => Finset.sum_congr rfl fun j _ => ?_
  have hk := k.isLt; have h1 := s1.isLt; have h2 := s2.isLt; have hj := j.isLt
  -- (s2 + 4 · s1) / 4 = s1 and (s2 + 4 · s1) % 4 = s2
  congr 1
  · apply Fin.ext; simp only [ptBatch]; omega
  · apply Fin.ext; simp only [ptPix]; omega

/-- Class `c`'s weight of a label word picks class `c`'s entry out of a weighted sum over the classes, when the word is `c`. -/
theorem sum_hot_of_eq (c : Fin 19) (l : BitVec 32) (h : l = BitVec.ofNat 32 c.val) (g : Fin 19 → EReal) :
    ∑ c' : Fin 19, hot c' l * g c' = g c := by
  subst h
  rw [Finset.sum_eq_single c]
  · -- the weight of class c itself is 1
    simp [hot, hotR]
  · -- another class c' has weight 0: the words of two numbers below 19 differ when the numbers do
    intro c' _ hne
    have h0 : hotR c' (BitVec.ofNat 32 c.val) = 0 := by
      unfold hotR
      rw [if_neg]
      intro heq
      apply hne
      have := congrArg BitVec.toNat heq
      simp only [BitVec.toNat_ofNat] at this
      have hc := c.isLt; have hc' := c'.isLt
      apply Fin.ext; omega
    simp [hot, h0]
  · intro hc; exact absurd (Finset.mem_univ c) hc

/-- A one-bit word is 0 or 1. -/
theorem bit_cases (v : BitVec 1) : v = 0#1 ∨ v = 1#1 := by
  have hlt := v.isLt
  rcases Nat.lt_or_ge v.toNat 1 with h | h
  · left; apply BitVec.eq_of_toNat_eq; simp; omega
  · right; apply BitVec.eq_of_toNat_eq; simp; omega

/-- PER PIXEL: weighted by class `c`'s weight, the kernel's term is the reference's term for class `c` — for real
    features and means, the squared norms those of the means, the validity factor the class's validity bit as a number. -/
theorem contrib_eq (means : Fin 19 → Fin 128 → EReal) (mn2 vf : Fin 19 → EReal) (valid : Fin 19 → BitVec 1)
    (f : Fin 128 → EReal) (l : BitVec 32) (c : Fin 19)
    (hmeans : ∀ c' d, ∃ r : ℝ, means c' d = (r : EReal)) (hf : ∀ d, ∃ r : ℝ, f d = (r : EReal))
    (hmn2 : ∀ c', mn2 c' = zeroW + ∑ d : Fin 128, means c' d * means c' d)
    (hvf : ∀ c', vf c' = (((valid c').toNat : ℝ) : EReal)) :
    hot c l * contribK means mn2 vf f l = hot c l * contribR means valid c f := by
  by_cases hl : l = BitVec.ofNat 32 c.val
  · -- a pixel of class c: the two squared distances are the same real number
    have hsq : sqdK means mn2 f l = sqdR (means c) f := by
      unfold sqdK sqdR
      rw [sum_hot_of_eq c l hl (fun c' => ∑ d : Fin 128, means c' d * f d),
        sum_hot_of_eq c l hl mn2, hmn2 c, twoW_eq, zeroW_eq]
      choose mr hmr using hmeans
      choose fr hfr using hf
      -- each of the four sums is the sum of the real entries
      have e1 : ∑ d : Fin 128, f d * f d = ((∑ d : Fin 128, fr d * fr d : ℝ) : EReal) :=
        RealSums.sum_eq_coe _ _ _ (fun d _ => by rw [hfr d, EReal.coe_mul])
      have e2 : ∑ d : Fin 128, means c d * f d = ((∑ d : Fin 128, mr c d * fr d : ℝ) : EReal) :=
        RealSums.sum_eq_coe _ _ _ (fun d _ => by rw [hfr d, hmr c d, EReal.coe_mul])
      have e3 : ∑ d : Fin 128, means c d * means c d = ((∑ d : Fin 128, mr c d * mr c d : ℝ) : EReal) :=
        RealSums.sum_eq_coe _ _ _ (fun d _ => by rw [hmr c d, EReal.coe_mul])
      have e4 : ∑ d : Fin 128, (f d - means c d) * (f d - means c d)
          = ((∑ d : Fin 128, (fr d - mr c d) * (fr d - mr c d) : ℝ) : EReal) :=
        RealSums.sum_eq_coe _ _ _ (fun d _ => by rw [hfr d, hmr c d, EReal.coe_mul, EReal.coe_sub])
      -- over the reals Σ (f − m)² = Σ f² − 2 · Σ m·f + Σ m²
      rw [e1, e2, e3, e4, RealSums.sq_dist_expand_real, zero_add, zero_add,
        EReal.coe_add, EReal.coe_sub, EReal.coe_mul]
    -- the validity factor is class c's validity bit as a number
    have hvfac : ∑ c' : Fin 19, hot c' l * vf c' = vf c := sum_hot_of_eq c l hl vf
    unfold contribK contribR
    rw [hsq, hvfac, hvf c]
    congr 1
    rcases bit_cases (valid c) with hv | hv
    · -- bit 0: x · 0 = 0, and the choice takes 0
      rw [hv, ValueIdx.select_zero, zeroW_eq]; simp
    · -- bit 1: x · 1 = x, and the choice takes the squared hinge
      rw [hv, ValueIdx.select_one]; simp
  · -- a pixel of another class: both sides are 0 · _ = 0
    have h0 : hot c l = 0 := by simp [hot, hotR, hl]
    rw [h0, zero_mul, zero_mul]

/-- The weighted feature sums of real features are real, the counts are real and at least 0, so the means — sum over
    the larger of count and 1 — are real. -/
theorem means_real (x0 : (⟨4, ![8, 128, 256, 256]⟩ : Shape).Idx → EReal) (x1 : (⟨3, ![8, 256, 256]⟩ : Shape).Idx → BitVec 32)
    (hx : ∀ i, ∃ r : ℝ, x0 i = (r : EReal)) (c : Fin 19) (d : Fin 128) :
    ∃ r : ℝ, Ideal.div (Stat.sum x0 x1 c d) (max (Stat.cnt x1 c) oneW) = (r : EReal) := by
  have hfe : ∀ (b : Fin 8) (p : Fin 65536), ∃ r : ℝ, fea3 x0 b d p = (r : EReal) := fun b p => hx _
  choose fr hfr using hfe
  -- the feature sum is the sum of the real products weight · feature
  have hsum : Stat.sum x0 x1 c d
      = ((∑ b : Fin 8, ∑ p : Fin 65536, hotR c (lab3 x1 b p) * fr b p : ℝ) : EReal) := by
    unfold Stat.sum
    refine RealSums.sum_eq_coe _ _ _ (fun b _ => RealSums.sum_eq_coe _ _ _ (fun p _ => ?_))
    rw [hfr, hot, EReal.coe_mul]
  -- the count is the sum of the real weights
  have hcnt : Stat.cnt x1 c = ((∑ b : Fin 8, ∑ p : Fin 65536, hotR c (lab3 x1 b p) : ℝ) : EReal) := by
    unfold Stat.cnt
    exact RealSums.sum_eq_coe _ _ _ (fun b _ => RealSums.sum_eq_coe _ _ _ (fun p _ => rfl))
  -- the larger of two reals is a real, here at least 1, so not 0
  have hmax : max (Stat.cnt x1 c) oneW
      = ((max (∑ b : Fin 8, ∑ p : Fin 65536, hotR c (lab3 x1 b p)) 1 : ℝ) : EReal) := by
    rw [hcnt, oneW_eq]; exact (EReal.coe_strictMono.monotone.map_max).symm
  have hne : max (∑ b : Fin 8, ∑ p : Fin 65536, hotR c (lab3 x1 b p)) (1 : ℝ) ≠ 0 :=
    ne_of_gt (lt_of_lt_of_le one_pos (le_max_right _ _))
  -- a real over a nonzero real is the real product with the reciprocal
  rw [hsum, hmax, Ideal.div_coe hne, ← EReal.coe_mul]
  exact ⟨_, rfl⟩

end Cert.Bridge

end
-- ==== Proof.Equal.lean ====
/-
  The two programs' per-class statistics agree.

  Kernel side: each output slab of a pallas_call is one core's share of a sum over pixels (the region modules), the
  host adds the two shares (the middle stretch), and the two shares make up the sum over all batches and positions;
  the reshaped inputs the calls read are the argument arrays by batch, channel and position. Reference side: its
  scatters are the same sums over all pixels. So counts, feature sums, clipped counts, validity and means agree
  entry by entry; the squared mean norms then agree; and for the variance sums the kernel's per-pixel term is the
  reference's by the expansion of the squared distance, which needs the features and the means to be real numbers:
  the features by the precondition, the means as quotients of real sums by counts clipped at 1.
-/
import proofs.«428978_j18485539242916_3_alg».proof.Proof.KernelIO
import proofs.«428978_j18485539242916_3_alg».proof.Proof.KernelMid
import proofs.«428978_j18485539242916_3_alg».proof.Proof.KernelTail
import proofs.«428978_j18485539242916_3_alg».proof.Proof.Region0
import proofs.«428978_j18485539242916_3_alg».proof.Proof.Region1
import proofs.«428978_j18485539242916_3_alg».proof.Proof.RefStats
import proofs.«428978_j18485539242916_3_alg».proof.Proof.RefVar
import proofs.«428978_j18485539242916_3_alg».proof.Proof.RefTail
import proofs.«428978_j18485539242916_3_alg».proof.Proof.Bridge
import proofs.«428978_j18485539242916_3_alg».proof.Proof.Finite

set_option maxRecDepth 16384

noncomputable section

namespace Cert.Equal

open Cert.KernelIdeal Cert.KernelIdeal.Gen Cert.Stat Cert.Bridge
open Idealize.ShloMosaic Idealize.ShloMosaic.TcCoe Idealize.ShloMosaic.ValueIdx Idealize.SL.Sem

variable (m : (ℓ : Loc nD τ sig) → Buf (Elt Ideal) ℓ) (ρ : Dev nD → PrngReg)

/-- The two argument arrays on core `c`, at their literal types. -/
abbrev X0 (c : Dev nD) : (⟨4, ![8, 128, 256, 256]⟩ : Shape).Idx → EReal := m ((c : Thread nD τ).loc main_arg0)
abbrev X1 (c : Dev nD) : (⟨3, ![8, 256, 256]⟩ : Shape).Idx → BitVec 32 := m ((c : Thread nD τ).loc main_arg1)

/-! ## The kernel's counts and feature sums are the sums over all pixels -/

theorem cntK_eq (c : Dev nD) (cl : Fin 19) : Mid.a4 m ρ c (ix2 cl 0) = Stat.cnt (X1 m c) cl := by
  rw [Mid.v4_apply, zeroW_eq, zero_add]
  have h : ∀ k : Fin 2, Mid.cnts2 m ρ c (ix3 k cl 0) = coreSum (fun b p => hot cl (lab3 (X1 m c) b p)) k := fun k =>
    (congrFun (IO.cnts_out m ρ c) (ix3 k cl 0)).trans ((Region0.counts_arr (V1 m ρ) c k cl).trans
      (congrArg (fun g => coreSum g k) (funext fun b => funext fun p => congrArg (hot cl) (IO.labs_in m ρ c b p))))
  rw [Finset.sum_congr rfl fun k _ => h k, coreSum_total]
  rfl

theorem sumK_eq (c : Dev nD) (cl : Fin 19) (d : Fin 128) : Mid.a3 m ρ c (ix2 cl d) = Stat.sum (X0 m c) (X1 m c) cl d := by
  rw [Mid.v3_apply, zeroW_eq, zero_add]
  have h : ∀ k : Fin 2, Mid.sums2 m ρ c (ix3 k cl d)
      = coreSum (fun b p => hot cl (lab3 (X1 m c) b p) * fea3 (X0 m c) b d p) k := fun k =>
    (congrFun (IO.sums_out m ρ c) (ix3 k cl d)).trans ((Region0.sums_arr (V1 m ρ) c k cl d).trans
      (congrArg (fun g => coreSum g k) (funext fun b => funext fun p => by
        show hot cl (Region0.labs (V1 m ρ) c (ix3 b 0 p)) * Region0.feats (V1 m ρ) c (ix3 b d p) = _
        rw [show Region0.labs (V1 m ρ) c (ix3 b 0 p) = lab3 (X1 m c) b p from IO.labs_in m ρ c b p,
          show Region0.feats (V1 m ρ) c (ix3 b d p) = fea3 (X0 m c) b d p from IO.feats_in m ρ c b d p])))
  rw [Finset.sum_congr rfl fun k _ => h k, coreSum_total]
  rfl

/-- The kernel's clipped count, validity and mean of a class, from the sums over all pixels. -/
theorem safeK_eq (c : Dev nD) (cl : Fin 19) : Mid.a6 m ρ c (ix2 cl 0) = max (Stat.cnt (X1 m c) cl) oneW := by
  rw [Mid.v6_apply, cntK_eq]
theorem validK_eq (c : Dev nD) (cl : Fin 19) :
    Mid.a11 m ρ c (ix1 cl) = Ideal.cmp .ogt (Stat.cnt (X1 m c) cl) (Ideal.ofBits .f32 0x42C80000#32) := by
  rw [Mid.v11_apply, cntK_eq]
theorem meanK_eq (c : Dev nD) (cl : Fin 19) (d : Fin 128) :
    Mid.a8 m ρ c (ix2 cl d) = Ideal.div (Stat.sum (X0 m c) (X1 m c) cl d) (max (Stat.cnt (X1 m c) cl) oneW) := by
  rw [Mid.v8_apply, sumK_eq, safeK_eq]

/-! ## The reference's statistics, in the same closed forms -/

section Ref
open Cert.ReferenceIdeal.ReadP

variable (x0 : (⟨4, ![8, 128, 256, 256]⟩ : Shape).Idx → EReal) (x1 : (⟨3, ![8, 256, 256]⟩ : Shape).Idx → BitVec 32)

theorem safeR_eq (cl : Fin 19) : val_main_v16 (F := Ideal) x1 (ix1 cl) = max (Stat.cnt x1 cl) oneW := by
  rw [val_main_v16_apply, val_main_v15_apply, val_main_cst_3_apply, Cert.ReferenceIdeal.RefStats.cnt_eq]; rfl

theorem validR_eq (cl : Fin 19) :
    val_main_v21 (F := Ideal) x1 (ix1 cl) = Ideal.cmp .ogt (Stat.cnt x1 cl) (Ideal.ofBits .f32 0x42C80000#32) := by
  rw [val_main_v21_apply, val_main_v20_apply, val_main_cst_4_apply, Cert.ReferenceIdeal.RefStats.cnt_eq]; rfl

theorem meanR_eq (cl : Fin 19) (d : Fin 128) :
    val_main_v19 (F := Ideal) x0 x1 (ix2 cl d) = Ideal.div (Stat.sum x0 x1 cl d) (max (Stat.cnt x1 cl) oneW) := by
  have hi : idx_main_v17 (idx_main_v18 (ix2 cl d)) = ix1 cl := funext fun a => match a with | ⟨0, _⟩ => rfl
  rw [val_main_v19_apply, val_main_v18_apply, val_main_v17_apply, hi, safeR_eq, Cert.ReferenceIdeal.RefStats.sum_eq]; rfl

theorem mn2R_eq (cl : Fin 19) :
    val_main_v58 (F := Ideal) x0 x1 (ix1 cl)
      = zeroW + ∑ d : Fin 128, val_main_v19 (F := Ideal) x0 x1 (ix2 cl d) * val_main_v19 (F := Ideal) x0 x1 (ix2 cl d) := by
  have hi : ∀ k : Fin 128, idx_main_v58 (ix1 cl) k = ix2 cl k := fun k =>
    funext fun a => match a with | ⟨0, _⟩ => rfl | ⟨1, _⟩ => rfl
  rw [val_main_v58_apply]
  refine congrArg₂ (· + ·) rfl (Finset.sum_congr rfl fun k _ => ?_)
  rw [hi k, val_main_v57_apply]; rfl

end Ref

/-! ## The five statistics agree -/

section Agree
open Cert.ReferenceIdeal.ReadP

/-- The clipped counts. -/
theorem safe_agree (c : Dev nD) : KTail.safeK m ρ c = val_main_v16 (F := Ideal) (X1 m c) := by
  funext i
  obtain ⟨cl, rfl⟩ : ∃ cl : Fin 19, i = ix1 cl := ⟨i 0, eq_ix1 i⟩
  show shapeCast S19 (V4 m ρ c main_call0_v6 : S19x1.Idx → EReal) shapeCasts_S19x1_S19 (ix1 cl) = _
  rw [Mid.drop_unit_apply, safeR_eq]
  exact (congrFun (IO.v6_kept m ρ c) (ix2 cl 0)).trans (safeK_eq m ρ c cl)

/-- The validity. -/
theorem valid_agree (c : Dev nD) : (V4 m ρ c main_call0_v11 : S19.Idx → BitVec 1) = val_main_v21 (F := Ideal) (X1 m c) := by
  funext i
  obtain ⟨cl, rfl⟩ : ∃ cl : Fin 19, (i : S19.Idx) = ix1 cl := ⟨i 0, eq_ix1 i⟩
  rw [validR_eq]
  exact (congrFun (IO.v11_kept m ρ c) (ix1 cl)).trans (validK_eq m ρ c cl)

/-- The means. -/
theorem means_agree (c : Dev nD) : (V4 m ρ c main_call0_v8 : S19x128.Idx → EReal) = val_main_v19 (F := Ideal) (X0 m c) (X1 m c) := by
  funext i
  obtain ⟨cl, d, rfl⟩ : ∃ (cl : Fin 19) (d : Fin 128), (i : S19x128.Idx) = ix2 cl d := ⟨i 0, i 1, eq_ix2 i⟩
  rw [meanR_eq]
  exact (congrFun (IO.v8_kept m ρ c) (ix2 cl d)).trans (meanK_eq m ρ c cl d)

/-- The kernel's means entry by entry are the reference's. -/
theorem a8_eq (c : Dev nD) (cl : Fin 19) (d : Fin 128) :
    Mid.a8 m ρ c (ix2 cl d) = val_main_v19 (F := Ideal) (X0 m c) (X1 m c) (ix2 cl d) := by
  rw [meanK_eq, meanR_eq]

/-- The squared mean norms. -/
theorem mn2_agree (c : Dev nD) : KTail.mn2K m ρ c = val_main_v58 (F := Ideal) (X0 m c) (X1 m c) := by
  funext i
  obtain ⟨cl, rfl⟩ : ∃ cl : Fin 19, i = ix1 cl := ⟨i 0, eq_ix1 i⟩
  show shapeCast S19 (V4 m ρ c main_call0_v16 : S19x1.Idx → EReal) shapeCasts_S19x1_S19 (ix1 cl) = _
  rw [Mid.drop_unit_apply, mn2R_eq]
  refine (congrFun (IO.v16_kept m ρ c) (ix2 cl 0)).trans ((Mid.v16_apply m ρ c cl).trans ?_)
  refine congrArg₂ (· + ·) rfl (Finset.sum_congr rfl fun d _ => ?_)
  rw [a8_eq]

end Agree

/-! ## The variance sums agree, where the features are real numbers -/

section Var
open Cert.ReferenceIdeal.ReadP Cert.ReferenceIdeal.RefVar

/-- The second call's output as the last stretch finds it, at its literal type. -/
abbrev var2 (c : Dev nD) : S2x19x1.Idx → EReal := V4 m ρ c main_call0_v17

theorem var_agree (c : Dev nD) (hpre : ∀ i, ∃ r : ℝ, X0 m c i = (r : EReal)) :
    KTail.varsumK m ρ c = val_main_v53 (F := Ideal) (X0 m c) (X1 m c) := by
  funext i
  obtain ⟨cl, rfl⟩ : ∃ cl : Fin 19, i = ix1 cl := ⟨i 0, eq_ix1 i⟩
  show shapeCast S19 (Host.reduceAdd (V4 m ρ c main_call0_v17 : FVec Ideal S2x19x1 .f32)
      (constant (F := Ideal) S_ .f32 0x00000000#32) reducesTo_S2x19x1_S19x1_d0 h_S_) shapeCasts_S19x1_S19 (ix1 cl) = _
  rw [Mid.drop_unit_apply, Mid.add_slabs_apply, zeroW_eq, zero_add, var_eq]
  -- what the second call reads is the argument arrays, by batch, channel and position
  have hl : ∀ b p, Region1.labs (V3 m ρ) c (ix3 b 0 p) = lab3 (X1 m c) b p := fun b p =>
    (congrFun (IO.labs_kept m ρ c) (ix3 b 0 p)).trans (IO.labs_in m ρ c b p)
  have hfe : ∀ b p, (fun d => Region1.feats (V3 m ρ) c (ix3 b d p)) = fun d => fea3 (X0 m c) b d p := fun b p =>
    funext fun d => (congrFun (IO.feats_kept m ρ c) (ix3 b d p)).trans (IO.feats_in m ρ c b d p)
  -- the means it reads are the reference's, hence real; their squared norms and the validity are the middle stretch's
  have hmeans : Region1.meansA (V3 m ρ) c = meansR (X0 m c) (X1 m c) :=
    funext fun c' => funext fun d => a8_eq m ρ c c' d
  have hvalid : (fun c' => Mid.a11 m ρ c (ix1 c')) = validR (X1 m c) :=
    funext fun c' => (validK_eq m ρ c c').trans (validR_eq (X1 m c) c').symm
  have hm : ∀ c' d, ∃ r : ℝ, Region1.meansA (V3 m ρ) c c' d = (r : EReal) := fun c' d => by
    obtain ⟨r, hr⟩ := means_real (X0 m c) (X1 m c) hpre c' d
    exact ⟨r, (meanK_eq m ρ c c' d).trans hr⟩
  have h : ∀ k : Fin 2, var2 m ρ c (ix3 k cl 0)
      = coreSum (fun b p => hot cl (lab3 (X1 m c) b p)
          * contribR (meansR (X0 m c) (X1 m c)) (validR (X1 m c)) cl (fun d => fea3 (X0 m c) b d p)) k := fun k =>
    (congrFun (IO.var_out m ρ c) (ix3 k cl 0)).trans ((Region1.var_arr (V3 m ρ) c k cl).trans
      (congrArg (fun g => coreSum g k) (funext fun b => funext fun p => by
        rw [hl b p, hfe b p,
          contrib_eq (Region1.meansA (V3 m ρ) c) (Region1.mn2A (V3 m ρ) c) (Region1.vfA (V3 m ρ) c)
            (fun c' => Mid.a11 m ρ c (ix1 c')) (fun d => fea3 (X0 m c) b d p) (lab3 (X1 m c) b p) cl
            hm (fun d => hpre _) (fun c' => Mid.v16_apply m ρ c c') (fun c' => Mid.v13_apply m ρ c c'),
          hmeans, hvalid])))
  show ∑ k : Fin 2, var2 m ρ c (ix3 k cl 0) = _
  rw [Finset.sum_congr rfl fun k _ => h k, coreSum_total]

end Var

/-! ## The results agree -/

/-- The kernel's result buffer after its run is the reference's last stage of the same arguments. -/
theorem result_agree (c : Dev nD) (hpre : ∀ i, ∃ r : ℝ, X0 m c i = (r : EReal)) :
    (W5 m ρ c (Proc.devRef .tc main_v0) : S_.Idx → EReal)
      = Cert.ReferenceIdeal.ReadP.val_main_v108 (F := Ideal) (X0 m c) (X1 m c) := by
  refine (KTail.result_eq m ρ c).trans ?_
  rw [var_agree m ρ c hpre, safe_agree, valid_agree, mn2_agree, means_agree]
  exact (Cert.ReferenceIdeal.RefTail.result_eq (F := Ideal) (X0 m c) (X1 m c)).symm

end Cert.Equal

end
-- ==== Proof.lean ====
/-
  The certificate of a clustering loss computed by two Pallas kernels against its jnp reference.

  Both programs take features [8, 128, 256, 256] and labels [8, 256, 256] and return one number: with 19 classes,
  per class the count, the mean feature vector and the mean squared hinge of the distance of the class's pixels to
  that mean, combined over the classes with more than 100 pixels into a variance term, a pairwise-distance term and a
  norm term. The kernel computes the counts and feature sums in one pass over the pixels (a one-hot matrix product per
  tile, accumulated per core and added on the host) and the variance sums in a second pass with the squared distance
  expanded as ‖f‖² − 2 f·mean + ‖mean‖²; the reference scatters per-pixel values into per-class rows and subtracts the
  gathered mean before squaring. On the extended reals the two agree wherever the features are finite: the sums are
  the same sums in another order, a pixel whose label is no class contributes to neither, and the expansion of the
  squared distance is an identity of real numbers (the means are real because the counts are clipped at 1).

  The three frames: the kernels' frames are the generated frame certificates; the reference is a host program whose
  run reads back every result, so its frame is that run with the result dropped. The idealization rewrote nothing, so
  nothing is to be preserved. The algebraic conjunct: the idealized kernel's run with its result buffer named, the
  reference's run, and the equality of the two results from the equality of five small per-class arrays.
-/
import proofs.«428978_j18485539242916_3_alg».proof.Defs
import proofs.«428978_j18485539242916_3_alg».proof.Proof.Gen.Kernel
import proofs.«428978_j18485539242916_3_alg».proof.Proof.Gen.Kernel.Skeleton
import proofs.«428978_j18485539242916_3_alg».proof.Proof.Gen.Kernel.Launch
import proofs.«428978_j18485539242916_3_alg».proof.Proof.Gen.Kernel.Points
import proofs.«428978_j18485539242916_3_alg».proof.Proof.Gen.Kernel.Frame
import proofs.«428978_j18485539242916_3_alg».proof.Proof.Gen.KernelIdeal
import proofs.«428978_j18485539242916_3_alg».proof.Proof.Gen.KernelIdeal.Skeleton
import proofs.«428978_j18485539242916_3_alg».proof.Proof.Gen.KernelIdeal.Launch
import proofs.«428978_j18485539242916_3_alg».proof.Proof.Gen.KernelIdeal.Points
import proofs.«428978_j18485539242916_3_alg».proof.Proof.Gen.KernelIdeal.Frame
import proofs.«428978_j18485539242916_3_alg».proof.Proof.Gen.ReferenceIdeal
import proofs.«428978_j18485539242916_3_alg».proof.Proof.Gen.Pre_finite_inputs
import proofs.«428978_j18485539242916_3_alg».proof.Proof.KernelRun
import proofs.«428978_j18485539242916_3_alg».proof.Proof.RefRead
import proofs.«428978_j18485539242916_3_alg».proof.Proof.Finite
import proofs.«428978_j18485539242916_3_alg».proof.Proof.Equal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, read back, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Equal results: the kernel's result buffer ends at the fold of its host stretches and its two calls' write-backs,
    the reference's at its last stage, and the two are one number where the features are finite. -/
theorem algebraic : Cert.algebraic_KernelIdeal_ReferenceIdeal := by
  intro m ρ m' ρ' hpre hagree
  refine ⟨fun c => Cert.KernelIdeal.Gen.W5 m ρ c (Proc.devRef .tc Cert.KernelIdeal.main_v0),
    Cert.KernelIdeal.GenRun.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v108_eq, (hagree c).1, (hagree c).2]
  exact (Cert.Equal.result_agree m ρ c (Cert.Finite.real_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
